-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S32x64 : Shape := ⟨2, ![32, 64]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel
  bcast_S_S32x64 : S_.BroadcastsInDim S32x64 (![] : Fin 0 → Fin S32x64.rank)
  reducesTo_S32x64_S_d0_1 : S32x64.ReducesTo [0, 1] S_

variable [Facts]

def fn_part2 {F : FTy → Type} [FloatOps F] (main_arg5 : IVec S32x64 32) (main_v28 : IVec S_ 1) (main_v31 : IVec S_ 1) : IVec S_ 1 :=
  let main_v32 : IVec S_ 1 := andi main_v28 main_v31
  let main_c_14 : IVec S_ 32 := constantI S_ 32 0#32
  let main_v33 : IVec S32x64 32 := broadcastInDim S32x64 ![] bcast_S_S32x64 main_c_14
  let main_v34 : IVec S32x64 1 := cmpi .sge main_arg5 main_v33
  let main_c_15 : IVec S_ 1 := constantI S_ 1 1#1
  let main_v35 : IVec S_ 1 := (fun x v => Host.reduce IntOp.andi x v reducesTo_S32x64_S_d0_1 h_S_) main_v34 main_c_15
  let main_v36 : IVec S_ 1 := andi main_v32 main_v35
  let main_c_16 : IVec S_ 32 := constantI S_ 32 504#32
  let main_v37 : IVec S32x64 32 := broadcastInDim S32x64 ![] bcast_S_S32x64 main_c_16
  let main_v38 : IVec S32x64 1 := cmpi .sle main_arg5 main_v37
  let main_c_17 : IVec S_ 1 := constantI S_ 1 1#1
  let main_v39 : IVec S_ 1 := (fun x v => Host.reduce IntOp.andi x v reducesTo_S32x64_S_d0_1 h_S_) main_v38 main_c_17
  let main_v40 : IVec S_ 1 := andi main_v36 main_v39
  main_v40

def fn_part1 {F : FTy → Type} [FloatOps F] (main_arg3 : IVec S32x64 32) (main_arg4 : IVec S32x64 32) (main_arg5 : IVec S32x64 32) (main_v12 : IVec S_ 1) (main_v15 : IVec S_ 1) : IVec S_ 1 :=
  let main_v16 : IVec S_ 1 := andi main_v12 main_v15
  let main_c_6 : IVec S_ 32 := constantI S_ 32 0#32
  let main_v17 : IVec S32x64 32 := broadcastInDim S32x64 ![] bcast_S_S32x64 main_c_6
  let main_v18 : IVec S32x64 1 := cmpi .sge main_arg3 main_v17
  let main_c_7 : IVec S_ 1 := constantI S_ 1 1#1
  let main_v19 : IVec S_ 1 := (fun x v => Host.reduce IntOp.andi x v reducesTo_S32x64_S_d0_1 h_S_) main_v18 main_c_7
  let main_v20 : IVec S_ 1 := andi main_v16 main_v19
  let main_c_8 : IVec S_ 32 := constantI S_ 32 504#32
  let main_v21 : IVec S32x64 32 := broadcastInDim S32x64 ![] bcast_S_S32x64 main_c_8
  let main_v22 : IVec S32x64 1 := cmpi .sle main_arg3 main_v21
  let main_c_9 : IVec S_ 1 := constantI S_ 1 1#1
  let main_v23 : IVec S_ 1 := (fun x v => Host.reduce IntOp.andi x v reducesTo_S32x64_S_d0_1 h_S_) main_v22 main_c_9
  let main_v24 : IVec S_ 1 := andi main_v20 main_v23
  let main_c_10 : IVec S_ 32 := constantI S_ 32 0#32
  let main_v25 : IVec S32x64 32 := broadcastInDim S32x64 ![] bcast_S_S32x64 main_c_10
  let main_v26 : IVec S32x64 1 := cmpi .sge main_arg4 main_v25
  let main_c_11 : IVec S_ 1 := constantI S_ 1 1#1
  let main_v27 : IVec S_ 1 := (fun x v => Host.reduce IntOp.andi x v reducesTo_S32x64_S_d0_1 h_S_) main_v26 main_c_11
  let main_v28 : IVec S_ 1 := andi main_v24 main_v27
  let main_c_12 : IVec S_ 32 := constantI S_ 32 504#32
  let main_v29 : IVec S32x64 32 := broadcastInDim S32x64 ![] bcast_S_S32x64 main_c_12
  let main_v30 : IVec S32x64 1 := cmpi .sle main_arg4 main_v29
  let main_c_13 : IVec S_ 1 := constantI S_ 1 1#1
  let main_v31 : IVec S_ 1 := (fun x v => Host.reduce IntOp.andi x v reducesTo_S32x64_S_d0_1 h_S_) main_v30 main_c_13
  fn_part2 (F := F) main_arg5 main_v28 main_v31

def fn {F : FTy → Type} [FloatOps F] (main_arg0 : FVec F S32x3x512x512 .f32) (main_arg1 : FVec F S32x3x512x512 .f32) (main_arg2 : IVec S32x64 32) (main_arg3 : IVec S32x64 32) (main_arg4 : IVec S32x64 32) (main_arg5 : IVec S32x64 32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  let main_c_2 : IVec S_ 32 := constantI S_ 32 0#32
  let main_v9 : IVec S32x64 32 := broadcastInDim S32x64 ![] bcast_S_S32x64 main_c_2
  let main_v10 : IVec S32x64 1 := cmpi .sge main_arg2 main_v9
  let main_c_3 : IVec S_ 1 := constantI S_ 1 1#1
  let main_v11 : IVec S_ 1 := (fun x v => Host.reduce IntOp.andi x v reducesTo_S32x64_S_d0_1 h_S_) main_v10 main_c_3
  let main_v12 : IVec S_ 1 := andi main_v8 main_v11
  let main_c_4 : IVec S_ 32 := constantI S_ 32 504#32
  let main_v13 : IVec S32x64 32 := broadcastInDim S32x64 ![] bcast_S_S32x64 main_c_4
  let main_v14 : IVec S32x64 1 := cmpi .sle main_arg2 main_v13
  let main_c_5 : IVec S_ 1 := constantI S_ 1 1#1
  let main_v15 : IVec S_ 1 := (fun x v => Host.reduce IntOp.andi x v reducesTo_S32x64_S_d0_1 h_S_) main_v14 main_c_5
  fn_part1 (F := F) main_arg3 main_arg4 main_arg5 main_v12 main_v15
-- ==== Kernel.lean ====
abbrev S32x3x512x512 : Shape := ⟨4, ![32, 3, 512, 512]⟩
abbrev S32x64 : Shape := ⟨2, ![32, 64]⟩
abbrev S8x64 : Shape := ⟨2, ![8, 64]⟩
abbrev S64x3x8x8 : Shape := ⟨4, ![64, 3, 8, 8]⟩
abbrev S64 : Shape := ⟨1, ![64]⟩
abbrev S1x1 : Shape := ⟨2, ![1, 1]⟩
abbrev S1 : Shape := ⟨1, ![1]⟩
abbrev S_ : Shape := ⟨0, ![]⟩
abbrev S1x3x8x8 : Shape := ⟨4, ![1, 3, 8, 8]⟩
abbrev S3x8x8 : Shape := ⟨3, ![3, 8, 8]⟩
abbrev S64x3x8 : Shape := ⟨3, ![64, 3, 8]⟩
abbrev S64x3 : Shape := ⟨2, ![64, 3]⟩
abbrev S1x64 : Shape := ⟨2, ![1, 64]⟩

abbrev nBuf : Space → Nat
  | .hbm => 19
  | .vmem => 10
  | .smem => 4
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x64, .f32⟩
  | .hbm, ⟨13, _⟩ => ⟨S32x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | .local _ .vmem, ⟨7, _⟩ => ⟨S8x64, .f32⟩
  | .local _ .vmem, ⟨8, _⟩ => ⟨S64x3x8x8, .f32⟩
  | .local _ .vmem, ⟨9, _⟩ => ⟨S64x3x8x8, .f32⟩
  | .local _ .smem, ⟨0, _⟩ => ⟨S32x64, .i32⟩
  | .local _ .smem, ⟨1, _⟩ => ⟨S32x64, .i32⟩
  | .local _ .smem, ⟨2, _⟩ => ⟨S32x64, .i32⟩
  | .local _ .smem, ⟨3, _⟩ => ⟨S32x64, .i32⟩
  | _, _ => ⟨S32x3x512x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨4, ![main_arg2.idx, main_arg3.idx, main_arg4.idx, main_arg5.idx], fun | 0 => main_arg2.names | 1 => main_arg3.names | 2 => main_arg4.names | 3 => main_arg5.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

@[reducible] def k0_t1_loop : Scf.Loop 32 :=
  let c0_i32_0 : BitVec 32 := 0#32
  let c64_i32 : BitVec 32 := 64#32
  let v2 : BitVec 32 := Scalar.addi c0_i32_0 c64_i32
  let c1_i32 : BitVec 32 := 1#32
  ⟨c0_i32_0, v2, c1_i32⟩
def k0_off1 (i : grid0.Coords) (k0_t1 : Fin k0_t1_loop.trips) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v377 : Index := Scalar.indexCast v1
  let c0_i32_0 : BitVec 32 := 0#32
  let c1_i32 : BitVec 32 := 1#32
  let arg15 : BitVec 32 := Scf.iv c0_i32_0 c1_i32 k0_t1
  let v378 : Index := Scalar.indexCast arg15
  ![v377.toNat, v378.toNat]
def k0_off2 (k0_t1 : Fin k0_t1_loop.trips) : Fin 1 → Nat :=
  let c0_i32_0 : BitVec 32 := 0#32
  let c1_i32 : BitVec 32 := 1#32
  let arg15 : BitVec 32 := Scf.iv c0_i32_0 c1_i32 k0_t1
  ![arg15.toNat]
def k0_off3 (k0_t1 : Fin k0_t1_loop.trips) : Fin 4 → Nat :=
  let c0_i32_0 : BitVec 32 := 0#32
  let c1_i32 : BitVec 32 := 1#32
  let arg15 : BitVec 32 := Scf.iv c0_i32_0 c1_i32 k0_t1
  let c0_i32_326 : BitVec 32 := 0#32
  let c0_i32_327 : BitVec 32 := 0#32
  let c0_i32_328 : BitVec 32 := 0#32
  ![arg15.toNat, 0, 0, 0]
def k0_off4 (i : grid0.Coords) (v379 : BitVec 32) (v382 : BitVec 32) : Fin 4 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c0_i32_329 : BitVec 32 := 0#32
  ![v1.toNat, 0, v379.toNat, v382.toNat]

def k0_chk1 (i : grid0.Coords) (v379 : BitVec 32) (v382 : BitVec 32) : Prop :=
  (∀ a, (k0_off4 i v379 v382) a + S1x3x8x8.size a ≤ S32x3x512x512.size a)
instance k0_chk1.dec : ∀ (i : grid0.Coords) (v379 : BitVec 32) (v382 : BitVec 32), Decidable (k0_chk1 i v379 v382) := fun i v379 v382 => decidable_of_iff' _ (Iff.of_eq (k0_chk1.eq_1 i v379 v382))
theorem k0_off4_inb : ∀ (i : grid0.Coords) (v379 : BitVec 32) (v382 : BitVec 32) (k0_hw1 : k0_chk1 i v379 v382), ∀ a, (k0_off4 i v379 v382) a + S1x3x8x8.size a ≤ S32x3x512x512.size a := fun i v379 v382 k0_hw1 => k0_hw1

def k0_off5 (i : grid0.Coords) (k0_t1 : Fin k0_t1_loop.trips) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v389 : Index := Scalar.indexCast v1
  let c0_i32_0 : BitVec 32 := 0#32
  let c1_i32 : BitVec 32 := 1#32
  let arg15 : BitVec 32 := Scf.iv c0_i32_0 c1_i32 k0_t1
  let v390 : Index := Scalar.indexCast arg15
  ![v389.toNat, v390.toNat]
def k0_off6 (k0_t1 : Fin k0_t1_loop.trips) : Fin 1 → Nat :=
  let c0_i32_0 : BitVec 32 := 0#32
  let c1_i32 : BitVec 32 := 1#32
  let arg15 : BitVec 32 := Scf.iv c0_i32_0 c1_i32 k0_t1
  ![arg15.toNat]
def k0_off7 (k0_t1 : Fin k0_t1_loop.trips) : Fin 4 → Nat :=
  let c0_i32_0 : BitVec 32 := 0#32
  let c1_i32 : BitVec 32 := 1#32
  let arg15 : BitVec 32 := Scf.iv c0_i32_0 c1_i32 k0_t1
  let c0_i32_330 : BitVec 32 := 0#32
  let c0_i32_331 : BitVec 32 := 0#32
  let c0_i32_332 : BitVec 32 := 0#32
  ![arg15.toNat, 0, 0, 0]
def k0_off8 (i : grid0.Coords) (v391 : BitVec 32) (v394 : BitVec 32) : Fin 4 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c0_i32_333 : BitVec 32 := 0#32
  ![v1.toNat, 0, v391.toNat, v394.toNat]

def k0_chk2 (i : grid0.Coords) (v391 : BitVec 32) (v394 : BitVec 32) : Prop :=
  (∀ a, (k0_off8 i v391 v394) a + S1x3x8x8.size a ≤ S32x3x512x512.size a)
instance k0_chk2.dec : ∀ (i : grid0.Coords) (v391 : BitVec 32) (v394 : BitVec 32), Decidable (k0_chk2 i v391 v394) := fun i v391 v394 => decidable_of_iff' _ (Iff.of_eq (k0_chk2.eq_1 i v391 v394))
theorem k0_off8_inb : ∀ (i : grid0.Coords) (v391 : BitVec 32) (v394 : BitVec 32) (k0_hw2 : k0_chk2 i v391 v394), ∀ a, (k0_off8 i v391 v394) a + S1x3x8x8.size a ≤ S32x3x512x512.size a := fun i v391 v394 k0_hw2 => k0_hw2

@[reducible] def k0_t2_loop : Scf.Loop 32 :=
  let c0_i32_2 : BitVec 32 := 0#32
  let c64_i32_3 : BitVec 32 := 64#32
  let v3 : BitVec 32 := Scalar.addi c0_i32_2 c64_i32_3
  let c1_i32_4 : BitVec 32 := 1#32
  ⟨c0_i32_2, v3, c1_i32_4⟩
def k0_off9 (k0_t2 : Fin k0_t2_loop.trips) : Fin 1 → Nat :=
  let c0_i32_2 : BitVec 32 := 0#32
  let c1_i32_4 : BitVec 32 := 1#32
  let arg15 : BitVec 32 := Scf.iv c0_i32_2 c1_i32_4 k0_t2
  ![arg15.toNat]
def k0_off10 (k0_t2 : Fin k0_t2_loop.trips) : Fin 4 → Nat :=
  let c0_i32_2 : BitVec 32 := 0#32
  let c1_i32_4 : BitVec 32 := 1#32
  let arg15 : BitVec 32 := Scf.iv c0_i32_2 c1_i32_4 k0_t2
  let c0_i32_327 : BitVec 32 := 0#32
  let c0_i32_328 : BitVec 32 := 0#32
  let c0_i32_329 : BitVec 32 := 0#32
  ![arg15.toNat, 0, 0, 0]
@[reducible] def k0_t3_loop : Scf.Loop 32 :=
  let c0_i32_39 : BitVec 32 := 0#32
  let c64_i32_40 : BitVec 32 := 64#32
  let v49 : BitVec 32 := Scalar.addi c0_i32_39 c64_i32_40
  let c1_i32_41 : BitVec 32 := 1#32
  ⟨c0_i32_39, v49, c1_i32_41⟩
def k0_off11 (i : grid0.Coords) (k0_t3 : Fin k0_t3_loop.trips) : Fin 2 → Nat :=
  let arg0 : BitVec 32 := BitVec.ofNat 32 (i 0).val
  let c8_i32 : BitVec 32 := 8#32
  let v0 : BitVec 32 := Scalar.muli arg0 c8_i32
  let c1_i32_38 : BitVec 32 := 1#32
  let v48 : BitVec 32 := Scalar.addi v0 c1_i32_38
  let v377 : Index := Scalar.indexCast v48
  let c0_i32_39 : BitVec 32 := 0#32
  let c1_i32_41 : BitVec 32 := 1#32
  let arg15 : BitVec 32 := Scf.iv c0_i32_39 c1_i32_41 k0_t3
  let v378 : Index := Scalar.indexCast arg15
  ![v377.toNat, v378.toNat]
def k0_off12 (k0_t3 : Fin k0_t3_loop.trips) : Fin 1 → Nat :=
  let c0_i32_39 : BitVec 32 := 0#32
  let c1_i32_41 : BitVec 32 := 1#32
  let arg15 : BitVec 32 := Scf.iv c0_i32_39 c1_i32_41 k0_t3
  ![arg15.toNat]
def k0_off13 (k0_t3 : Fin k0_t3_loop.trips) : Fin 4 → Nat :=
  let c0_i32_39 : BitVec 32 := 0#32
  let c1_i32_41 : BitVec 32 := 1#32
  let arg15 : BitVec 32 := Scf.iv c0_i32_39 c1_i32_41 k0_t3
  let c0_i32_326 : BitVec 32 := 0#32
  let c0_i32_327 : BitVec 32 := 0#32
  let c0_i32_328 : BitVec 32 := 0#32
  ![arg15.toNat, 0, 0, 0]
def k0_off14 (i : grid0.Coords) (v379 : BitVec 32) (v382 : BitVec 32) : Fin 4 → Nat :=
  let arg0 : BitVec 32 := BitVec.ofNat 32 (i 0).val
  let c8_i32 : BitVec 32 := 8#32
  let v0 : BitVec 32 := Scalar.muli arg0 c8_i32
  let c1_i32_38 : BitVec 32 := 1#32
  let v48 : BitVec 32 := Scalar.addi v0 c1_i32_38
  let c0_i32_329 : BitVec 32 := 0#32
  ![v48.toNat, 0, v379.toNat, v382.toNat]

def k0_chk3 (i : grid0.Coords) (v379 : BitVec 32) (v382 : BitVec 32) : Prop :=
  (∀ a, (k0_off14 i v379 v382) a + S1x3x8x8.size a ≤ S32x3x512x512.size a)
instance k0_chk3.dec : ∀ (i : grid0.Coords) (v379 : BitVec 32) (v382 : BitVec 32), Decidable (k0_chk3 i v379 v382) := fun i v379 v382 => decidable_of_iff' _ (Iff.of_eq (k0_chk3.eq_1 i v379 v382))
theorem k0_off14_inb : ∀ (i : grid0.Coords) (v379 : BitVec 32) (v382 : BitVec 32) (k0_hw3 : k0_chk3 i v379 v382), ∀ a, (k0_off14 i v379 v382) a + S1x3x8x8.size a ≤ S32x3x512x512.size a := fun i v379 v382 k0_hw3 => k0_hw3

def k0_off15 (i : grid0.Coords) (k0_t3 : Fin k0_t3_loop.trips) : Fin 2 → Nat :=
  let arg0 : BitVec 32 := BitVec.ofNat 32 (i 0).val
  let c8_i32 : BitVec 32 := 8#32
  let v0 : BitVec 32 := Scalar.muli arg0 c8_i32
  let c1_i32_38 : BitVec 32 := 1#32
  let v48 : BitVec 32 := Scalar.addi v0 c1_i32_38
  let v389 : Index := Scalar.indexCast v48
  let c0_i32_39 : BitVec 32 := 0#32
  let c1_i32_41 : BitVec 32 := 1#32
  let arg15 : BitVec 32 := Scf.iv c0_i32_39 c1_i32_41 k0_t3
  let v390 : Index := Scalar.indexCast arg15
  ![v389.toNat, v390.toNat]
def k0_off16 (k0_t3 : Fin k0_t3_loop.trips) : Fin 1 → Nat :=
  let c0_i32_39 : BitVec 32 := 0#32
  let c1_i32_41 : BitVec 32 := 1#32
  let arg15 : BitVec 32 := Scf.iv c0_i32_39 c1_i32_41 k0_t3
  ![arg15.toNat]
def k0_off17 (k0_t3 : Fin k0_t3_loop.trips) : Fin 4 → Nat :=
  let c0_i32_39 : BitVec 32 := 0#32
  let c1_i32_41 : BitVec 32 := 1#32
  let arg15 : BitVec 32 := Scf.iv c0_i32_39 c1_i32_41 k0_t3
  let c0_i32_330 : BitVec 32 := 0#32
  let c0_i32_331 : BitVec 32 := 0#32
  let c0_i32_332 : BitVec 32 := 0#32
  ![arg15.toNat, 0, 0, 0]
def k0_off18 (i : grid0.Coords) (v391 : BitVec 32) (v394 : BitVec 32) : Fin 4 → Nat :=
  let arg0 : BitVec 32 := BitVec.ofNat 32 (i 0).val
  let c8_i32 : BitVec 32 := 8#32
  let v0 : BitVec 32 := Scalar.muli arg0 c8_i32
  let c1_i32_38 : BitVec 32 := 1#32
  let v48 : BitVec 32 := Scalar.addi v0 c1_i32_38
  let c0_i32_333 : BitVec 32 := 0#32
  ![v48.toNat, 0, v391.toNat, v394.toNat]

def k0_chk4 (i : grid0.Coords) (v391 : BitVec 32) (v394 : BitVec 32) : Prop :=
  (∀ a, (k0_off18 i v391 v394) a + S1x3x8x8.size a ≤ S32x3x512x512.size a)
instance k0_chk4.dec : ∀ (i : grid0.Coords) (v391 : BitVec 32) (v394 : BitVec 32), Decidable (k0_chk4 i v391 v394) := fun i v391 v394 => decidable_of_iff' _ (Iff.of_eq (k0_chk4.eq_1 i v391 v394))
theorem k0_off18_inb : ∀ (i : grid0.Coords) (v391 : BitVec 32) (v394 : BitVec 32) (k0_hw4 : k0_chk4 i v391 v394), ∀ a, (k0_off18 i v391 v394) a + S1x3x8x8.size a ≤ S32x3x512x512.size a := fun i v391 v394 k0_hw4 => k0_hw4

@[reducible] def k0_t4_loop : Scf.Loop 32 :=
  let c0_i32_43 : BitVec 32 := 0#32
  let c64_i32_44 : BitVec 32 := 64#32
  let v50 : BitVec 32 := Scalar.addi c0_i32_43 c64_i32_44
  let c1_i32_45 : BitVec 32 := 1#32
  ⟨c0_i32_43, v50, c1_i32_45⟩
def k0_off19 (k0_t4 : Fin k0_t4_loop.trips) : Fin 1 → Nat :=
  let c0_i32_43 : BitVec 32 := 0#32
  let c1_i32_45 : BitVec 32 := 1#32
  let arg15 : BitVec 32 := Scf.iv c0_i32_43 c1_i32_45 k0_t4
  ![arg15.toNat]
def k0_off20 (k0_t4 : Fin k0_t4_loop.trips) : Fin 4 → Nat :=
  let c0_i32_43 : BitVec 32 := 0#32
  let c1_i32_45 : BitVec 32 := 1#32
  let arg15 : BitVec 32 := Scf.iv c0_i32_43 c1_i32_45 k0_t4
  let c0_i32_327 : BitVec 32 := 0#32
  let c0_i32_328 : BitVec 32 := 0#32
  let c0_i32_329 : BitVec 32 := 0#32
  ![arg15.toNat, 0, 0, 0]
@[reducible] def k0_t5_loop : Scf.Loop 32 :=
  let c0_i32_80 : BitVec 32 := 0#32
  let c64_i32_81 : BitVec 32 := 64#32
  let v96 : BitVec 32 := Scalar.addi c0_i32_80 c64_i32_81
  let c1_i32_82 : BitVec 32 := 1#32
  ⟨c0_i32_80, v96, c1_i32_82⟩
def k0_off21 (i : grid0.Coords) (k0_t5 : Fin k0_t5_loop.trips) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v95 : BitVec 32 := Scalar.addi v0 c2_i32
  let v377 : Index := Scalar.indexCast v95
  let c0_i32_80 : BitVec 32 := 0#32
  let c1_i32_82 : BitVec 32 := 1#32
  let arg15 : BitVec 32 := Scf.iv c0_i32_80 c1_i32_82 k0_t5
  let v378 : Index := Scalar.indexCast arg15
  ![v377.toNat, v378.toNat]
def k0_off22 (k0_t5 : Fin k0_t5_loop.trips) : Fin 1 → Nat :=
  let c0_i32_80 : BitVec 32 := 0#32
  let c1_i32_82 : BitVec 32 := 1#32
  let arg15 : BitVec 32 := Scf.iv c0_i32_80 c1_i32_82 k0_t5
  ![arg15.toNat]
def k0_off23 (k0_t5 : Fin k0_t5_loop.trips) : Fin 4 → Nat :=
  let c0_i32_80 : BitVec 32 := 0#32
  let c1_i32_82 : BitVec 32 := 1#32
  let arg15 : BitVec 32 := Scf.iv c0_i32_80 c1_i32_82 k0_t5
  let c0_i32_326 : BitVec 32 := 0#32
  let c0_i32_327 : BitVec 32 := 0#32
  let c0_i32_328 : BitVec 32 := 0#32
  ![arg15.toNat, 0, 0, 0]
def k0_off24 (i : grid0.Coords) (v379 : BitVec 32) (v382 : BitVec 32) : Fin 4 → Nat :=
  let arg0 : BitVec 32 := BitVec.ofNat 32 (i 0).val
  let c8_i32 : BitVec 32 := 8#32
  let v0 : BitVec 32 := Scalar.muli arg0 c8_i32
  let c2_i32 : BitVec 32 := 2#32
  let v95 : BitVec 32 := Scalar.addi v0 c2_i32
  let c0_i32_329 : BitVec 32 := 0#32
  ![v95.toNat, 0, v379.toNat, v382.toNat]

def k0_chk5 (i : grid0.Coords) (v379 : BitVec 32) (v382 : BitVec 32) : Prop :=
  (∀ a, (k0_off24 i v379 v382) a + S1x3x8x8.size a ≤ S32x3x512x512.size a)
instance k0_chk5.dec : ∀ (i : grid0.Coords) (v379 : BitVec 32) (v382 : BitVec 32), Decidable (k0_chk5 i v379 v382) := fun i v379 v382 => decidable_of_iff' _ (Iff.of_eq (k0_chk5.eq_1 i v379 v382))
theorem k0_off24_inb : ∀ (i : grid0.Coords) (v379 : BitVec 32) (v382 : BitVec 32) (k0_hw5 : k0_chk5 i v379 v382), ∀ a, (k0_off24 i v379 v382) a + S1x3x8x8.size a ≤ S32x3x512x512.size a := fun i v379 v382 k0_hw5 => k0_hw5

def k0_off25 (i : grid0.Coords) (k0_t5 : Fin k0_t5_loop.trips) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v95 : BitVec 32 := Scalar.addi v0 c2_i32
  let v389 : Index := Scalar.indexCast v95
  let c0_i32_80 : BitVec 32 := 0#32
  let c1_i32_82 : BitVec 32 := 1#32
  let arg15 : BitVec 32 := Scf.iv c0_i32_80 c1_i32_82 k0_t5
  let v390 : Index := Scalar.indexCast arg15
  ![v389.toNat, v390.toNat]
def k0_off26 (k0_t5 : Fin k0_t5_loop.trips) : Fin 1 → Nat :=
  let c0_i32_80 : BitVec 32 := 0#32
  let c1_i32_82 : BitVec 32 := 1#32
  let arg15 : BitVec 32 := Scf.iv c0_i32_80 c1_i32_82 k0_t5
  ![arg15.toNat]
def k0_off27 (k0_t5 : Fin k0_t5_loop.trips) : Fin 4 → Nat :=
  let c0_i32_80 : BitVec 32 := 0#32
  let c1_i32_82 : BitVec 32 := 1#32
  let arg15 : BitVec 32 := Scf.iv c0_i32_80 c1_i32_82 k0_t5
  let c0_i32_330 : BitVec 32 := 0#32
  let c0_i32_331 : BitVec 32 := 0#32
  let c0_i32_332 : BitVec 32 := 0#32
  ![arg15.toNat, 0, 0, 0]
def k0_off28 (i : grid0.Coords) (v391 : BitVec 32) (v394 : BitVec 32) : Fin 4 → Nat :=
  let arg0 : BitVec 32 := BitVec.ofNat 32 (i 0).val
  let c8_i32 : BitVec 32 := 8#32
  let v0 : BitVec 32 := Scalar.muli arg0 c8_i32
  let c2_i32 : BitVec 32 := 2#32
  let v95 : BitVec 32 := Scalar.addi v0 c2_i32
  let c0_i32_333 : BitVec 32 := 0#32
  ![v95.toNat, 0, v391.toNat, v394.toNat]

def k0_chk6 (i : grid0.Coords) (v391 : BitVec 32) (v394 : BitVec 32) : Prop :=
  (∀ a, (k0_off28 i v391 v394) a + S1x3x8x8.size a ≤ S32x3x512x512.size a)
instance k0_chk6.dec : ∀ (i : grid0.Coords) (v391 : BitVec 32) (v394 : BitVec 32), Decidable (k0_chk6 i v391 v394) := fun i v391 v394 => decidable_of_iff' _ (Iff.of_eq (k0_chk6.eq_1 i v391 v394))
theorem k0_off28_inb : ∀ (i : grid0.Coords) (v391 : BitVec 32) (v394 : BitVec 32) (k0_hw6 : k0_chk6 i v391 v394), ∀ a, (k0_off28 i v391 v394) a + S1x3x8x8.size a ≤ S32x3x512x512.size a := fun i v391 v394 k0_hw6 => k0_hw6

@[reducible] def k0_t6_loop : Scf.Loop 32 :=
  let c0_i32_84 : BitVec 32 := 0#32
  let c64_i32_85 : BitVec 32 := 64#32
  let v97 : BitVec 32 := Scalar.addi c0_i32_84 c64_i32_85
  let c1_i32_86 : BitVec 32 := 1#32
  ⟨c0_i32_84, v97, c1_i32_86⟩
def k0_off29 (k0_t6 : Fin k0_t6_loop.trips) : Fin 1 → Nat :=
  let c0_i32_84 : BitVec 32 := 0#32
  let c1_i32_86 : BitVec 32 := 1#32
  let arg15 : BitVec 32 := Scf.iv c0_i32_84 c1_i32_86 k0_t6
  ![arg15.toNat]
def k0_off30 (k0_t6 : Fin k0_t6_loop.trips) : Fin 4 → Nat :=
  let c0_i32_84 : BitVec 32 := 0#32
  let c1_i32_86 : BitVec 32 := 1#32
  let arg15 : BitVec 32 := Scf.iv c0_i32_84 c1_i32_86 k0_t6
  let c0_i32_327 : BitVec 32 := 0#32
  let c0_i32_328 : BitVec 32 := 0#32
  let c0_i32_329 : BitVec 32 := 0#32
  ![arg15.toNat, 0, 0, 0]
@[reducible] def k0_t7_loop : Scf.Loop 32 :=
  let c0_i32_121 : BitVec 32 := 0#32
  let c64_i32_122 : BitVec 32 := 64#32
  let v143 : BitVec 32 := Scalar.addi c0_i32_121 c64_i32_122
  let c1_i32_123 : BitVec 32 := 1#32
  ⟨c0_i32_121, v143, c1_i32_123⟩
def k0_off31 (i : grid0.Coords) (k0_t7 : Fin k0_t7_loop.trips) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v142 : BitVec 32 := Scalar.addi v0 c3_i32
  let v377 : Index := Scalar.indexCast v142
  let c0_i32_121 : BitVec 32 := 0#32
  let c1_i32_123 : BitVec 32 := 1#32
  let arg15 : BitVec 32 := Scf.iv c0_i32_121 c1_i32_123 k0_t7
  let v378 : Index := Scalar.indexCast arg15
  ![v377.toNat, v378.toNat]
def k0_off32 (k0_t7 : Fin k0_t7_loop.trips) : Fin 1 → Nat :=
  let c0_i32_121 : BitVec 32 := 0#32
  let c1_i32_123 : BitVec 32 := 1#32
  let arg15 : BitVec 32 := Scf.iv c0_i32_121 c1_i32_123 k0_t7
  ![arg15.toNat]
def k0_off33 (k0_t7 : Fin k0_t7_loop.trips) : Fin 4 → Nat :=
  let c0_i32_121 : BitVec 32 := 0#32
  let c1_i32_123 : BitVec 32 := 1#32
  let arg15 : BitVec 32 := Scf.iv c0_i32_121 c1_i32_123 k0_t7
  let c0_i32_326 : BitVec 32 := 0#32
  let c0_i32_327 : BitVec 32 := 0#32
  let c0_i32_328 : BitVec 32 := 0#32
  ![arg15.toNat, 0, 0, 0]
def k0_off34 (i : grid0.Coords) (v379 : BitVec 32) (v382 : BitVec 32) : Fin 4 → Nat :=
  let arg0 : BitVec 32 := BitVec.ofNat 32 (i 0).val
  let c8_i32 : BitVec 32 := 8#32
  let v0 : BitVec 32 := Scalar.muli arg0 c8_i32
  let c3_i32 : BitVec 32 := 3#32
  let v142 : BitVec 32 := Scalar.addi v0 c3_i32
  let c0_i32_329 : BitVec 32 := 0#32
  ![v142.toNat, 0, v379.toNat, v382.toNat]

def k0_chk7 (i : grid0.Coords) (v379 : BitVec 32) (v382 : BitVec 32) : Prop :=
  (∀ a, (k0_off34 i v379 v382) a + S1x3x8x8.size a ≤ S32x3x512x512.size a)
instance k0_chk7.dec : ∀ (i : grid0.Coords) (v379 : BitVec 32) (v382 : BitVec 32), Decidable (k0_chk7 i v379 v382) := fun i v379 v382 => decidable_of_iff' _ (Iff.of_eq (k0_chk7.eq_1 i v379 v382))
theorem k0_off34_inb : ∀ (i : grid0.Coords) (v379 : BitVec 32) (v382 : BitVec 32) (k0_hw7 : k0_chk7 i v379 v382), ∀ a, (k0_off34 i v379 v382) a + S1x3x8x8.size a ≤ S32x3x512x512.size a := fun i v379 v382 k0_hw7 => k0_hw7

def k0_off35 (i : grid0.Coords) (k0_t7 : Fin k0_t7_loop.trips) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v142 : BitVec 32 := Scalar.addi v0 c3_i32
  let v389 : Index := Scalar.indexCast v142
  let c0_i32_121 : BitVec 32 := 0#32
  let c1_i32_123 : BitVec 32 := 1#32
  let arg15 : BitVec 32 := Scf.iv c0_i32_121 c1_i32_123 k0_t7
  let v390 : Index := Scalar.indexCast arg15
  ![v389.toNat, v390.toNat]
def k0_off36 (k0_t7 : Fin k0_t7_loop.trips) : Fin 1 → Nat :=
  let c0_i32_121 : BitVec 32 := 0#32
  let c1_i32_123 : BitVec 32 := 1#32
  let arg15 : BitVec 32 := Scf.iv c0_i32_121 c1_i32_123 k0_t7
  ![arg15.toNat]
def k0_off37 (k0_t7 : Fin k0_t7_loop.trips) : Fin 4 → Nat :=
  let c0_i32_121 : BitVec 32 := 0#32
  let c1_i32_123 : BitVec 32 := 1#32
  let arg15 : BitVec 32 := Scf.iv c0_i32_121 c1_i32_123 k0_t7
  let c0_i32_330 : BitVec 32 := 0#32
  let c0_i32_331 : BitVec 32 := 0#32
  let c0_i32_332 : BitVec 32 := 0#32
  ![arg15.toNat, 0, 0, 0]
def k0_off38 (i : grid0.Coords) (v391 : BitVec 32) (v394 : BitVec 32) : Fin 4 → Nat :=
  let arg0 : BitVec 32 := BitVec.ofNat 32 (i 0).val
  let c8_i32 : BitVec 32 := 8#32
  let v0 : BitVec 32 := Scalar.muli arg0 c8_i32
  let c3_i32 : BitVec 32 := 3#32
  let v142 : BitVec 32 := Scalar.addi v0 c3_i32
  let c0_i32_333 : BitVec 32 := 0#32
  ![v142.toNat, 0, v391.toNat, v394.toNat]

def k0_chk8 (i : grid0.Coords) (v391 : BitVec 32) (v394 : BitVec 32) : Prop :=
  (∀ a, (k0_off38 i v391 v394) a + S1x3x8x8.size a ≤ S32x3x512x512.size a)
instance k0_chk8.dec : ∀ (i : grid0.Coords) (v391 : BitVec 32) (v394 : BitVec 32), Decidable (k0_chk8 i v391 v394) := fun i v391 v394 => decidable_of_iff' _ (Iff.of_eq (k0_chk8.eq_1 i v391 v394))
theorem k0_off38_inb : ∀ (i : grid0.Coords) (v391 : BitVec 32) (v394 : BitVec 32) (k0_hw8 : k0_chk8 i v391 v394), ∀ a, (k0_off38 i v391 v394) a + S1x3x8x8.size a ≤ S32x3x512x512.size a := fun i v391 v394 k0_hw8 => k0_hw8

@[reducible] def k0_t8_loop : Scf.Loop 32 :=
  let c0_i32_125 : BitVec 32 := 0#32
  let c64_i32_126 : BitVec 32 := 64#32
  let v144 : BitVec 32 := Scalar.addi c0_i32_125 c64_i32_126
  let c1_i32_127 : BitVec 32 := 1#32
  ⟨c0_i32_125, v144, c1_i32_127⟩
def k0_off39 (k0_t8 : Fin k0_t8_loop.trips) : Fin 1 → Nat :=
  let c0_i32_125 : BitVec 32 := 0#32
  let c1_i32_127 : BitVec 32 := 1#32
  let arg15 : BitVec 32 := Scf.iv c0_i32_125 c1_i32_127 k0_t8
  ![arg15.toNat]
def k0_off40 (k0_t8 : Fin k0_t8_loop.trips) : Fin 4 → Nat :=
  let c0_i32_125 : BitVec 32 := 0#32
  let c1_i32_127 : BitVec 32 := 1#32
  let arg15 : BitVec 32 := Scf.iv c0_i32_125 c1_i32_127 k0_t8
  let c0_i32_327 : BitVec 32 := 0#32
  let c0_i32_328 : BitVec 32 := 0#32
  let c0_i32_329 : BitVec 32 := 0#32
  ![arg15.toNat, 0, 0, 0]
@[reducible] def k0_t9_loop : Scf.Loop 32 :=
  let c0_i32_162 : BitVec 32 := 0#32
  let c64_i32_163 : BitVec 32 := 64#32
  let v190 : BitVec 32 := Scalar.addi c0_i32_162 c64_i32_163
  let c1_i32_164 : BitVec 32 := 1#32
  ⟨c0_i32_162, v190, c1_i32_164⟩
def k0_off41 (i : grid0.Coords) (k0_t9 : Fin k0_t9_loop.trips) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v189 : BitVec 32 := Scalar.addi v0 c4_i32
  let v377 : Index := Scalar.indexCast v189
  let c0_i32_162 : BitVec 32 := 0#32
  let c1_i32_164 : BitVec 32 := 1#32
  let arg15 : BitVec 32 := Scf.iv c0_i32_162 c1_i32_164 k0_t9
  let v378 : Index := Scalar.indexCast arg15
  ![v377.toNat, v378.toNat]
def k0_off42 (k0_t9 : Fin k0_t9_loop.trips) : Fin 1 → Nat :=
  let c0_i32_162 : BitVec 32 := 0#32
  let c1_i32_164 : BitVec 32 := 1#32
  let arg15 : BitVec 32 := Scf.iv c0_i32_162 c1_i32_164 k0_t9
  ![arg15.toNat]
def k0_off43 (k0_t9 : Fin k0_t9_loop.trips) : Fin 4 → Nat :=
  let c0_i32_162 : BitVec 32 := 0#32
  let c1_i32_164 : BitVec 32 := 1#32
  let arg15 : BitVec 32 := Scf.iv c0_i32_162 c1_i32_164 k0_t9
  let c0_i32_326 : BitVec 32 := 0#32
  let c0_i32_327 : BitVec 32 := 0#32
  let c0_i32_328 : BitVec 32 := 0#32
  ![arg15.toNat, 0, 0, 0]
def k0_off44 (i : grid0.Coords) (v379 : BitVec 32) (v382 : BitVec 32) : Fin 4 → Nat :=
  let arg0 : BitVec 32 := BitVec.ofNat 32 (i 0).val
  let c8_i32 : BitVec 32 := 8#32
  let v0 : BitVec 32 := Scalar.muli arg0 c8_i32
  let c4_i32 : BitVec 32 := 4#32
  let v189 : BitVec 32 := Scalar.addi v0 c4_i32
  let c0_i32_329 : BitVec 32 := 0#32
  ![v189.toNat, 0, v379.toNat, v382.toNat]

def k0_chk9 (i : grid0.Coords) (v379 : BitVec 32) (v382 : BitVec 32) : Prop :=
  (∀ a, (k0_off44 i v379 v382) a + S1x3x8x8.size a ≤ S32x3x512x512.size a)
instance k0_chk9.dec : ∀ (i : grid0.Coords) (v379 : BitVec 32) (v382 : BitVec 32), Decidable (k0_chk9 i v379 v382) := fun i v379 v382 => decidable_of_iff' _ (Iff.of_eq (k0_chk9.eq_1 i v379 v382))
theorem k0_off44_inb : ∀ (i : grid0.Coords) (v379 : BitVec 32) (v382 : BitVec 32) (k0_hw9 : k0_chk9 i v379 v382), ∀ a, (k0_off44 i v379 v382) a + S1x3x8x8.size a ≤ S32x3x512x512.size a := fun i v379 v382 k0_hw9 => k0_hw9

def k0_off45 (i : grid0.Coords) (k0_t9 : Fin k0_t9_loop.trips) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v189 : BitVec 32 := Scalar.addi v0 c4_i32
  let v389 : Index := Scalar.indexCast v189
  let c0_i32_162 : BitVec 32 := 0#32
  let c1_i32_164 : BitVec 32 := 1#32
  let arg15 : BitVec 32 := Scf.iv c0_i32_162 c1_i32_164 k0_t9
  let v390 : Index := Scalar.indexCast arg15
  ![v389.toNat, v390.toNat]
def k0_off46 (k0_t9 : Fin k0_t9_loop.trips) : Fin 1 → Nat :=
  let c0_i32_162 : BitVec 32 := 0#32
  let c1_i32_164 : BitVec 32 := 1#32
  let arg15 : BitVec 32 := Scf.iv c0_i32_162 c1_i32_164 k0_t9
  ![arg15.toNat]
def k0_off47 (k0_t9 : Fin k0_t9_loop.trips) : Fin 4 → Nat :=
  let c0_i32_162 : BitVec 32 := 0#32
  let c1_i32_164 : BitVec 32 := 1#32
  let arg15 : BitVec 32 := Scf.iv c0_i32_162 c1_i32_164 k0_t9
  let c0_i32_330 : BitVec 32 := 0#32
  let c0_i32_331 : BitVec 32 := 0#32
  let c0_i32_332 : BitVec 32 := 0#32
  ![arg15.toNat, 0, 0, 0]
def k0_off48 (i : grid0.Coords) (v391 : BitVec 32) (v394 : BitVec 32) : Fin 4 → Nat :=
  let arg0 : BitVec 32 := BitVec.ofNat 32 (i 0).val
  let c8_i32 : BitVec 32 := 8#32
  let v0 : BitVec 32 := Scalar.muli arg0 c8_i32
  let c4_i32 : BitVec 32 := 4#32
  let v189 : BitVec 32 := Scalar.addi v0 c4_i32
  let c0_i32_333 : BitVec 32 := 0#32
  ![v189.toNat, 0, v391.toNat, v394.toNat]

def k0_chk10 (i : grid0.Coords) (v391 : BitVec 32) (v394 : BitVec 32) : Prop :=
  (∀ a, (k0_off48 i v391 v394) a + S1x3x8x8.size a ≤ S32x3x512x512.size a)
instance k0_chk10.dec : ∀ (i : grid0.Coords) (v391 : BitVec 32) (v394 : BitVec 32), Decidable (k0_chk10 i v391 v394) := fun i v391 v394 => decidable_of_iff' _ (Iff.of_eq (k0_chk10.eq_1 i v391 v394))
theorem k0_off48_inb : ∀ (i : grid0.Coords) (v391 : BitVec 32) (v394 : BitVec 32) (k0_hw10 : k0_chk10 i v391 v394), ∀ a, (k0_off48 i v391 v394) a + S1x3x8x8.size a ≤ S32x3x512x512.size a := fun i v391 v394 k0_hw10 => k0_hw10

@[reducible] def k0_t10_loop : Scf.Loop 32 :=
  let c0_i32_166 : BitVec 32 := 0#32
  let c64_i32_167 : BitVec 32 := 64#32
  let v191 : BitVec 32 := Scalar.addi c0_i32_166 c64_i32_167
  let c1_i32_168 : BitVec 32 := 1#32
  ⟨c0_i32_166, v191, c1_i32_168⟩
def k0_off49 (k0_t10 : Fin k0_t10_loop.trips) : Fin 1 → Nat :=
  let c0_i32_166 : BitVec 32 := 0#32
  let c1_i32_168 : BitVec 32 := 1#32
  let arg15 : BitVec 32 := Scf.iv c0_i32_166 c1_i32_168 k0_t10
  ![arg15.toNat]
def k0_off50 (k0_t10 : Fin k0_t10_loop.trips) : Fin 4 → Nat :=
  let c0_i32_166 : BitVec 32 := 0#32
  let c1_i32_168 : BitVec 32 := 1#32
  let arg15 : BitVec 32 := Scf.iv c0_i32_166 c1_i32_168 k0_t10
  let c0_i32_327 : BitVec 32 := 0#32
  let c0_i32_328 : BitVec 32 := 0#32
  let c0_i32_329 : BitVec 32 := 0#32
  ![arg15.toNat, 0, 0, 0]
@[reducible] def k0_t11_loop : Scf.Loop 32 :=
  let c0_i32_203 : BitVec 32 := 0#32
  let c64_i32_204 : BitVec 32 := 64#32
  let v237 : BitVec 32 := Scalar.addi c0_i32_203 c64_i32_204
  let c1_i32_205 : BitVec 32 := 1#32
  ⟨c0_i32_203, v237, c1_i32_205⟩
def k0_off51 (i : grid0.Coords) (k0_t11 : Fin k0_t11_loop.trips) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v236 : BitVec 32 := Scalar.addi v0 c5_i32
  let v377 : Index := Scalar.indexCast v236
  let c0_i32_203 : BitVec 32 := 0#32
  let c1_i32_205 : BitVec 32 := 1#32
  let arg15 : BitVec 32 := Scf.iv c0_i32_203 c1_i32_205 k0_t11
  let v378 : Index := Scalar.indexCast arg15
  ![v377.toNat, v378.toNat]
def k0_off52 (k0_t11 : Fin k0_t11_loop.trips) : Fin 1 → Nat :=
  let c0_i32_203 : BitVec 32 := 0#32
  let c1_i32_205 : BitVec 32 := 1#32
  let arg15 : BitVec 32 := Scf.iv c0_i32_203 c1_i32_205 k0_t11
  ![arg15.toNat]
def k0_off53 (k0_t11 : Fin k0_t11_loop.trips) : Fin 4 → Nat :=
  let c0_i32_203 : BitVec 32 := 0#32
  let c1_i32_205 : BitVec 32 := 1#32
  let arg15 : BitVec 32 := Scf.iv c0_i32_203 c1_i32_205 k0_t11
  let c0_i32_326 : BitVec 32 := 0#32
  let c0_i32_327 : BitVec 32 := 0#32
  let c0_i32_328 : BitVec 32 := 0#32
  ![arg15.toNat, 0, 0, 0]
def k0_off54 (i : grid0.Coords) (v379 : BitVec 32) (v382 : BitVec 32) : Fin 4 → Nat :=
  let arg0 : BitVec 32 := BitVec.ofNat 32 (i 0).val
  let c8_i32 : BitVec 32 := 8#32
  let v0 : BitVec 32 := Scalar.muli arg0 c8_i32
  let c5_i32 : BitVec 32 := 5#32
  let v236 : BitVec 32 := Scalar.addi v0 c5_i32
  let c0_i32_329 : BitVec 32 := 0#32
  ![v236.toNat, 0, v379.toNat, v382.toNat]

def k0_chk11 (i : grid0.Coords) (v379 : BitVec 32) (v382 : BitVec 32) : Prop :=
  (∀ a, (k0_off54 i v379 v382) a + S1x3x8x8.size a ≤ S32x3x512x512.size a)
instance k0_chk11.dec : ∀ (i : grid0.Coords) (v379 : BitVec 32) (v382 : BitVec 32), Decidable (k0_chk11 i v379 v382) := fun i v379 v382 => decidable_of_iff' _ (Iff.of_eq (k0_chk11.eq_1 i v379 v382))
theorem k0_off54_inb : ∀ (i : grid0.Coords) (v379 : BitVec 32) (v382 : BitVec 32) (k0_hw11 : k0_chk11 i v379 v382), ∀ a, (k0_off54 i v379 v382) a + S1x3x8x8.size a ≤ S32x3x512x512.size a := fun i v379 v382 k0_hw11 => k0_hw11

def k0_off55 (i : grid0.Coords) (k0_t11 : Fin k0_t11_loop.trips) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v236 : BitVec 32 := Scalar.addi v0 c5_i32
  let v389 : Index := Scalar.indexCast v236
  let c0_i32_203 : BitVec 32 := 0#32
  let c1_i32_205 : BitVec 32 := 1#32
  let arg15 : BitVec 32 := Scf.iv c0_i32_203 c1_i32_205 k0_t11
  let v390 : Index := Scalar.indexCast arg15
  ![v389.toNat, v390.toNat]
def k0_off56 (k0_t11 : Fin k0_t11_loop.trips) : Fin 1 → Nat :=
  let c0_i32_203 : BitVec 32 := 0#32
  let c1_i32_205 : BitVec 32 := 1#32
  let arg15 : BitVec 32 := Scf.iv c0_i32_203 c1_i32_205 k0_t11
  ![arg15.toNat]
def k0_off57 (k0_t11 : Fin k0_t11_loop.trips) : Fin 4 → Nat :=
  let c0_i32_203 : BitVec 32 := 0#32
  let c1_i32_205 : BitVec 32 := 1#32
  let arg15 : BitVec 32 := Scf.iv c0_i32_203 c1_i32_205 k0_t11
  let c0_i32_330 : BitVec 32 := 0#32
  let c0_i32_331 : BitVec 32 := 0#32
  let c0_i32_332 : BitVec 32 := 0#32
  ![arg15.toNat, 0, 0, 0]
def k0_off58 (i : grid0.Coords) (v391 : BitVec 32) (v394 : BitVec 32) : Fin 4 → Nat :=
  let arg0 : BitVec 32 := BitVec.ofNat 32 (i 0).val
  let c8_i32 : BitVec 32 := 8#32
  let v0 : BitVec 32 := Scalar.muli arg0 c8_i32
  let c5_i32 : BitVec 32 := 5#32
  let v236 : BitVec 32 := Scalar.addi v0 c5_i32
  let c0_i32_333 : BitVec 32 := 0#32
  ![v236.toNat, 0, v391.toNat, v394.toNat]

def k0_chk12 (i : grid0.Coords) (v391 : BitVec 32) (v394 : BitVec 32) : Prop :=
  (∀ a, (k0_off58 i v391 v394) a + S1x3x8x8.size a ≤ S32x3x512x512.size a)
instance k0_chk12.dec : ∀ (i : grid0.Coords) (v391 : BitVec 32) (v394 : BitVec 32), Decidable (k0_chk12 i v391 v394) := fun i v391 v394 => decidable_of_iff' _ (Iff.of_eq (k0_chk12.eq_1 i v391 v394))
theorem k0_off58_inb : ∀ (i : grid0.Coords) (v391 : BitVec 32) (v394 : BitVec 32) (k0_hw12 : k0_chk12 i v391 v394), ∀ a, (k0_off58 i v391 v394) a + S1x3x8x8.size a ≤ S32x3x512x512.size a := fun i v391 v394 k0_hw12 => k0_hw12

@[reducible] def k0_t12_loop : Scf.Loop 32 :=
  let c0_i32_207 : BitVec 32 := 0#32
  let c64_i32_208 : BitVec 32 := 64#32
  let v238 : BitVec 32 := Scalar.addi c0_i32_207 c64_i32_208
  let c1_i32_209 : BitVec 32 := 1#32
  ⟨c0_i32_207, v238, c1_i32_209⟩
def k0_off59 (k0_t12 : Fin k0_t12_loop.trips) : Fin 1 → Nat :=
  let c0_i32_207 : BitVec 32 := 0#32
  let c1_i32_209 : BitVec 32 := 1#32
  let arg15 : BitVec 32 := Scf.iv c0_i32_207 c1_i32_209 k0_t12
  ![arg15.toNat]
def k0_off60 (k0_t12 : Fin k0_t12_loop.trips) : Fin 4 → Nat :=
  let c0_i32_207 : BitVec 32 := 0#32
  let c1_i32_209 : BitVec 32 := 1#32
  let arg15 : BitVec 32 := Scf.iv c0_i32_207 c1_i32_209 k0_t12
  let c0_i32_327 : BitVec 32 := 0#32
  let c0_i32_328 : BitVec 32 := 0#32
  let c0_i32_329 : BitVec 32 := 0#32
  ![arg15.toNat, 0, 0, 0]
@[reducible] def k0_t13_loop : Scf.Loop 32 :=
  let c0_i32_244 : BitVec 32 := 0#32
  let c64_i32_245 : BitVec 32 := 64#32
  let v284 : BitVec 32 := Scalar.addi c0_i32_244 c64_i32_245
  let c1_i32_246 : BitVec 32 := 1#32
  ⟨c0_i32_244, v284, c1_i32_246⟩
def k0_off61 (i : grid0.Coords) (k0_t13 : Fin k0_t13_loop.trips) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v283 : BitVec 32 := Scalar.addi v0 c6_i32
  let v377 : Index := Scalar.indexCast v283
  let c0_i32_244 : BitVec 32 := 0#32
  let c1_i32_246 : BitVec 32 := 1#32
  let arg15 : BitVec 32 := Scf.iv c0_i32_244 c1_i32_246 k0_t13
  let v378 : Index := Scalar.indexCast arg15
  ![v377.toNat, v378.toNat]
def k0_off62 (k0_t13 : Fin k0_t13_loop.trips) : Fin 1 → Nat :=
  let c0_i32_244 : BitVec 32 := 0#32
  let c1_i32_246 : BitVec 32 := 1#32
  let arg15 : BitVec 32 := Scf.iv c0_i32_244 c1_i32_246 k0_t13
  ![arg15.toNat]
def k0_off63 (k0_t13 : Fin k0_t13_loop.trips) : Fin 4 → Nat :=
  let c0_i32_244 : BitVec 32 := 0#32
  let c1_i32_246 : BitVec 32 := 1#32
  let arg15 : BitVec 32 := Scf.iv c0_i32_244 c1_i32_246 k0_t13
  let c0_i32_326 : BitVec 32 := 0#32
  let c0_i32_327 : BitVec 32 := 0#32
  let c0_i32_328 : BitVec 32 := 0#32
  ![arg15.toNat, 0, 0, 0]
def k0_off64 (i : grid0.Coords) (v379 : BitVec 32) (v382 : BitVec 32) : Fin 4 → Nat :=
  let arg0 : BitVec 32 := BitVec.ofNat 32 (i 0).val
  let c8_i32 : BitVec 32 := 8#32
  let v0 : BitVec 32 := Scalar.muli arg0 c8_i32
  let c6_i32 : BitVec 32 := 6#32
  let v283 : BitVec 32 := Scalar.addi v0 c6_i32
  let c0_i32_329 : BitVec 32 := 0#32
  ![v283.toNat, 0, v379.toNat, v382.toNat]

def k0_chk13 (i : grid0.Coords) (v379 : BitVec 32) (v382 : BitVec 32) : Prop :=
  (∀ a, (k0_off64 i v379 v382) a + S1x3x8x8.size a ≤ S32x3x512x512.size a)
instance k0_chk13.dec : ∀ (i : grid0.Coords) (v379 : BitVec 32) (v382 : BitVec 32), Decidable (k0_chk13 i v379 v382) := fun i v379 v382 => decidable_of_iff' _ (Iff.of_eq (k0_chk13.eq_1 i v379 v382))
theorem k0_off64_inb : ∀ (i : grid0.Coords) (v379 : BitVec 32) (v382 : BitVec 32) (k0_hw13 : k0_chk13 i v379 v382), ∀ a, (k0_off64 i v379 v382) a + S1x3x8x8.size a ≤ S32x3x512x512.size a := fun i v379 v382 k0_hw13 => k0_hw13

def k0_off65 (i : grid0.Coords) (k0_t13 : Fin k0_t13_loop.trips) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v283 : BitVec 32 := Scalar.addi v0 c6_i32
  let v389 : Index := Scalar.indexCast v283
  let c0_i32_244 : BitVec 32 := 0#32
  let c1_i32_246 : BitVec 32 := 1#32
  let arg15 : BitVec 32 := Scf.iv c0_i32_244 c1_i32_246 k0_t13
  let v390 : Index := Scalar.indexCast arg15
  ![v389.toNat, v390.toNat]
def k0_off66 (k0_t13 : Fin k0_t13_loop.trips) : Fin 1 → Nat :=
  let c0_i32_244 : BitVec 32 := 0#32
  let c1_i32_246 : BitVec 32 := 1#32
  let arg15 : BitVec 32 := Scf.iv c0_i32_244 c1_i32_246 k0_t13
  ![arg15.toNat]
def k0_off67 (k0_t13 : Fin k0_t13_loop.trips) : Fin 4 → Nat :=
  let c0_i32_244 : BitVec 32 := 0#32
  let c1_i32_246 : BitVec 32 := 1#32
  let arg15 : BitVec 32 := Scf.iv c0_i32_244 c1_i32_246 k0_t13
  let c0_i32_330 : BitVec 32 := 0#32
  let c0_i32_331 : BitVec 32 := 0#32
  let c0_i32_332 : BitVec 32 := 0#32
  ![arg15.toNat, 0, 0, 0]
def k0_off68 (i : grid0.Coords) (v391 : BitVec 32) (v394 : BitVec 32) : Fin 4 → Nat :=
  let arg0 : BitVec 32 := BitVec.ofNat 32 (i 0).val
  let c8_i32 : BitVec 32 := 8#32
  let v0 : BitVec 32 := Scalar.muli arg0 c8_i32
  let c6_i32 : BitVec 32 := 6#32
  let v283 : BitVec 32 := Scalar.addi v0 c6_i32
  let c0_i32_333 : BitVec 32 := 0#32
  ![v283.toNat, 0, v391.toNat, v394.toNat]

def k0_chk14 (i : grid0.Coords) (v391 : BitVec 32) (v394 : BitVec 32) : Prop :=
  (∀ a, (k0_off68 i v391 v394) a + S1x3x8x8.size a ≤ S32x3x512x512.size a)
instance k0_chk14.dec : ∀ (i : grid0.Coords) (v391 : BitVec 32) (v394 : BitVec 32), Decidable (k0_chk14 i v391 v394) := fun i v391 v394 => decidable_of_iff' _ (Iff.of_eq (k0_chk14.eq_1 i v391 v394))
theorem k0_off68_inb : ∀ (i : grid0.Coords) (v391 : BitVec 32) (v394 : BitVec 32) (k0_hw14 : k0_chk14 i v391 v394), ∀ a, (k0_off68 i v391 v394) a + S1x3x8x8.size a ≤ S32x3x512x512.size a := fun i v391 v394 k0_hw14 => k0_hw14

@[reducible] def k0_t14_loop : Scf.Loop 32 :=
  let c0_i32_248 : BitVec 32 := 0#32
  let c64_i32_249 : BitVec 32 := 64#32
  let v285 : BitVec 32 := Scalar.addi c0_i32_248 c64_i32_249
  let c1_i32_250 : BitVec 32 := 1#32
  ⟨c0_i32_248, v285, c1_i32_250⟩
def k0_off69 (k0_t14 : Fin k0_t14_loop.trips) : Fin 1 → Nat :=
  let c0_i32_248 : BitVec 32 := 0#32
  let c1_i32_250 : BitVec 32 := 1#32
  let arg15 : BitVec 32 := Scf.iv c0_i32_248 c1_i32_250 k0_t14
  ![arg15.toNat]
def k0_off70 (k0_t14 : Fin k0_t14_loop.trips) : Fin 4 → Nat :=
  let c0_i32_248 : BitVec 32 := 0#32
  let c1_i32_250 : BitVec 32 := 1#32
  let arg15 : BitVec 32 := Scf.iv c0_i32_248 c1_i32_250 k0_t14
  let c0_i32_327 : BitVec 32 := 0#32
  let c0_i32_328 : BitVec 32 := 0#32
  let c0_i32_329 : BitVec 32 := 0#32
  ![arg15.toNat, 0, 0, 0]
@[reducible] def k0_t15_loop : Scf.Loop 32 :=
  let c0_i32_285 : BitVec 32 := 0#32
  let c64_i32_286 : BitVec 32 := 64#32
  let v331 : BitVec 32 := Scalar.addi c0_i32_285 c64_i32_286
  let c1_i32_287 : BitVec 32 := 1#32
  ⟨c0_i32_285, v331, c1_i32_287⟩
def k0_off71 (i : grid0.Coords) (k0_t15 : Fin k0_t15_loop.trips) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v330 : BitVec 32 := Scalar.addi v0 c7_i32
  let v377 : Index := Scalar.indexCast v330
  let c0_i32_285 : BitVec 32 := 0#32
  let c1_i32_287 : BitVec 32 := 1#32
  let arg15 : BitVec 32 := Scf.iv c0_i32_285 c1_i32_287 k0_t15
  let v378 : Index := Scalar.indexCast arg15
  ![v377.toNat, v378.toNat]
def k0_off72 (k0_t15 : Fin k0_t15_loop.trips) : Fin 1 → Nat :=
  let c0_i32_285 : BitVec 32 := 0#32
  let c1_i32_287 : BitVec 32 := 1#32
  let arg15 : BitVec 32 := Scf.iv c0_i32_285 c1_i32_287 k0_t15
  ![arg15.toNat]
def k0_off73 (k0_t15 : Fin k0_t15_loop.trips) : Fin 4 → Nat :=
  let c0_i32_285 : BitVec 32 := 0#32
  let c1_i32_287 : BitVec 32 := 1#32
  let arg15 : BitVec 32 := Scf.iv c0_i32_285 c1_i32_287 k0_t15
  let c0_i32_326 : BitVec 32 := 0#32
  let c0_i32_327 : BitVec 32 := 0#32
  let c0_i32_328 : BitVec 32 := 0#32
  ![arg15.toNat, 0, 0, 0]
def k0_off74 (i : grid0.Coords) (v379 : BitVec 32) (v382 : BitVec 32) : Fin 4 → Nat :=
  let arg0 : BitVec 32 := BitVec.ofNat 32 (i 0).val
  let c8_i32 : BitVec 32 := 8#32
  let v0 : BitVec 32 := Scalar.muli arg0 c8_i32
  let c7_i32 : BitVec 32 := 7#32
  let v330 : BitVec 32 := Scalar.addi v0 c7_i32
  let c0_i32_329 : BitVec 32 := 0#32
  ![v330.toNat, 0, v379.toNat, v382.toNat]

def k0_chk15 (i : grid0.Coords) (v379 : BitVec 32) (v382 : BitVec 32) : Prop :=
  (∀ a, (k0_off74 i v379 v382) a + S1x3x8x8.size a ≤ S32x3x512x512.size a)
instance k0_chk15.dec : ∀ (i : grid0.Coords) (v379 : BitVec 32) (v382 : BitVec 32), Decidable (k0_chk15 i v379 v382) := fun i v379 v382 => decidable_of_iff' _ (Iff.of_eq (k0_chk15.eq_1 i v379 v382))
theorem k0_off74_inb : ∀ (i : grid0.Coords) (v379 : BitVec 32) (v382 : BitVec 32) (k0_hw15 : k0_chk15 i v379 v382), ∀ a, (k0_off74 i v379 v382) a + S1x3x8x8.size a ≤ S32x3x512x512.size a := fun i v379 v382 k0_hw15 => k0_hw15

def k0_off75 (i : grid0.Coords) (k0_t15 : Fin k0_t15_loop.trips) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v330 : BitVec 32 := Scalar.addi v0 c7_i32
  let v389 : Index := Scalar.indexCast v330
  let c0_i32_285 : BitVec 32 := 0#32
  let c1_i32_287 : BitVec 32 := 1#32
  let arg15 : BitVec 32 := Scf.iv c0_i32_285 c1_i32_287 k0_t15
  let v390 : Index := Scalar.indexCast arg15
  ![v389.toNat, v390.toNat]
def k0_off76 (k0_t15 : Fin k0_t15_loop.trips) : Fin 1 → Nat :=
  let c0_i32_285 : BitVec 32 := 0#32
  let c1_i32_287 : BitVec 32 := 1#32
  let arg15 : BitVec 32 := Scf.iv c0_i32_285 c1_i32_287 k0_t15
  ![arg15.toNat]
def k0_off77 (k0_t15 : Fin k0_t15_loop.trips) : Fin 4 → Nat :=
  let c0_i32_285 : BitVec 32 := 0#32
  let c1_i32_287 : BitVec 32 := 1#32
  let arg15 : BitVec 32 := Scf.iv c0_i32_285 c1_i32_287 k0_t15
  let c0_i32_330 : BitVec 32 := 0#32
  let c0_i32_331 : BitVec 32 := 0#32
  let c0_i32_332 : BitVec 32 := 0#32
  ![arg15.toNat, 0, 0, 0]
def k0_off78 (i : grid0.Coords) (v391 : BitVec 32) (v394 : BitVec 32) : Fin 4 → Nat :=
  let arg0 : BitVec 32 := BitVec.ofNat 32 (i 0).val
  let c8_i32 : BitVec 32 := 8#32
  let v0 : BitVec 32 := Scalar.muli arg0 c8_i32
  let c7_i32 : BitVec 32 := 7#32
  let v330 : BitVec 32 := Scalar.addi v0 c7_i32
  let c0_i32_333 : BitVec 32 := 0#32
  ![v330.toNat, 0, v391.toNat, v394.toNat]

def k0_chk16 (i : grid0.Coords) (v391 : BitVec 32) (v394 : BitVec 32) : Prop :=
  (∀ a, (k0_off78 i v391 v394) a + S1x3x8x8.size a ≤ S32x3x512x512.size a)
instance k0_chk16.dec : ∀ (i : grid0.Coords) (v391 : BitVec 32) (v394 : BitVec 32), Decidable (k0_chk16 i v391 v394) := fun i v391 v394 => decidable_of_iff' _ (Iff.of_eq (k0_chk16.eq_1 i v391 v394))
theorem k0_off78_inb : ∀ (i : grid0.Coords) (v391 : BitVec 32) (v394 : BitVec 32) (k0_hw16 : k0_chk16 i v391 v394), ∀ a, (k0_off78 i v391 v394) a + S1x3x8x8.size a ≤ S32x3x512x512.size a := fun i v391 v394 k0_hw16 => k0_hw16

@[reducible] def k0_t16_loop : Scf.Loop 32 :=
  let c0_i32_289 : BitVec 32 := 0#32
  let c64_i32_290 : BitVec 32 := 64#32
  let v332 : BitVec 32 := Scalar.addi c0_i32_289 c64_i32_290
  let c1_i32_291 : BitVec 32 := 1#32
  ⟨c0_i32_289, v332, c1_i32_291⟩
def k0_off79 (k0_t16 : Fin k0_t16_loop.trips) : Fin 1 → Nat :=
  let c0_i32_289 : BitVec 32 := 0#32
  let c1_i32_291 : BitVec 32 := 1#32
  let arg15 : BitVec 32 := Scf.iv c0_i32_289 c1_i32_291 k0_t16
  ![arg15.toNat]
def k0_off80 (k0_t16 : Fin k0_t16_loop.trips) : Fin 4 → Nat :=
  let c0_i32_289 : BitVec 32 := 0#32
  let c1_i32_291 : BitVec 32 := 1#32
  let arg15 : BitVec 32 := Scf.iv c0_i32_289 c1_i32_291 k0_t16
  let c0_i32_327 : BitVec 32 := 0#32
  let c0_i32_328 : BitVec 32 := 0#32
  let c0_i32_329 : BitVec 32 := 0#32
  ![arg15.toNat, 0, 0, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  numel1_S1x1 : S1x1.numel = 1
  squeezes_S1_S_ : S1.Squeezes S_
  squeezes_S1x3x8x8_S3x8x8 : S1x3x8x8.Squeezes S3x8x8
  inb_S32x3x512x512_S1x3x8x8_0_0_0_0 : ∀ a, (![0, 0, 0, 0] : Fin 4 → Nat) a + S1x3x8x8.size a ≤ S32x3x512x512.size a
  inb_S64x3x8x8_S64x3x8x8_0_0_0_0 : ∀ a, (![0, 0, 0, 0] : Fin 4 → Nat) a + S64x3x8x8.size a ≤ S64x3x8x8.size a
  h_S64x3x8x8 : 0 < S64x3x8x8.numel
  reduces_S64x3x8x8_S64x3x8 : S64x3x8x8.Reduces [3] S64x3x8
  reduces_S64x3x8_S64x3 : S64x3x8.Reduces [2] S64x3
  reduces_S64x3_S64 : S64x3.Reduces [1] S64
  inb_S8x64_S1x64_0_0 : ∀ a, (![0, 0] : Fin 2 → Nat) a + S1x64.size a ≤ S8x64.size a
  h_S1x64 : 0 < S1x64.numel
  shapeCasts_S1x64_S64 : S1x64.ShapeCasts S64
  shapeCasts_S64_S1x64 : S64.ShapeCasts S1x64
  inb_S8x64_S1x64_1_0 : ∀ a, (![1, 0] : Fin 2 → Nat) a + S1x64.size a ≤ S8x64.size a
  inb_S8x64_S1x64_2_0 : ∀ a, (![2, 0] : Fin 2 → Nat) a + S1x64.size a ≤ S8x64.size a
  inb_S8x64_S1x64_3_0 : ∀ a, (![3, 0] : Fin 2 → Nat) a + S1x64.size a ≤ S8x64.size a
  inb_S8x64_S1x64_4_0 : ∀ a, (![4, 0] : Fin 2 → Nat) a + S1x64.size a ≤ S8x64.size a
  inb_S8x64_S1x64_5_0 : ∀ a, (![5, 0] : Fin 2 → Nat) a + S1x64.size a ≤ S8x64.size a
  inb_S8x64_S1x64_6_0 : ∀ a, (![6, 0] : Fin 2 → Nat) a + S1x64.size a ≤ S8x64.size a
  inb_S8x64_S1x64_7_0 : ∀ a, (![7, 0] : Fin 2 → Nat) a + S1x64.size a ≤ S8x64.size a
  reducesTo_S32x64_S_d0_1 : S32x64.ReducesTo [0, 1] S_
  h_S_ : 0 < S_.numel
  hcc0_scratch2 : 8 + S64.numel ≤ 136
  hcc0_scratch3 : 72 + S64.numel ≤ 136
  hrank0 : 0 < grid0.rank
  k0_t1_ok : k0_t1_loop.OK
  k0_off1_inb : ∀ (i : grid0.Coords) (k0_t1 : Fin k0_t1_loop.trips), ∀ a, (k0_off1 i k0_t1) a + S1x1.size a ≤ S32x64.size a
  k0_off2_inb : ∀ k0_t1 : Fin k0_t1_loop.trips, ∀ a, (k0_off2 k0_t1) a + S1.size a ≤ S64.size a
  k0_off3_inb : ∀ k0_t1 : Fin k0_t1_loop.trips, ∀ a, (k0_off3 k0_t1) a + S1x3x8x8.size a ≤ S64x3x8x8.size a
  k0_off5_inb : ∀ (i : grid0.Coords) (k0_t1 : Fin k0_t1_loop.trips), ∀ a, (k0_off5 i k0_t1) a + S1x1.size a ≤ S32x64.size a
  k0_off6_inb : ∀ k0_t1 : Fin k0_t1_loop.trips, ∀ a, (k0_off6 k0_t1) a + S1.size a ≤ S64.size a
  k0_off7_inb : ∀ k0_t1 : Fin k0_t1_loop.trips, ∀ a, (k0_off7 k0_t1) a + S1x3x8x8.size a ≤ S64x3x8x8.size a
  k0_t2_ok : k0_t2_loop.OK
  k0_off9_inb : ∀ k0_t2 : Fin k0_t2_loop.trips, ∀ a, (k0_off9 k0_t2) a + S1.size a ≤ S64.size a
  k0_off10_inb : ∀ k0_t2 : Fin k0_t2_loop.trips, ∀ a, (k0_off10 k0_t2) a + S1x3x8x8.size a ≤ S64x3x8x8.size a
  k0_t3_ok : k0_t3_loop.OK
  k0_off11_inb : ∀ (i : grid0.Coords) (k0_t3 : Fin k0_t3_loop.trips), ∀ a, (k0_off11 i k0_t3) a + S1x1.size a ≤ S32x64.size a
  k0_off12_inb : ∀ k0_t3 : Fin k0_t3_loop.trips, ∀ a, (k0_off12 k0_t3) a + S1.size a ≤ S64.size a
  k0_off13_inb : ∀ k0_t3 : Fin k0_t3_loop.trips, ∀ a, (k0_off13 k0_t3) a + S1x3x8x8.size a ≤ S64x3x8x8.size a
  k0_off15_inb : ∀ (i : grid0.Coords) (k0_t3 : Fin k0_t3_loop.trips), ∀ a, (k0_off15 i k0_t3) a + S1x1.size a ≤ S32x64.size a
  k0_off16_inb : ∀ k0_t3 : Fin k0_t3_loop.trips, ∀ a, (k0_off16 k0_t3) a + S1.size a ≤ S64.size a
  k0_off17_inb : ∀ k0_t3 : Fin k0_t3_loop.trips, ∀ a, (k0_off17 k0_t3) a + S1x3x8x8.size a ≤ S64x3x8x8.size a
  k0_t4_ok : k0_t4_loop.OK
  k0_off19_inb : ∀ k0_t4 : Fin k0_t4_loop.trips, ∀ a, (k0_off19 k0_t4) a + S1.size a ≤ S64.size a
  k0_off20_inb : ∀ k0_t4 : Fin k0_t4_loop.trips, ∀ a, (k0_off20 k0_t4) a + S1x3x8x8.size a ≤ S64x3x8x8.size a
  k0_t5_ok : k0_t5_loop.OK
  k0_off21_inb : ∀ (i : grid0.Coords) (k0_t5 : Fin k0_t5_loop.trips), ∀ a, (k0_off21 i k0_t5) a + S1x1.size a ≤ S32x64.size a
  k0_off22_inb : ∀ k0_t5 : Fin k0_t5_loop.trips, ∀ a, (k0_off22 k0_t5) a + S1.size a ≤ S64.size a
  k0_off23_inb : ∀ k0_t5 : Fin k0_t5_loop.trips, ∀ a, (k0_off23 k0_t5) a + S1x3x8x8.size a ≤ S64x3x8x8.size a
  k0_off25_inb : ∀ (i : grid0.Coords) (k0_t5 : Fin k0_t5_loop.trips), ∀ a, (k0_off25 i k0_t5) a + S1x1.size a ≤ S32x64.size a
  k0_off26_inb : ∀ k0_t5 : Fin k0_t5_loop.trips, ∀ a, (k0_off26 k0_t5) a + S1.size a ≤ S64.size a
  k0_off27_inb : ∀ k0_t5 : Fin k0_t5_loop.trips, ∀ a, (k0_off27 k0_t5) a + S1x3x8x8.size a ≤ S64x3x8x8.size a
  k0_t6_ok : k0_t6_loop.OK
  k0_off29_inb : ∀ k0_t6 : Fin k0_t6_loop.trips, ∀ a, (k0_off29 k0_t6) a + S1.size a ≤ S64.size a
  k0_off30_inb : ∀ k0_t6 : Fin k0_t6_loop.trips, ∀ a, (k0_off30 k0_t6) a + S1x3x8x8.size a ≤ S64x3x8x8.size a
  k0_t7_ok : k0_t7_loop.OK
  k0_off31_inb : ∀ (i : grid0.Coords) (k0_t7 : Fin k0_t7_loop.trips), ∀ a, (k0_off31 i k0_t7) a + S1x1.size a ≤ S32x64.size a
  k0_off32_inb : ∀ k0_t7 : Fin k0_t7_loop.trips, ∀ a, (k0_off32 k0_t7) a + S1.size a ≤ S64.size a
  k0_off33_inb : ∀ k0_t7 : Fin k0_t7_loop.trips, ∀ a, (k0_off33 k0_t7) a + S1x3x8x8.size a ≤ S64x3x8x8.size a
  k0_off35_inb : ∀ (i : grid0.Coords) (k0_t7 : Fin k0_t7_loop.trips), ∀ a, (k0_off35 i k0_t7) a + S1x1.size a ≤ S32x64.size a
  k0_off36_inb : ∀ k0_t7 : Fin k0_t7_loop.trips, ∀ a, (k0_off36 k0_t7) a + S1.size a ≤ S64.size a
  k0_off37_inb : ∀ k0_t7 : Fin k0_t7_loop.trips, ∀ a, (k0_off37 k0_t7) a + S1x3x8x8.size a ≤ S64x3x8x8.size a
  k0_t8_ok : k0_t8_loop.OK
  k0_off39_inb : ∀ k0_t8 : Fin k0_t8_loop.trips, ∀ a, (k0_off39 k0_t8) a + S1.size a ≤ S64.size a
  k0_off40_inb : ∀ k0_t8 : Fin k0_t8_loop.trips, ∀ a, (k0_off40 k0_t8) a + S1x3x8x8.size a ≤ S64x3x8x8.size a
  k0_t9_ok : k0_t9_loop.OK
  k0_off41_inb : ∀ (i : grid0.Coords) (k0_t9 : Fin k0_t9_loop.trips), ∀ a, (k0_off41 i k0_t9) a + S1x1.size a ≤ S32x64.size a
  k0_off42_inb : ∀ k0_t9 : Fin k0_t9_loop.trips, ∀ a, (k0_off42 k0_t9) a + S1.size a ≤ S64.size a
  k0_off43_inb : ∀ k0_t9 : Fin k0_t9_loop.trips, ∀ a, (k0_off43 k0_t9) a + S1x3x8x8.size a ≤ S64x3x8x8.size a
  k0_off45_inb : ∀ (i : grid0.Coords) (k0_t9 : Fin k0_t9_loop.trips), ∀ a, (k0_off45 i k0_t9) a + S1x1.size a ≤ S32x64.size a
  k0_off46_inb : ∀ k0_t9 : Fin k0_t9_loop.trips, ∀ a, (k0_off46 k0_t9) a + S1.size a ≤ S64.size a
  k0_off47_inb : ∀ k0_t9 : Fin k0_t9_loop.trips, ∀ a, (k0_off47 k0_t9) a + S1x3x8x8.size a ≤ S64x3x8x8.size a
  k0_t10_ok : k0_t10_loop.OK
  k0_off49_inb : ∀ k0_t10 : Fin k0_t10_loop.trips, ∀ a, (k0_off49 k0_t10) a + S1.size a ≤ S64.size a
  k0_off50_inb : ∀ k0_t10 : Fin k0_t10_loop.trips, ∀ a, (k0_off50 k0_t10) a + S1x3x8x8.size a ≤ S64x3x8x8.size a
  k0_t11_ok : k0_t11_loop.OK
  k0_off51_inb : ∀ (i : grid0.Coords) (k0_t11 : Fin k0_t11_loop.trips), ∀ a, (k0_off51 i k0_t11) a + S1x1.size a ≤ S32x64.size a
  k0_off52_inb : ∀ k0_t11 : Fin k0_t11_loop.trips, ∀ a, (k0_off52 k0_t11) a + S1.size a ≤ S64.size a
  k0_off53_inb : ∀ k0_t11 : Fin k0_t11_loop.trips, ∀ a, (k0_off53 k0_t11) a + S1x3x8x8.size a ≤ S64x3x8x8.size a
  k0_off55_inb : ∀ (i : grid0.Coords) (k0_t11 : Fin k0_t11_loop.trips), ∀ a, (k0_off55 i k0_t11) a + S1x1.size a ≤ S32x64.size a
  k0_off56_inb : ∀ k0_t11 : Fin k0_t11_loop.trips, ∀ a, (k0_off56 k0_t11) a + S1.size a ≤ S64.size a
  k0_off57_inb : ∀ k0_t11 : Fin k0_t11_loop.trips, ∀ a, (k0_off57 k0_t11) a + S1x3x8x8.size a ≤ S64x3x8x8.size a
  k0_t12_ok : k0_t12_loop.OK
  k0_off59_inb : ∀ k0_t12 : Fin k0_t12_loop.trips, ∀ a, (k0_off59 k0_t12) a + S1.size a ≤ S64.size a
  k0_off60_inb : ∀ k0_t12 : Fin k0_t12_loop.trips, ∀ a, (k0_off60 k0_t12) a + S1x3x8x8.size a ≤ S64x3x8x8.size a
  k0_t13_ok : k0_t13_loop.OK
  k0_off61_inb : ∀ (i : grid0.Coords) (k0_t13 : Fin k0_t13_loop.trips), ∀ a, (k0_off61 i k0_t13) a + S1x1.size a ≤ S32x64.size a
  k0_off62_inb : ∀ k0_t13 : Fin k0_t13_loop.trips, ∀ a, (k0_off62 k0_t13) a + S1.size a ≤ S64.size a
  k0_off63_inb : ∀ k0_t13 : Fin k0_t13_loop.trips, ∀ a, (k0_off63 k0_t13) a + S1x3x8x8.size a ≤ S64x3x8x8.size a
  k0_off65_inb : ∀ (i : grid0.Coords) (k0_t13 : Fin k0_t13_loop.trips), ∀ a, (k0_off65 i k0_t13) a + S1x1.size a ≤ S32x64.size a
  k0_off66_inb : ∀ k0_t13 : Fin k0_t13_loop.trips, ∀ a, (k0_off66 k0_t13) a + S1.size a ≤ S64.size a
  k0_off67_inb : ∀ k0_t13 : Fin k0_t13_loop.trips, ∀ a, (k0_off67 k0_t13) a + S1x3x8x8.size a ≤ S64x3x8x8.size a
  k0_t14_ok : k0_t14_loop.OK
  k0_off69_inb : ∀ k0_t14 : Fin k0_t14_loop.trips, ∀ a, (k0_off69 k0_t14) a + S1.size a ≤ S64.size a
  k0_off70_inb : ∀ k0_t14 : Fin k0_t14_loop.trips, ∀ a, (k0_off70 k0_t14) a + S1x3x8x8.size a ≤ S64x3x8x8.size a
  k0_t15_ok : k0_t15_loop.OK
  k0_off71_inb : ∀ (i : grid0.Coords) (k0_t15 : Fin k0_t15_loop.trips), ∀ a, (k0_off71 i k0_t15) a + S1x1.size a ≤ S32x64.size a
  k0_off72_inb : ∀ k0_t15 : Fin k0_t15_loop.trips, ∀ a, (k0_off72 k0_t15) a + S1.size a ≤ S64.size a
  k0_off73_inb : ∀ k0_t15 : Fin k0_t15_loop.trips, ∀ a, (k0_off73 k0_t15) a + S1x3x8x8.size a ≤ S64x3x8x8.size a
  k0_off75_inb : ∀ (i : grid0.Coords) (k0_t15 : Fin k0_t15_loop.trips), ∀ a, (k0_off75 i k0_t15) a + S1x1.size a ≤ S32x64.size a
  k0_off76_inb : ∀ k0_t15 : Fin k0_t15_loop.trips, ∀ a, (k0_off76 k0_t15) a + S1.size a ≤ S64.size a
  k0_off77_inb : ∀ k0_t15 : Fin k0_t15_loop.trips, ∀ a, (k0_off77 k0_t15) a + S1x3x8x8.size a ≤ S64x3x8x8.size a
  k0_t16_ok : k0_t16_loop.OK
  k0_off79_inb : ∀ k0_t16 : Fin k0_t16_loop.trips, ∀ a, (k0_off79 k0_t16) a + S1.size a ≤ S64.size a
  k0_off80_inb : ∀ k0_t16 : Fin k0_t16_loop.trips, ∀ a, (k0_off80 k0_t16) a + S1x3x8x8.size a ≤ S64x3x8x8.size a
  hstage0_0 : ∀ j, (stage0_0 j).IsWhole
  nbuf0_0 : grid0.bufCount reads0_0 false = 2
  hreads0_0 : ∀ i i' : grid0.Coords, (∀ a, reads0_0 a = true → i a = i' a) → cc0_transform_2 i = cc0_transform_2 i'
  hinb0_0 : ∀ (i : grid0.Coords) a, (cc0_transform_2 i a + 1) * S8x64.size a ≤ S32x64.size a
  hwx0_0 : ∀ i : grid0.Coords, EltTy.bits .f32 = 32 ∨ (Rect.block (s := S32x64) S8x64.size (cc0_transform_2 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_3 i = cc0_transform_3 i'
  hinb0_1 : ∀ (i : grid0.Coords) a, (cc0_transform_3 i a + 1) * S8x64.size a ≤ S32x64.size a
  hwx0_1 : ∀ i : grid0.Coords, EltTy.bits .f32 = 32 ∨ (Rect.block (s := S32x64) S8x64.size (cc0_transform_3 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_4 i = cc0_transform_4 i'
  hinb0_2 : ∀ (i : grid0.Coords) a, (cc0_transform_4 i a + 1) * S8x64.size a ≤ S32x64.size a
  hwx0_2 : ∀ i : grid0.Coords, EltTy.bits .f32 = 32 ∨ (Rect.block (s := S32x64) S8x64.size (cc0_transform_4 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_5 i = cc0_transform_5 i'
  hinb0_3 : ∀ (i : grid0.Coords) a, (cc0_transform_5 i a + 1) * S8x64.size a ≤ S32x64.size a
  hwx0_3 : ∀ i : grid0.Coords, EltTy.bits .f32 = 32 ∨ (Rect.block (s := S32x64) S8x64.size (cc0_transform_5 i) (hinb0_3 i)).WholeWords (EltTy.packing .f32)

variable [Facts₀]

abbrev cc0_scratch2 : DmaSems sig S64 := SemArray.consecutive 8 S64 hcc0_scratch2
abbrev cc0_scratch3 : DmaSems sig S64 := SemArray.consecutive 72 S64 hcc0_scratch3

abbrev spec0_0 : Pipeline.WinSpec sig grid0.rank :=
  Pipeline.WinSpec.ofSpec (Memref.whole main_v0_0) S8x64.size reads0_0 true false 2 stage0_0 sem0_0 nbuf0_0 hstage0_0

abbrev spec0_1 : Pipeline.WinSpec sig grid0.rank :=
  Pipeline.WinSpec.ofSpec (Memref.whole main_v0_1) S8x64.size reads0_1 true false 2 stage0_1 sem0_1 nbuf0_1 hstage0_1

abbrev spec0_2 : Pipeline.WinSpec sig grid0.rank :=
  Pipeline.WinSpec.ofSpec (Memref.whole main_v0_2) S8x64.size reads0_2 true false 2 stage0_2 sem0_2 nbuf0_2 hstage0_2

abbrev spec0_3 : Pipeline.WinSpec sig grid0.rank :=
  Pipeline.WinSpec.ofSpec (Memref.whole main_v0_3) S8x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_2 | 1 => cc0_transform_3 | 2 => cc0_transform_4 | 3 => cc0_transform_5 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x3x512x512 : Shape := ⟨4, ![32, 3, 512, 512]⟩
abbrev S32x64 : Shape := ⟨2, ![32, 64]⟩
abbrev S_ : Shape := ⟨0, ![]⟩
abbrev S64x1 : Shape := ⟨2, ![64, 1]⟩
abbrev S32x64x1 : Shape := ⟨3, ![32, 64, 1]⟩
abbrev S32x64x3 : Shape := ⟨3, ![32, 64, 3]⟩
abbrev S32x64x3x8x8 : Shape := ⟨5, ![32, 64, 3, 8, 8]⟩
abbrev S32x64x192 : Shape := ⟨3, ![32, 64, 192]⟩

abbrev nBuf : Space → Nat
  | .hbm => 91
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x64, .i32⟩
  | .hbm, ⟨3, _⟩ => ⟨S32x64, .i32⟩
  | .hbm, ⟨4, _⟩ => ⟨S32x64, .i32⟩
  | .hbm, ⟨5, _⟩ => ⟨S32x64, .i32⟩
  | .hbm, ⟨6, _⟩ => ⟨S_, .i32⟩
  | .hbm, ⟨7, _⟩ => ⟨S32x64, .i32⟩
  | .hbm, ⟨8, _⟩ => ⟨S32x64, .i1⟩
  | .hbm, ⟨9, _⟩ => ⟨S_, .i32⟩
  | .hbm, ⟨10, _⟩ => ⟨S32x64, .i32⟩
  | .hbm, ⟨11, _⟩ => ⟨S32x64, .i32⟩
  | .hbm, ⟨12, _⟩ => ⟨S32x64, .i32⟩
  | .hbm, ⟨13, _⟩ => ⟨S_, .i32⟩
  | .hbm, ⟨14, _⟩ => ⟨S32x64, .i32⟩
  | .hbm, ⟨15, _⟩ => ⟨S32x64, .i1⟩
  | .hbm, ⟨16, _⟩ => ⟨S_, .i32⟩
  | .hbm, ⟨17, _⟩ => ⟨S32x64, .i32⟩
  | .hbm, ⟨18, _⟩ => ⟨S32x64, .i32⟩
  | .hbm, ⟨19, _⟩ => ⟨S32x64, .i32⟩
  | .hbm, ⟨20, _⟩ => ⟨S_, .i32⟩
  | .hbm, ⟨21, _⟩ => ⟨S64x1, .i32⟩
  | .hbm, ⟨22, _⟩ => ⟨S32x64x1, .i32⟩
  | .hbm, ⟨23, _⟩ => ⟨S32x64x1, .i32⟩
  | .hbm, ⟨24, _⟩ => ⟨S32x64x1, .i32⟩
  | .hbm, ⟨25, _⟩ => ⟨S32x64x3, .i32⟩
  | .hbm, ⟨26, _⟩ => ⟨S32x64x3x8x8, .f32⟩
  | .hbm, ⟨27, _⟩ => ⟨S_, .i32⟩
  | .hbm, ⟨28, _⟩ => ⟨S32x64, .i32⟩
  | .hbm, ⟨29, _⟩ => ⟨S32x64, .i1⟩
  | .hbm, ⟨30, _⟩ => ⟨S_, .i32⟩
  | .hbm, ⟨31, _⟩ => ⟨S32x64, .i32⟩
  | .hbm, ⟨32, _⟩ => ⟨S32x64, .i32⟩
  | .hbm, ⟨33, _⟩ => ⟨S32x64, .i32⟩
  | .hbm, ⟨34, _⟩ => ⟨S_, .i32⟩
  | .hbm, ⟨35, _⟩ => ⟨S32x64, .i32⟩
  | .hbm, ⟨36, _⟩ => ⟨S32x64, .i1⟩
  | .hbm, ⟨37, _⟩ => ⟨S_, .i32⟩
  | .hbm, ⟨38, _⟩ => ⟨S32x64, .i32⟩
  | .hbm, ⟨39, _⟩ => ⟨S32x64, .i32⟩
  | .hbm, ⟨40, _⟩ => ⟨S32x64, .i32⟩
  | .hbm, ⟨41, _⟩ => ⟨S_, .i32⟩
  | .hbm, ⟨42, _⟩ => ⟨S64x1, .i32⟩
  | .hbm, ⟨43, _⟩ => ⟨S32x64x1, .i32⟩
  | .hbm, ⟨44, _⟩ => ⟨S32x64x1, .i32⟩
  | .hbm, ⟨45, _⟩ => ⟨S32x64x1, .i32⟩
  | .hbm, ⟨46, _⟩ => ⟨S32x64x3, .i32⟩
  | .hbm, ⟨47, _⟩ => ⟨S32x64x3x8x8, .f32⟩
  | .hbm, ⟨48, _⟩ => ⟨S32x64x192, .f32⟩
  | .hbm, ⟨49, _⟩ => ⟨S_, .f32⟩
  | .hbm, ⟨50, _⟩ => ⟨S32x64, .f32⟩
  | .hbm, ⟨51, _⟩ => ⟨S_, .f32⟩
  | .hbm, ⟨52, _⟩ => ⟨S32x64, .f32⟩
  | .hbm, ⟨53, _⟩ => ⟨S32x64, .f32⟩
  | .hbm, ⟨54, _⟩ => ⟨S32x64x1, .f32⟩
  | .hbm, ⟨55, _⟩ => ⟨S32x64x192, .f32⟩
  | .hbm, ⟨56, _⟩ => ⟨S32x64x192, .f32⟩
  | .hbm, ⟨57, _⟩ => ⟨S32x64x192, .f32⟩
  | .hbm, ⟨58, _⟩ => ⟨S_, .f32⟩
  | .hbm, ⟨59, _⟩ => ⟨S32x64, .f32⟩
  | .hbm, ⟨60, _⟩ => ⟨S_, .f32⟩
  | .hbm, ⟨61, _⟩ => ⟨S32x64, .f32⟩
  | .hbm, ⟨62, _⟩ => ⟨S32x64, .f32⟩
  | .hbm, ⟨63, _⟩ => ⟨S32x64x192, .f32⟩
  | .hbm, ⟨64, _⟩ => ⟨S_, .f32⟩
  | .hbm, ⟨65, _⟩ => ⟨S32x64, .f32⟩
  | .hbm, ⟨66, _⟩ => ⟨S_, .f32⟩
  | .hbm, ⟨67, _⟩ => ⟨S32x64, .f32⟩
  | .hbm, ⟨68, _⟩ => ⟨S32x64, .f32⟩
  | .hbm, ⟨69, _⟩ => ⟨S32x64x1, .f32⟩
  | .hbm, ⟨70, _⟩ => ⟨S32x64x192, .f32⟩
  | .hbm, ⟨71, _⟩ => ⟨S32x64x192, .f32⟩
  | .hbm, ⟨72, _⟩ => ⟨S32x64x192, .f32⟩
  | .hbm, ⟨73, _⟩ => ⟨S_, .f32⟩
  | .hbm, ⟨74, _⟩ => ⟨S32x64, .f32⟩
  | .hbm, ⟨75, _⟩ => ⟨S_, .f32⟩
  | .hbm, ⟨76, _⟩ => ⟨S32x64, .f32⟩
  | .hbm, ⟨77, _⟩ => ⟨S32x64, .f32⟩
  | .hbm, ⟨78, _⟩ => ⟨S32x64, .f32⟩
  | .hbm, ⟨79, _⟩ => ⟨S32x64, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S32x64, .f32⟩
  | .hbm, ⟨85, _⟩ => ⟨S32x64, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_16 : Ref sig .tc := ⟨.hbm, 80, rfl⟩
abbrev main_v56 : Ref sig .tc := ⟨.hbm, 81, rfl⟩
abbrev main_cst_17 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_v60 : Ref sig .tc := ⟨.hbm, 87, rfl⟩
abbrev main_cst_19 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S32x64 : S_.BroadcastsInDim S32x64 (![] : Fin 0 → Fin S32x64.rank)
  bcast_S_S64x1 : S_.BroadcastsInDim S64x1 (![] : Fin 0 → Fin S64x1.rank)
  bcast_S32x64_S32x64x1_0_1 : S32x64.BroadcastsInDim S32x64x1 (![0, 1] : Fin 2 → Fin S32x64x1.rank)
  bcast_S64x1_S32x64x1_1_2 : S64x1.BroadcastsInDim S32x64x1 (![1, 2] : Fin 2 → Fin S32x64x1.rank)
  concatenates_S32x64x1_S32x64x1_S32x64x1_S32x64x3_d2 : Shape.Concatenates [S32x64x1, S32x64x1, S32x64x1] S32x64x3 2
  shapeCasts_S32x64x3x8x8_S32x64x192 : S32x64x3x8x8.ShapeCasts S32x64x192
  reducesTo_S32x64x192_S32x64_d2 : S32x64x192.ReducesTo [2] S32x64
  h_S_ : 0 < S_.numel
  bcast_S32x64x1_S32x64x192_0_1_2 : S32x64x1.BroadcastsInDim S32x64x192 (![0, 1, 2] : Fin 3 → Fin S32x64x192.rank)
  reducesTo_S32x64_S_d0_1 : S32x64.ReducesTo [0, 1] S_
  gather_S32x3x512x512_S32x64x3_S32x64x3x8x8_234_n_0_0_123_2_1388_wf : GatherDims.WF S32x3x512x512 S32x64x3 S32x64x3x8x8 [2, 3, 4] [] [0] [1, 2, 3] [0] 2 ![1, 3, 8, 8]

variable [Facts₀]

def gather_S32x3x512x512_S32x64x3_S32x64x3x8x8_234_n_0_0_123_2_1388 : GatherDims S32x3x512x512 S32x64x3 S32x64x3x8x8 where
  offsetDims := [2, 3, 4]
  collapsedSliceDims := []
  operandBatchingDims := [0]
  startIndicesBatchingDims := [0]
  startIndexMap := [1, 2, 3]
  indexVectorDim := 2
  sliceSizes := ![1, 3, 8, 8]
  wf := gather_S32x3x512x512_S32x64x3_S32x64x3x8x8_234_n_0_0_123_2_1388_wf

class Facts : Prop extends Facts₀ where

variable [Facts]
-- ==== Proof.K.Names.lean ====
import proofs.«403745_j3521873182816_1_alg».proof.Proof.Gen.Kernel.Loops
import proofs.«403745_j3521873182816_1_alg».proof.Proof.Gen.Kernel.Launch
import Idealize.ShloMosaic.Lib.Tactic
import Idealize.ShloMosaic.Lib.Ring
import Idealize.ShloMosaic.Lib.Transfers
import Idealize.ShloMosaic.Lib.Pipeline.Rules
import Idealize.ShloMosaic.Lib.Pipeline.Kit

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

local notation "𝕄" => MT nD τ sig Unit (Elt F) ℕ (UU nD τ) ℕ

abbrev 𝒱₀ : Variants := Variants.none

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## Slots, cells, table words, source blocks

A patch buffer `[64, 3, 8, 8]` is 64 slots of `[3, 8, 8]`, slot `j` completing on cell `j` of its semaphore array. The
patch copied into slot `j` for image row `R` is the `[1, 3, 8, 8]` block of the image array at row `R`, channel 0 and the
row and column origins the two tables hold at `[R, j]`. -/

theorem inbSlot (j : Fin 64) : ∀ a, (![j.val, 0, 0, 0] : Fin 4 → Nat) a + S1x3x8x8.size a ≤ S64x3x8x8.size a := by
  have := j.isLt; intro a; fin_cases a
  · show j.val + 1 ≤ 64; omega
  · show 0 + 3 ≤ 3; omega
  · show 0 + 8 ≤ 8; omega
  · show 0 + 8 ≤ 8; omega
theorem inbCell (j : Fin 64) : ∀ a, (![j.val] : Fin 1 → Nat) a + S1.size a ≤ S64.size a := by
  have := j.isLt; intro a; fin_cases a; show j.val + 1 ≤ 64; omega
theorem inbTab (R : ℕ) (hR : R < 32) (j : Fin 64) : ∀ a, (![R, j.val] : Fin 2 → Nat) a + S1x1.size a ≤ S32x64.size a := by
  have := j.isLt; intro a; fin_cases a
  · show R + 1 ≤ 32; omega
  · show j.val + 1 ≤ 64; omega
theorem inbSrc (R : ℕ) (hR : R < 32) (y x : BitVec 32) (hy : y.toNat ≤ 504) (hx : x.toNat ≤ 504) :
    ∀ a, (![R, 0, y.toNat, x.toNat] : Fin 4 → Nat) a + S1x3x8x8.size a ≤ S32x3x512x512.size a := by
  intro a; fin_cases a
  · show R + 1 ≤ 32; omega
  · show 0 + 3 ≤ 3; omega
  · show y.toNat + 8 ≤ 512; omega
  · show x.toNat + 8 ≤ 512; omega

/-- Slot `j` of a patch buffer. -/
def slotOf (M : Memref sig .tc .vmem S64x3x8x8 .f32) (j : Fin 64) : Memref sig .tc .vmem S3x8x8 .f32 :=
  (M.slice (Rect.unit (s := S64x3x8x8) ![j.val, 0, 0, 0] S1x3x8x8.size (inbSlot j)) (fun _ => rfl)).squeeze S3x8x8 squeezes_S1x3x8x8_S3x8x8
/-- Cell `j` of a semaphore array. -/
def cellOfArr (S : DmaSems sig S64) (j : Fin 64) : SemLoc sig :=
  SemLoc.dma ((S.slice (Rect.unit (s := S64) ![j.val] S1.size (inbCell j))).squeeze S_ squeezes_S1_S_).sem
/-- The word a table holds at `[R, j]`. -/
def wordAt (c : Dev nD) (T : Memref sig .tc .smem S32x64 .i32) (Yc : Bf (F := F) c T) (R : ℕ) (hR : R < 32) (j : Fin 64) : BitVec 32 :=
  View.readAt (Elt F) T.view (Rect.unit (s := S32x64) ![R, j.val] S1x1.size (inbTab R hR j)).toLoadRect Yc (Shape.Idx.first (show 0 < S1x1.numel by decide))
/-- The image block at row `R` and origins `y`, `x`. -/
def srcOf (M : Memref sig .tc .hbm S32x3x512x512 .f32) (R : ℕ) (y x : BitVec 32)
    (h : ∀ a, (![R, 0, y.toNat, x.toNat] : Fin 4 → Nat) a + S1x3x8x8.size a ≤ S32x3x512x512.size a) : Memref sig .tc .hbm S3x8x8 .f32 :=
  (M.slice (Rect.unit (s := S32x3x512x512) ![R, 0, y.toNat, x.toNat] S1x3x8x8.size h) (fun _ => rfl)).squeeze S3x8x8 squeezes_S1x3x8x8_S3x8x8

theorem iv01_toNat : ∀ k : Fin 64, (Scf.iv 0#32 1#32 k.val).toNat = k.val := by decide

/-! ## One side's family of slots

For one image array `Mi` at contents `A`, its patch buffer `Mb`, its semaphore array `Sm` and its two origin tables at
contents `Yc`, `Xc`, and for the image row `R`: slot `j` is FREE (its cell at zero, the slot at anything, the array's read
share for cell `j` whole), IN FLIGHT (the transfer of the row's `j`-th patch into it, holding the patch's elements of the
read share) or LANDED (the cell at zero, the slot filled with the patch, the read share whole again). -/

/-- A slot's state. -/
inductive SlotSt where
  | free
  | inflight
  | landed
  deriving DecidableEq

section Side

variable (c : Dev nD) (Mb : Memref sig .tc .vmem S64x3x8x8 .f32) (Sm : DmaSems sig S64)
  (Mi : Memref sig .tc .hbm S32x3x512x512 .f32) (A : Bf (F := F) c Mi)
  (Ty Tx : Memref sig .tc .smem S32x64 .i32) (Yc : Bf (F := F) c Ty) (Xc : Bf (F := F) c Tx)
  (R : ℕ) (hR : R < 32)
  (hY : ∀ j, (wordAt c Ty Yc R hR j).toNat ≤ 504) (hX : ∀ j, (wordAt c Tx Xc R hR j).toNat ≤ 504)

/-- The source block of patch `j`. -/
def srcAt (j : Fin 64) : Memref sig .tc .hbm S3x8x8 .f32 :=
  srcOf Mi R (wordAt c Ty Yc R hR j) (wordAt c Tx Xc R hR j) (inbSrc R hR _ _ (hY j) (hX j))
/-- The patch's entries, as the transfer reads them. -/
def payAt (j : Fin 64) : S3x8x8.Idx → Elt F .f32 :=
  ReadAs.same.apply (View.read (Elt F) (srcAt c Mi Ty Tx Yc Xc R hR hY hX j).view A)

/-- The image array's read share for cell `j`, over the elements `S`. -/
abbrev tokI (j : Fin 64) (S : Finset (Idx (Mi.view.loc (c : Thread nD τ)))) : sProp 𝕄 :=
  Mi.view.loc (c : Thread nD τ) ↦[S]{Transfers.shareTok fullShare 64 j} A

abbrev freeS (j : Fin 64) : sProp 𝕄 :=
  iprop(semVal ((c : Thread nD τ), cellOfArr Sm j) 0
    ∗ (∃ f, (slotOf Mb j).view.loc (c : Thread nD τ) ↦[(slotOf Mb j).view.set]{fullShare} f)
    ∗ tokI c Mi A j Finset.univ)

abbrev inflightS (j : Fin 64) : sProp 𝕄 :=
  iprop((∃ f, Transfers.Flight (countersEmb (U := UU nD τ)) (c : Thread nD τ) (cellOfArr Sm j) () 384
            iprop(((slotOf Mb j).view.loc (c : Thread nD τ) ↦[(slotOf Mb j).view.set]{fullShare}
                    (slotOf Mb j).view.writes (Elt F) f [⟨Rect.whole S3x8x8, payAt c Mi A Ty Tx Yc Xc R hR hY hX j⟩])
              ∗ tokI c Mi A j (srcAt c Mi Ty Tx Yc Xc R hR hY hX j).view.set))
    ∗ tokI c Mi A j (Finset.univ \ (srcAt c Mi Ty Tx Yc Xc R hR hY hX j).view.set))

abbrev landedS (j : Fin 64) : sProp 𝕄 :=
  iprop(semVal ((c : Thread nD τ), cellOfArr Sm j) 0
    ∗ (∃ f, (slotOf Mb j).view.loc (c : Thread nD τ) ↦[(slotOf Mb j).view.set]{fullShare}
              (slotOf Mb j).view.writes (Elt F) f [⟨Rect.whole S3x8x8, payAt c Mi A Ty Tx Yc Xc R hR hY hX j⟩])
    ∗ tokI c Mi A j Finset.univ)

/-- Slot `j` in a state. -/
abbrev ΦS (j : Fin 64) (st : SlotSt) : sProp 𝕄 :=
  match st with
  | .free => freeS c Mb Sm Mi A j
  | .inflight => inflightS c Mb Sm Mi A Ty Tx Yc Xc R hR hY hX j
  | .landed => landedS c Mb Sm Mi A Ty Tx Yc Xc R hR hY hX j

end Side

/-- Before trip `k` of an issue loop: slots below `k` in flight, the others free. -/
def stI (k : ℕ) : Fin 64 → SlotSt := fun j => if j.val < k then .inflight else .free
/-- Before trip `k` of a wait loop: slots below `k` landed, the others in flight. -/
def stW (k : ℕ) : Fin 64 → SlotSt := fun j => if j.val < k then .landed else .inflight

theorem stI_at (k : ℕ) (j : Fin 64) (h : j.val = k) : stI k j = .free := by unfold stI; rw [if_neg (by omega)]
theorem stW_at (k : ℕ) (j : Fin 64) (h : j.val = k) : stW k j = .inflight := by unfold stW; rw [if_neg (by omega)]
theorem stI_succ (k : ℕ) (j : Fin 64) (h : j.val = k) : Function.update (stI k) j .inflight = stI (k + 1) := by
  funext x; unfold stI Function.update
  by_cases hx : x = j
  · subst hx; simp [h]
  · have : x.val ≠ j.val := fun e => hx (Fin.ext e)
    simp only [hx, dite_false]; split <;> split <;> first | rfl | omega
theorem stW_succ (k : ℕ) (j : Fin 64) (h : j.val = k) : Function.update (stW k) j .landed = stW (k + 1) := by
  funext x; unfold stW Function.update
  by_cases hx : x = j
  · subst hx; simp [h]
  · have : x.val ≠ j.val := fun e => hx (Fin.ext e)
    simp only [hx, dite_false]; split <;> split <;> first | rfl | omega
theorem stI_zero : stI 0 = fun _ => .free := by funext j; unfold stI; simp
theorem stI_all_eq_stW_zero : stI 64 = stW 0 := by funext j; unfold stI stW; have := j.isLt; simp [this]
theorem stW_all : stW 64 = fun _ => .landed := by funext j; unfold stW; have := j.isLt; simp [this]

/-- The image row a grid point's `lb`-th pass works on, as the kernel computes it: `8 · i + lb`. -/
def rowW (i : grid0.Coords) (lb : BitVec 32) : BitVec 32 := Scalar.addi (Scalar.muli (BitVec.ofNat 32 (i 0).val) 8#32) lb
theorem rowW_toNat : ∀ (i : grid0.Coords) (lb : Fin 8), (rowW i (BitVec.ofNat 32 lb.val)).toNat = 8 * (i 0).val + lb.val := by decide
theorem rowW_lt (i : grid0.Coords) (lb : Fin 8) : (rowW i (BitVec.ofNat 32 lb.val)).toNat < 32 := by
  rw [rowW_toNat]; have h4 : (i 0).val < 4 := (i 0).isLt; have := lb.isLt; omega

end Cert.Proof.K
end
-- ==== Proof.K.Out.lean ====
import proofs.«403745_j3521873182816_1_alg».proof.Proof.K.Names
import proofs.«403745_j3521873182816_1_alg».proof.Proof.Gen.Kernel.Skeleton
import Idealize.ShloMosaic.Lib.ValueIdx

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## What the kernel leaves in its four output blocks

Every origin word of a table is at most 504 (`TabOK`: what the certificate's precondition gives). The patch buffer of
an image array for row `R`, once its 64 transfers have landed, holds at `[n, ch, h, w]` the array's entry
`[R, ch, y + h, x + w]` with `y`, `x` the tables' words at `[R, n]` (`gath`). The kernel's mean and variance of a patch
buffer are its own operations `patchMean`, `patchVar`; the block of the four results that grid point `i` writes holds, at row `lb` and column `n`,
the mean (results 0 and 2) or variance (results 1 and 3) of patch `n` of row `8 i + lb` of the generated image (results
0, 1) or the target image (results 2, 3). -/

/-- Every word of a table is an origin a whole patch fits behind. -/
def TabOK (c : Dev nD) (T : Memref sig .tc .smem S32x64 .i32) (Yc : Bf (F := F) c T) : Prop :=
  ∀ (R : ℕ) (hR : R < 32) (j : Fin 64), (wordAt c T Yc R hR j).toNat ≤ 504

section Gath

variable (c : Dev nD) (Mi : Memref sig .tc .hbm S32x3x512x512 .f32) (A : Bf (F := F) c Mi)
  (Ty Tx : Memref sig .tc .smem S32x64 .i32) (Yc : Bf (F := F) c Ty) (Xc : Bf (F := F) c Tx)
  (hY : TabOK c Ty Yc) (hX : TabOK c Tx Xc)

/-- The patch buffer for row `R` once every transfer has landed. -/
def gath (R : ℕ) (hR : R < 32) : S64x3x8x8.Idx → Elt F .f32 := fun q =>
  payAt c Mi A Ty Tx Yc Xc R hR (hY R hR) (hX R hR) (q 0) (fun a => q a.succ)

end Gath

/-- The kernel's mean of each of the 64 patches of a patch buffer, -/
def patchMean (v : Vec F S64x3x8x8 .f32) : FVec F S64 .f32 := k0_pay2 v
/-- and their unbiased variance, in one pass. -/
def patchVar (v : Vec F S64x3x8x8 .f32) : FVec F S64 .f32 := k0_pay3 v

section Out

variable (c : Dev nD)
  (A : Bf (F := F) c (Memref.whole main_arg0)) (B : Bf (F := F) c (Memref.whole main_arg1))
  (Y : Bf (F := F) c (Memref.whole main_arg2)) (X : Bf (F := F) c (Memref.whole main_arg3))
  (Y' : Bf (F := F) c (Memref.whole main_arg4)) (X' : Bf (F := F) c (Memref.whole main_arg5))
  (hY : TabOK c (Memref.whole main_arg2) Y) (hX : TabOK c (Memref.whole main_arg3) X)
  (hY' : TabOK c (Memref.whole main_arg4) Y') (hX' : TabOK c (Memref.whole main_arg5) X')

/-- The generated image's patch buffer for the row of grid point `i`'s pass `lb` (row `8 i + lb`, as the kernel computes
    it: `rowW`), and the target's. -/
def gathG (i : grid0.Coords) (lb : Fin 8) : S64x3x8x8.Idx → Elt F .f32 :=
  gath c (Memref.whole main_arg0) A (Memref.whole main_arg2) (Memref.whole main_arg3) Y X hY hX
    (rowW i (BitVec.ofNat 32 lb.val)).toNat (rowW_lt i lb)
def gathT (i : grid0.Coords) (lb : Fin 8) : S64x3x8x8.Idx → Elt F .f32 :=
  gath c (Memref.whole main_arg1) B (Memref.whole main_arg4) (Memref.whole main_arg5) Y' X' hY' hX'
    (rowW i (BitVec.ofNat 32 lb.val)).toNat (rowW_lt i lb)

/-- The block of result `w` that grid point `i` writes. -/
def outBlk (i : grid0.Coords) : (w : Fin 4) → S8x64.Idx → Elt F .f32
  | 0 => fun y => patchMean (gathG c A Y X hY hX i (y 0)) (ValueIdx.ix1 (y 1))
  | 1 => fun y => patchVar (gathG c A Y X hY hX i (y 0)) (ValueIdx.ix1 (y 1))
  | 2 => fun y => patchMean (gathT c B Y' X' hY' hX' i (y 0)) (ValueIdx.ix1 (y 1))
  | 3 => fun y => patchVar (gathT c B Y' X' hY' hX' i (y 0)) (ValueIdx.ix1 (y 1))

end Out

/-! ## The kernel's own semaphores -/

/-- The 128 cells of the two scratch semaphore arrays: the generated image's 64, then the target's. -/
abbrev osem : Fin 2 × Fin 64 → SemLoc sig := fun q => SemLoc.dma ⟨8 + 64 * q.1.val + q.2.val, by
  have := q.1.isLt; have := q.2.isLt; show 8 + 64 * q.1.val + q.2.val < 136; omega⟩

theorem gcell_eq : ∀ j : Fin 64, cellOfArr cc0_scratch2 j = osem (0, j) := by decide +kernel
theorem tcell_eq : ∀ j : Fin 64, cellOfArr cc0_scratch3 j = osem (1, j) := by decide +kernel

end Cert.Proof.K
end
-- ==== Proof.K.Loops.lean ====
import proofs.«403745_j3521873182816_1_alg».proof.Proof.K.Names
import proofs.«403745_j3521873182816_1_alg».proof.Proof.K.Out

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The two loops of a pass

Pass `lb` of grid point `i` works on image row `rowW i lb`. Its first loop starts, at trip `k`, the transfer of the row's
`k`-th patch of each image into slot `k` of that image's patch buffer, on cell `k` of its semaphore array; its second
loop waits, at trip `k`, for those two transfers. Before trip `k` of the first loop the slots below `k` are in flight and
the others free; before trip `k` of the second the slots below `k` have landed and the others are in flight. -/

section Loops

variable (c : Dev nD) (i : grid0.Coords) (lb : Fin 8)
  (A : Bf (F := F) c (Memref.whole main_arg0)) (B : Bf (F := F) c (Memref.whole main_arg1))
  (Y : Bf (F := F) c (Memref.whole main_arg2)) (X : Bf (F := F) c (Memref.whole main_arg3))
  (Y' : Bf (F := F) c (Memref.whole main_arg4)) (X' : Bf (F := F) c (Memref.whole main_arg5))
  (hY : TabOK c (Memref.whole main_arg2) Y) (hX : TabOK c (Memref.whole main_arg3) X)
  (hY' : TabOK c (Memref.whole main_arg4) Y') (hX' : TabOK c (Memref.whole main_arg5) X')

/-- The generated image's slots and the target's, at the row of pass `lb`. -/
abbrev Φg : Fin 64 → SlotSt → sProp 𝕄 :=
  ΦS c (Memref.whole cc0_scratch0) cc0_scratch2 (Memref.whole main_arg0) A (Memref.whole main_arg2) (Memref.whole main_arg3) Y X
    (rowW i (BitVec.ofNat 32 lb.val)).toNat (rowW_lt i lb) (hY _ (rowW_lt i lb)) (hX _ (rowW_lt i lb))
abbrev Φt : Fin 64 → SlotSt → sProp 𝕄 :=
  ΦS c (Memref.whole cc0_scratch1) cc0_scratch3 (Memref.whole main_arg1) B (Memref.whole main_arg4) (Memref.whole main_arg5) Y' X'
    (rowW i (BitVec.ofNat 32 lb.val)).toNat (rowW_lt i lb) (hY' _ (rowW_lt i lb)) (hX' _ (rowW_lt i lb))

/-- The four origin tables, held whole. -/
abbrev tabs : sProp 𝕄 :=
  iprop(pt c (Memref.whole main_arg2) Y ∗ pt c (Memref.whole main_arg3) X ∗ pt c (Memref.whole main_arg4) Y' ∗ pt c (Memref.whole main_arg5) X')

/-- Before trip `k` of pass `lb`'s first loop. -/
def issueInv (k : ℕ) (_ : Unit) : sProp 𝕄 :=
  iprop(Ring.AtW (Φg c i lb A Y X hY hX) (stI k) ∗ Ring.AtW (Φt c i lb B Y' X' hY' hX') (stI k) ∗ tabs c Y X Y' X')

/-- Before trip `k` of its second loop. -/
def waitInv (k : ℕ) (_ : Unit) : sProp 𝕄 :=
  iprop(Ring.AtW (Φg c i lb A Y X hY hX) (stW k) ∗ Ring.AtW (Φt c i lb B Y' X' hY' hX') (stW k) ∗ ∃ W, owes (c : Thread nD τ) 0 W)

end Loops

/-- One trip of a pass's first loop, at a symbolic trip: slot `k` of each side is set apart, the two table words are read
    and are origins a patch fits behind, the two transfers start, and the slots go back in flight. `$lb` is the pass,
    `$body` the loop's region. -/
syntax "issue_step_tac " term:max ident : tactic
set_option hygiene false in
macro_rules
  | `(tactic| issue_step_tac $lb $body) => `(tactic| (
  intro k acc
  have hk : k.val < 64 := lt_of_lt_of_eq k.isLt (by decide)
  have hw : (Scf.iv 0#32 1#32 k.val).toNat < 64 := by rw [iv01_toNat ⟨k.val, hk⟩]; exact hk
  have hj : (Ring.slotOfW (n := 64) (Scf.iv 0#32 1#32 k.val) hw).val = k.val := iv01_toNat ⟨k.val, hk⟩
  unfold issueInv
  rw [Ring.AtW_focusW (Φg c i $lb A Y X hY hX) (stI k.val) (Scf.iv 0#32 1#32 k.val) hw,
    Ring.AtW_focusW (Φt c i $lb B Y' X' hY' hX') (stI k.val) (Scf.iv 0#32 1#32 k.val) hw]
  iintro ⟨⟨Hg, Hgrest⟩, ⟨Ht, Htrest⟩, HY, HX, HY', HX'⟩
  simp only [Φg, Φt, ΦS, stI_at _ _ hj]
  icases Hg with ⟨Hcell, ⟨%f, Hslot⟩, Htok⟩
  icases Ht with ⟨Hcell', ⟨%f', Hslot'⟩, Htok'⟩
  first | unfold $body | skip
  sl_exec (disch := first
    | exact inbSrc _ (rowW_lt i $lb) _ _ (hY _ (rowW_lt i $lb) (Ring.slotOfW (Scf.iv 0#32 1#32 k.val) hw)) (hX _ (rowW_lt i $lb) (Ring.slotOfW (Scf.iv 0#32 1#32 k.val) hw))
    | exact inbSrc _ (rowW_lt i $lb) _ _ (hY' _ (rowW_lt i $lb) (Ring.slotOfW (Scf.iv 0#32 1#32 k.val) hw)) (hX' _ (rowW_lt i $lb) (Ring.slotOfW (Scf.iv 0#32 1#32 k.val) hw)))
  sl_step
  rw [← stI_succ k.val _ hj]
  isplitl [Hcell Htok Hgrest]
  · iapply (Ring.AtW_update (Φg c i $lb A Y X hY hX) (stI k.val) (Ring.slotOfW (Scf.iv 0#32 1#32 k.val) hw) .inflight)
    isplitr [Hgrest]
    · simp only [Φg, ΦS]
      isplitl [Hcell]
      · iexists f; iexact Hcell
      · iexact Htok
    · iexact Hgrest
  isplitl [Hcell' Htok' Htrest]
  · iapply (Ring.AtW_update (Φt c i $lb B Y' X' hY' hX') (stI k.val) (Ring.slotOfW (Scf.iv 0#32 1#32 k.val) hw) .inflight)
    isplitr [Htrest]
    · simp only [Φt, ΦS]
      isplitl [Hcell']
      · iexists f'; iexact Hcell'
      · iexact Htok'
    · iexact Htrest
  isplitl [HY]; · iexact HY
  isplitl [HX]; · iexact HX
  isplitl [HY']; · iexact HY'
  iexact HX'))

/-- One trip of a pass's second loop: slot `k` of each side, in flight, is waited for and goes back landed. -/
syntax "wait_step_tac " term:max ident : tactic
set_option hygiene false in
macro_rules
  | `(tactic| wait_step_tac $lb $body) => `(tactic| (
  intro k acc
  have hk : k.val < 64 := lt_of_lt_of_eq k.isLt (by decide)
  have hw : (Scf.iv 0#32 1#32 k.val).toNat < 64 := by rw [iv01_toNat ⟨k.val, hk⟩]; exact hk
  have hj : (Ring.slotOfW (n := 64) (Scf.iv 0#32 1#32 k.val) hw).val = k.val := iv01_toNat ⟨k.val, hk⟩
  unfold waitInv
  rw [Ring.AtW_focusW (Φg c i $lb A Y X hY hX) (stW k.val) (Scf.iv 0#32 1#32 k.val) hw,
    Ring.AtW_focusW (Φt c i $lb B Y' X' hY' hX') (stW k.val) (Scf.iv 0#32 1#32 k.val) hw]
  iintro ⟨⟨Hg, Hgrest⟩, ⟨Ht, Htrest⟩, ⟨%W, HO⟩⟩
  simp only [Φg, Φt, ΦS, stW_at _ _ hj]
  icases Hg with ⟨⟨%f, Hfl⟩, Htok⟩
  icases Ht with ⟨⟨%f', Hfl'⟩, Htok'⟩
  first | unfold $body | skip
  sl_exec
  sl_step
  rw [← stW_succ k.val _ hj]
  isplitl [Hfl Hfl_dst Htok Hgrest]
  · iapply (Ring.AtW_update (Φg c i $lb A Y X hY hX) (stW k.val) (Ring.slotOfW (Scf.iv 0#32 1#32 k.val) hw) .landed)
    isplitr [Hgrest]
    · simp only [Φg, ΦS]
      isplitl [Hfl]; · iexact Hfl
      isplitl [Hfl_dst]; · iexists f; iexact Hfl_dst
      iexact Htok
    · iexact Hgrest
  isplitl [Hfl' Hfl'_dst Htok' Htrest]
  · iapply (Ring.AtW_update (Φt c i $lb B Y' X' hY' hX') (stW k.val) (Ring.slotOfW (Scf.iv 0#32 1#32 k.val) hw) .landed)
    isplitr [Htrest]
    · simp only [Φt, ΦS]
      isplitl [Hfl']; · iexact Hfl'
      isplitl [Hfl'_dst]; · iexists f'; iexact Hfl'_dst
      iexact Htok'
    · iexact Htrest
  iexists _; iexact HO))

end Cert.Proof.K
end
-- ==== Proof.K.Fam.lean ====
import proofs.«403745_j3521873182816_1_alg».proof.Proof.K.Names
import Idealize.ShloMosaic.Lib.Ring
import Idealize.ShloMosaic.Lib.Transfers
import Idealize.ShloMosaic.Lib.Pipeline.Rules
import Idealize.ShloMosaic.Rules.PointsTo

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The 64 slots of a patch buffer: pairwise disjoint, covering it

Slot `j` is the unit rectangle at offsets `[j, 0, 0, 0]` of sizes `[1, 3, 8, 8]`; the slots differ along axis 0 only, one
long there and whole on the other axes, so they are pairwise disjoint and cover `[64, 3, 8, 8]`. A slot's elements of
the buffer are its rectangle's, placed by the buffer's own view. -/

/-- Slot `j`'s rectangle. -/
abbrev slotRect (j : Fin 64) : Rect S64x3x8x8 := Rect.unit (s := S64x3x8x8) ![j.val, 0, 0, 0] S1x3x8x8.size (inbSlot j)

theorem slotRect_disjoint (j j' : Fin 64) (h : j ≠ j') : Disjoint (slotRect j).set (slotRect j').set :=
  Ring.lead_disjoint (s := S64x3x8x8) (NB := 64) (0 : Fin 4) 1 (fun j : Fin 64 => ![j.val, 0, 0, 0]) S1x3x8x8.size inbSlot
    (fun b => by show b.val = 1 * b.val; omega) rfl j j' h

theorem slotRect_cover : Finset.univ.biUnion (fun j : Fin 64 => (slotRect j).set) = Finset.univ :=
  Ring.lead_cover (s := S64x3x8x8) (NB := 64) (0 : Fin 4) 1 (fun j : Fin 64 => ![j.val, 0, 0, 0]) S1x3x8x8.size inbSlot
    (fun b => by show b.val = 1 * b.val; omega)
    (fun b a ha => by fin_cases a <;> first | exact absurd rfl ha | rfl)
    rfl
    (fun a ha => by fin_cases a <;> first | exact absurd rfl ha | rfl)
    rfl

section Slots

variable (c : Dev nD) (Mb : Memref sig .tc .vmem S64x3x8x8 .f32)

/-- Slot `j`'s elements of the buffer. -/
abbrev slotI (j : Fin 64) : Finset (Idx (Mb.view.loc (c : Thread nD τ))) := (slotOf Mb j).view.set

theorem slotI_eq (j : Fin 64) : slotI c Mb j = (slotRect j).set.map Mb.view.emb := by
  show ((Mb.view.slice (slotRect j)).reshape S3x8x8 _).set = _
  rw [View.set_reshape, View.set_slice]

theorem slotI_disjoint (j j' : Fin 64) (h : j ≠ j') : Disjoint (slotI c Mb j) (slotI c Mb j') := by
  rw [slotI_eq, slotI_eq, Finset.disjoint_map]; exact slotRect_disjoint j j' h

theorem slotI_cover (hMb : Mb.IsWhole) : Finset.univ.biUnion (slotI c Mb) = Finset.univ := by
  ext i
  simp only [Finset.mem_biUnion, Finset.mem_univ, true_and, iff_true]
  have hi : i ∈ Mb.view.set := by rw [hMb.set_eq_univ]; exact Finset.mem_univ _
  obtain ⟨x, -, rfl⟩ := Finset.mem_map.mp hi
  have hx : x ∈ Finset.univ.biUnion (fun j : Fin 64 => (slotRect j).set) := by rw [slotRect_cover]; exact Finset.mem_univ _
  obtain ⟨j, -, hj⟩ := Finset.mem_biUnion.mp hx
  exact ⟨j, by rw [slotI_eq]; exact Finset.mem_map_of_mem _ hj⟩

end Slots
/-! ## The family at launch and at exit

At launch the patch buffer is held whole at anything, the image array whole, and every cell at zero: the buffer is its 64
slots (each at the buffer's contents), the array's full share is the remainder and one read share per cell, and that is
every slot FREE. -/

section Side

variable (c : Dev nD) (Mb : Memref sig .tc .vmem S64x3x8x8 .f32) (Sm : DmaSems sig S64)
  (Mi : Memref sig .tc .hbm S32x3x512x512 .f32) (A : Bf (F := F) c Mi)
  (Ty Tx : Memref sig .tc .smem S32x64 .i32) (Yc : Bf (F := F) c Ty) (Xc : Bf (F := F) c Tx)
  (R : ℕ) (hR : R < 32)
  (hY : ∀ j, (wordAt c Ty Yc R hR j).toNat ≤ 504) (hX : ∀ j, (wordAt c Tx Xc R hR j).toNat ≤ 504)

theorem fam_intro (hMb : Mb.IsWhole) (f : Bf (F := F) c Mb) :
    iprop(pt c Mb f ∗ pt c Mi A ∗ bigSep Finset.univ (fun j : Fin 64 => semVal ((c : Thread nD τ), cellOfArr Sm j) 0))
      ⊢ iprop(Ring.AtW (ΦS c Mb Sm Mi A Ty Tx Yc Xc R hR hY hX) (fun _ => SlotSt.free)
          ∗ (Mi.view.loc (c : Thread nD τ) ↦[Finset.univ]{Transfers.shareDrop fullShare 64} A)) := by
  have eAt : Ring.AtW (ΦS c Mb Sm Mi A Ty Tx Yc Xc R hR hY hX) (fun _ => SlotSt.free)
      = iprop(bigSep Finset.univ (fun j : Fin 64 => semVal ((c : Thread nD τ), cellOfArr Sm j) 0)
          ∗ bigSep Finset.univ (fun j : Fin 64 => iprop(∃ f, (slotOf Mb j).view.loc (c : Thread nD τ) ↦[(slotOf Mb j).view.set]{fullShare} f))
          ∗ bigSep Finset.univ (fun j : Fin 64 => tokI c Mi A j Finset.univ)) := by
    unfold Ring.AtW
    rw [← BI.bigSep_sep', ← BI.bigSep_sep']
  rw [eAt]
  iintro ⟨Hb, Hi, Hs⟩
  ihave Ht := (Transfers.pointsTo_toks_split fullShare 64) $$ Hi
  icases Ht with ⟨Hd, Ht⟩
  isplitr [Hd]
  · isplitl [Hs]; · iexact Hs
    isplitl [Hb]
    · ihave Hb' := (Entails.of_eq (Ring.pointsTo_blocks (Ix := Unit) (Val := Elt F) (Name := ℕ) (U := UU nD τ) (Lvl := ℕ) (q := fullShare)
        (slotI c Mb) (slotI_disjoint c Mb) (slotI_cover c Mb hMb) f)) $$ Hb
      have hone : ∀ j : Fin 64, (Mb.view.loc (c : Thread nD τ) ↦[slotI c Mb j]{fullShare} f : sProp 𝕄)
          ⊢ iprop(∃ f, (slotOf Mb j).view.loc (c : Thread nD τ) ↦[(slotOf Mb j).view.set]{fullShare} f) :=
        fun j => by iintro H; iexists f; iexact H
      have hall : bigSep Finset.univ (fun j : Fin 64 => (Mb.view.loc (c : Thread nD τ) ↦[slotI c Mb j]{fullShare} f : sProp 𝕄))
          ⊢ bigSep Finset.univ (fun j : Fin 64 => iprop(∃ f, (slotOf Mb j).view.loc (c : Thread nD τ) ↦[(slotOf Mb j).view.set]{fullShare} f)) :=
        BI.bigSep_mono fun j _ => hone j
      iapply hall
      iexact Hb'
    · iexact Ht
  · iexact Hd

end Side
/-! ## Reading the joined buffer

Element `q` of the buffer is element `(q 1, q 2, q 3)` of slot `q 0`: the slot's own index behind the coordinate 0 is the
unit rectangle's index, which the rectangle places at `[q 0 + 0, 0 + q 1, 0 + q 2, 0 + q 3]`. So contents that agree with
each slot's filled contents on the slot's elements read, at `q`, the payload of slot `q 0` at `(q 1, q 2, q 3)`. -/

section Read

variable (c : Dev nD) (Mb : Memref sig .tc .vmem S64x3x8x8 .f32)

theorem slot_emb (q : S64x3x8x8.Idx) :
    (Mb.view.emb q : Mb.view.ty.Idx) = (slotOf Mb (q 0)).view.emb (fun a => q a.succ) := by
  have hr := Shape.reshapeEquiv_cons_one (n := 3) (d := ![3, 8, 8]) squeezes_S1x3x8x8_S3x8x8.numel_eq (fun a => q a.succ)
  show Mb.view.emb q = Mb.view.emb ((slotRect (q 0)).emb (Shape.reshapeEquiv squeezes_S1x3x8x8_S3x8x8.numel_eq (fun a => q a.succ)))
  refine congrArg _ (funext fun a => Fin.ext ?_)
  rw [Rect.emb_apply, hr]
  fin_cases a
  · show (q 0 : ℕ) = (q 0 : ℕ) + 1 * 0; omega
  · show (q 1 : ℕ) = 0 + 1 * (q 1 : ℕ); omega
  · show (q 2 : ℕ) = 0 + 1 * (q 2 : ℕ); omega
  · show (q 3 : ℕ) = 0 + 1 * (q 3 : ℕ); omega

theorem writes_whole_emb (j : Fin 64) (f : (slotOf Mb j).view.ty.Contents (Elt F)) (p : S3x8x8.Idx → Elt F .f32) (z : S3x8x8.Idx) :
    (slotOf Mb j).view.writes (Elt F) f [⟨Rect.whole S3x8x8, p⟩] ((slotOf Mb j).view.emb z)
      = cast (congrArg (Elt F) (slotOf Mb j).view.elt_eq.symm) (p z) := by
  rw [← View.write_univ_eq_writes_whole, View.writes_nil, View.write_emb_of_mem _ _ (Finset.mem_univ _)]

theorem read_of_agree (g : Bf (F := F) c Mb) (y : Fin 64 → Bf (F := F) c Mb) (p : Fin 64 → S3x8x8.Idx → Elt F .f32)
    (hg : ∀ j ∈ (Finset.univ : Finset (Fin 64)), ∀ i ∈ slotI c Mb j,
      g i = (slotOf Mb j).view.writes (Elt F) (y j) [⟨Rect.whole S3x8x8, p j⟩] i) :
    Mb.view.read (Elt F) g = fun q => p (q 0) (fun a => q a.succ) := by
  funext q
  have h1 := (congrArg g (slot_emb Mb q)).trans (hg (q 0) (Finset.mem_univ _) _ ((slotOf Mb (q 0)).view.emb_mem_set _))
  have h2 := h1.trans (writes_whole_emb Mb (q 0) (y (q 0)) (p (q 0)) (fun a => q a.succ))
  rw [View.read_apply, h2]
  exact (cast_cast _ _ _).trans (cast_eq _ _)

end Read
/-! At exit every slot has LANDED: the cells are at zero, the read shares and the remainder are the image array whole again, and
the 64 slots, each filled whole with its patch over whatever it held, join to the buffer whole at contents that agree with
each slot's on the slot's elements, hence read patch `q 0` at `(q 1, q 2, q 3)`. -/

section SideOut

variable (c : Dev nD) (Mb : Memref sig .tc .vmem S64x3x8x8 .f32) (Sm : DmaSems sig S64)
  (Mi : Memref sig .tc .hbm S32x3x512x512 .f32) (A : Bf (F := F) c Mi)
  (Ty Tx : Memref sig .tc .smem S32x64 .i32) (Yc : Bf (F := F) c Ty) (Xc : Bf (F := F) c Tx)
  (R : ℕ) (hR : R < 32)
  (hY : ∀ j, (wordAt c Ty Yc R hR j).toNat ≤ 504) (hX : ∀ j, (wordAt c Tx Xc R hR j).toNat ≤ 504)

theorem fam_elim (hMb : Mb.IsWhole) :
    iprop(Ring.AtW (ΦS c Mb Sm Mi A Ty Tx Yc Xc R hR hY hX) (fun _ => SlotSt.landed)
        ∗ (Mi.view.loc (c : Thread nD τ) ↦[Finset.univ]{Transfers.shareDrop fullShare 64} A))
      ⊢ iprop(∃ g : Bf (F := F) c Mb, ⌜Mb.view.read (Elt F) g = fun q => payAt c Mi A Ty Tx Yc Xc R hR hY hX (q 0) (fun a => q a.succ)⌝
          ∗ pt c Mb g ∗ pt c Mi A ∗ bigSep Finset.univ (fun j : Fin 64 => semVal ((c : Thread nD τ), cellOfArr Sm j) 0)) := by
  have eAt : Ring.AtW (ΦS c Mb Sm Mi A Ty Tx Yc Xc R hR hY hX) (fun _ => SlotSt.landed)
      = iprop(bigSep Finset.univ (fun j : Fin 64 => semVal ((c : Thread nD τ), cellOfArr Sm j) 0)
          ∗ bigSep Finset.univ (fun j : Fin 64 => iprop(∃ f, (slotOf Mb j).view.loc (c : Thread nD τ) ↦[(slotOf Mb j).view.set]{fullShare}
              (slotOf Mb j).view.writes (Elt F) f [⟨Rect.whole S3x8x8, payAt c Mi A Ty Tx Yc Xc R hR hY hX j⟩]))
          ∗ bigSep Finset.univ (fun j : Fin 64 => tokI c Mi A j Finset.univ)) := by
    unfold Ring.AtW
    rw [← BI.bigSep_sep', ← BI.bigSep_sep']
  rw [eAt]
  -- some contents of the buffer (a patch entry everywhere): what no slot at all would join to
  have x0 : Elt F .f32 := payAt c Mi A Ty Tx Yc Xc R hR hY hX 0 (Shape.Idx.first (by decide : 0 < S3x8x8.numel))
  have g0 : Bf (F := F) c Mb := fun _ => cast (congrArg (Elt F) Mb.view.elt_eq.symm) x0
  haveI : Nonempty (Bf (F := F) c Mb) := ⟨g0⟩
  -- the slots joined
  have hjoin : bigSep Finset.univ (fun j : Fin 64 => iprop(∃ f, (slotOf Mb j).view.loc (c : Thread nD τ) ↦[(slotOf Mb j).view.set]{fullShare}
              (slotOf Mb j).view.writes (Elt F) f [⟨Rect.whole S3x8x8, payAt c Mi A Ty Tx Yc Xc R hR hY hX j⟩]))
      ⊢ (iprop(∃ g : Bf (F := F) c Mb, ⌜Mb.view.read (Elt F) g = fun q => payAt c Mi A Ty Tx Yc Xc R hR hY hX (q 0) (fun a => q a.succ)⌝
          ∗ pt c Mb g) : sProp 𝕄) := by
    refine (BI.bigSep_exists_pi (Y := fun _ : Fin 64 => Bf (F := F) c Mb) Finset.univ
      (fun (j : Fin 64) (f : Bf (F := F) c Mb) => (Mb.view.loc (c : Thread nD τ) ↦[slotI c Mb j]{fullShare}
          (slotOf Mb j).view.writes (Elt F) f [⟨Rect.whole S3x8x8, payAt c Mi A Ty Tx Yc Xc R hR hY hX j⟩] : sProp 𝕄))).trans ?_
    iintro ⟨%y, H⟩
    ihave H2 := (pointsTo_biUnion_join (Ix := Unit) (Val := Elt F) (Name := ℕ) (U := UU nD τ) (Lvl := ℕ) (q := fullShare)
      Finset.univ (slotI c Mb)
      (fun j : Fin 64 => (slotOf Mb j).view.writes (Elt F) (y j) [⟨Rect.whole S3x8x8, payAt c Mi A Ty Tx Yc Xc R hR hY hX j⟩])
      g0 (fun j _ j' _ h => slotI_disjoint c Mb j j' h)) $$ H
    icases H2 with ⟨%g, %hg, Hg⟩
    iexists g
    isplitr
    · ipureintro
      exact read_of_agree c Mb g y (payAt c Mi A Ty Tx Yc Xc R hR hY hX) hg
    · rw [slotI_cover c Mb hMb]; iexact Hg
  iintro ⟨⟨Hs, Hb, Ht⟩, Hd⟩
  ihave Hg := hjoin $$ Hb
  icases Hg with ⟨%g, %hr, Hg⟩
  iexists g
  isplitr
  · ipureintro; exact hr
  isplitl [Hg]; · iexact Hg
  isplitl [Hd Ht]
  · iapply (Transfers.pointsTo_toks_join fullShare 64)
    isplitl [Hd] <;> iassumption
  iexact Hs

end SideOut

end Cert.Proof.K
end
-- ==== Proof.K.Rows.lean ====
import proofs.«403745_j3521873182816_1_alg».proof.Proof.K.Names
import proofs.«403745_j3521873182816_1_alg».proof.Proof.K.Out
import Idealize.ShloMosaic.Lib.Pipeline.Value
import Idealize.ShloMosaic.Lib.Pipeline.FrameBody
import Idealize.ShloMosaic.Lib.Ring
import Idealize.ShloMosaic.Lib.Tactic

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.ShloMosaic.ValueIdx

/-! ## One row of an output block

Pass `lb` stores into row `lb` of each output block the 64 statistics of its patches, as a `[1, 64]` vector. The row's
rectangle embeds a `[1, 64]` index at `(lb, n)`; the `[64]` statistics read as a `[1, 64]` vector at `(0, n)` are the `n`-th;
the whole patch buffer loaded through its full rectangle is its contents. -/

theorem inbRow (lb : Fin 8) : ∀ a, (![lb.val, 0] : Fin 2 → Nat) a + S1x64.size a ≤ S8x64.size a := by
  have := lb.isLt; intro a; fin_cases a
  · show lb.val + 1 ≤ 8; omega
  · show 0 + 64 ≤ 64; omega

theorem emb_row (lb : Fin 8) (h) (x : S1x64.Idx) :
    (Rect.unit (s := S8x64) ![lb.val, 0] S1x64.size h).emb x = ix2 lb (x 1) := by
  funext a
  refine Fin.ext ?_
  match a with
  | ⟨0, _⟩ =>
    show lb.val + 1 * (x 0).val = lb.val
    have : (x 0).val < 1 := (x 0).isLt
    omega
  | ⟨1, _⟩ =>
    show 0 + 1 * (x 1).val = (x 1).val
    omega

theorem shapeCast_row (v : FVec F S64 .f32) (x : S1x64.Idx) :
    shapeCast S1x64 v shapeCasts_S64_S1x64 x = v (ix1 (x 1)) := by
  refine (shapeCast_addUnit_apply (n := 1) ![64] v shapeCasts_S64_S1x64 x).trans ?_
  exact congrArg v (funext fun a => by match a with | ⟨0, _⟩ => rfl)

theorem readAt_full (c : Dev nD) (M : Memref sig .tc .vmem S64x3x8x8 .f32) (g : Bf (F := F) c M) (h) :
    View.readAt (Elt F) M.view (Rect.unit (s := S64x3x8x8) ![0, 0, 0, 0] S64x3x8x8.size h).toLoadRect g = View.read (Elt F) M.view g := by
  show View.ld (View.read (Elt F) M.view g) (Rect.unit (s := S64x3x8x8) ![0, 0, 0, 0] S64x3x8x8.size h) = _
  exact View.ld_unit_zero (funext fun a => by fin_cases a <;> rfl) h _

/-- Eight row stores, one per row, leave the block that each row's vector is a row of. -/
theorem out_rows (M : Memref sig .tc .vmem S8x64 .f32) (g : M.view.ty.Contents (Elt F)) (G : S8x64.Idx → Elt F .f32)
    (p0 p1 p2 p3 p4 p5 p6 p7 : S1x64.Idx → Elt F .f32)
    (h0 : ∀ x, p0 x = G (ix2 0 (x 1))) (h1 : ∀ x, p1 x = G (ix2 1 (x 1))) (h2 : ∀ x, p2 x = G (ix2 2 (x 1)))
    (h3 : ∀ x, p3 x = G (ix2 3 (x 1))) (h4 : ∀ x, p4 x = G (ix2 4 (x 1))) (h5 : ∀ x, p5 x = G (ix2 5 (x 1)))
    (h6 : ∀ x, p6 x = G (ix2 6 (x 1))) (h7 : ∀ x, p7 x = G (ix2 7 (x 1))) :
    View.read (Elt F) M.view (M.view.writes (Elt F) g
      [⟨Rect.unit ![7, 0] S1x64.size inb_S8x64_S1x64_7_0, p7⟩, ⟨Rect.unit ![6, 0] S1x64.size inb_S8x64_S1x64_6_0, p6⟩,
       ⟨Rect.unit ![5, 0] S1x64.size inb_S8x64_S1x64_5_0, p5⟩, ⟨Rect.unit ![4, 0] S1x64.size inb_S8x64_S1x64_4_0, p4⟩,
       ⟨Rect.unit ![3, 0] S1x64.size inb_S8x64_S1x64_3_0, p3⟩, ⟨Rect.unit ![2, 0] S1x64.size inb_S8x64_S1x64_2_0, p2⟩,
       ⟨Rect.unit ![1, 0] S1x64.size inb_S8x64_S1x64_1_0, p1⟩, ⟨Rect.unit ![0, 0] S1x64.size inb_S8x64_S1x64_0_0, p0⟩]) = G := by
  have hcov : ∀ y : S8x64.Idx, ∃ p ∈ ([⟨Rect.unit ![7, 0] S1x64.size inb_S8x64_S1x64_7_0, p7⟩, ⟨Rect.unit ![6, 0] S1x64.size inb_S8x64_S1x64_6_0, p6⟩,
       ⟨Rect.unit ![5, 0] S1x64.size inb_S8x64_S1x64_5_0, p5⟩, ⟨Rect.unit ![4, 0] S1x64.size inb_S8x64_S1x64_4_0, p4⟩,
       ⟨Rect.unit ![3, 0] S1x64.size inb_S8x64_S1x64_3_0, p3⟩, ⟨Rect.unit ![2, 0] S1x64.size inb_S8x64_S1x64_2_0, p2⟩,
       ⟨Rect.unit ![1, 0] S1x64.size inb_S8x64_S1x64_1_0, p1⟩, ⟨Rect.unit ![0, 0] S1x64.size inb_S8x64_S1x64_0_0, p0⟩] : List (View.Piece (Elt F) S8x64 .f32)), y ∈ p.1.set :=
    View.cover_of_tiledL _ S1x64.size (by sl_kernel_rfl)
  rw [View.read_writes_eq_canon _ _ _ hcov]
  funext y
  refine View.canon_apply_of_pieces G _ ?_ y (hcov y)
  intro p hp x
  simp only [List.mem_cons, List.mem_nil_iff, or_false] at hp
  rcases hp with rfl | rfl | rfl | rfl | rfl | rfl | rfl | rfl
  · exact (h7 x).trans (congrArg G (emb_row 7 inb_S8x64_S1x64_7_0 x).symm)
  · exact (h6 x).trans (congrArg G (emb_row 6 inb_S8x64_S1x64_6_0 x).symm)
  · exact (h5 x).trans (congrArg G (emb_row 5 inb_S8x64_S1x64_5_0 x).symm)
  · exact (h4 x).trans (congrArg G (emb_row 4 inb_S8x64_S1x64_4_0 x).symm)
  · exact (h3 x).trans (congrArg G (emb_row 3 inb_S8x64_S1x64_3_0 x).symm)
  · exact (h2 x).trans (congrArg G (emb_row 2 inb_S8x64_S1x64_2_0 x).symm)
  · exact (h1 x).trans (congrArg G (emb_row 1 inb_S8x64_S1x64_1_0 x).symm)
  · exact (h0 x).trans (congrArg G (emb_row 0 inb_S8x64_S1x64_0_0 x).symm)

section RowOf

variable (c : Dev nD)
  (A : Bf (F := F) c (Memref.whole main_arg0)) (B : Bf (F := F) c (Memref.whole main_arg1))
  (Y : Bf (F := F) c (Memref.whole main_arg2)) (X : Bf (F := F) c (Memref.whole main_arg3))
  (Y' : Bf (F := F) c (Memref.whole main_arg4)) (X' : Bf (F := F) c (Memref.whole main_arg5))
  (hY : TabOK c (Memref.whole main_arg2) Y) (hX : TabOK c (Memref.whole main_arg3) X)
  (hY' : TabOK c (Memref.whole main_arg4) Y') (hX' : TabOK c (Memref.whole main_arg5) X')
  (i : grid0.Coords) (lb : Fin 8)

/-- The means of pass `lb`'s patches of the generated image, as a `[1, 64]` vector, are row `lb` of result 0's block; -/
theorem rowG_mean (v : Vec F S64x3x8x8 .f32) (hv : v = gathG c A Y X hY hX i lb) (x : S1x64.Idx) :
    shapeCast S1x64 (patchMean v) shapeCasts_S64_S1x64 x = outBlk c A B Y X Y' X' hY hX hY' hX' i 0 (ix2 lb (x 1)) := by
  subst hv; rw [shapeCast_row]; rfl
/-- their variances row `lb` of result 1's; -/
theorem rowG_var (v : Vec F S64x3x8x8 .f32) (hv : v = gathG c A Y X hY hX i lb) (x : S1x64.Idx) :
    shapeCast S1x64 (patchVar v) shapeCasts_S64_S1x64 x = outBlk c A B Y X Y' X' hY hX hY' hX' i 1 (ix2 lb (x 1)) := by
  subst hv; rw [shapeCast_row]; rfl
/-- the target image's means row `lb` of result 2's, -/
theorem rowT_mean (v : Vec F S64x3x8x8 .f32) (hv : v = gathT c B Y' X' hY' hX' i lb) (x : S1x64.Idx) :
    shapeCast S1x64 (patchMean v) shapeCasts_S64_S1x64 x = outBlk c A B Y X Y' X' hY hX hY' hX' i 2 (ix2 lb (x 1)) := by
  subst hv; rw [shapeCast_row]; rfl
/-- and its variances row `lb` of result 3's. -/
theorem rowT_var (v : Vec F S64x3x8x8 .f32) (hv : v = gathT c B Y' X' hY' hX' i lb) (x : S1x64.Idx) :
    shapeCast S1x64 (patchVar v) shapeCasts_S64_S1x64 x = outBlk c A B Y X Y' X' hY hX hY' hX' i 3 (ix2 lb (x 1)) := by
  subst hv; rw [shapeCast_row]; rfl

end RowOf

end Cert.Proof.K
end
-- ==== Proof.K.Body.lean ====
import proofs.«403745_j3521873182816_1_alg».proof.Proof.K.Names
import proofs.«403745_j3521873182816_1_alg».proof.Proof.K.Loops
import proofs.«403745_j3521873182816_1_alg».proof.Proof.K.Fam
import proofs.«403745_j3521873182816_1_alg».proof.Proof.K.Rows
import Idealize.ShloMosaic.Lib.Pipeline.Launch

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.SL.BI (bigSep_univ_prod)

theorem sems_split (c : Dev nD) :
    (Pipeline.ownSems0 (Ix := Unit) (Name := ℕ) (U := UU nD τ) (Lvl := ℕ) (Val := Elt F) (τ := τ) osem c : sProp 𝕄)
      = iprop(bigSep Finset.univ (fun j : Fin 64 => semVal ((c : Thread nD τ), cellOfArr cc0_scratch2 j) 0)
          ∗ bigSep Finset.univ (fun j : Fin 64 => semVal ((c : Thread nD τ), cellOfArr cc0_scratch3 j) 0)) := by
  unfold Pipeline.ownSems0
  rw [bigSep_univ_prod, Ring.bigSep_fin2]
  simp only [gcell_eq, tcell_eq]

/-- One pass of the kernel at a grid point, from its first loop to the next pass's: the two patch buffers are split
    into their slots and the two image arrays into one read share per cell, the first loop starts the 128 transfers, the
    second waits for them, the slots are joined back into the buffers — now holding the row's patches — and the run goes
    on through the pass's loads, arithmetic and stores. `$lb` is the pass; then its two regions and its two loops; then
    the names the joined buffers' contents and what they hold are given. -/
syntax "pass_tac " term:max ident ident ident ident ident ident : tactic
set_option hygiene false in
macro_rules
  | `(tactic| pass_tac $lb $ib $wb $il $wl $hgg $hgt) => `(tactic| (
  ihave Hg := (fam_intro c (Memref.whole cc0_scratch0) cc0_scratch2 (Memref.whole main_arg0) A (Memref.whole main_arg2) (Memref.whole main_arg3) Y X
    (rowW i (BitVec.ofNat 32 ($lb : Fin 8).val)).toNat (rowW_lt i $lb) (hY _ (rowW_lt i $lb)) (hX _ (rowW_lt i $lb)) (Memref.isWhole_whole _) _) $$ [Hsg HA Hsemg]
  · isplitl [Hsg]; · iexact Hsg
    isplitl [HA]; · iexact HA
    iexact Hsemg
  icases Hg with ⟨Hfg, HAr⟩
  ihave Ht := (fam_intro c (Memref.whole cc0_scratch1) cc0_scratch3 (Memref.whole main_arg1) B (Memref.whole main_arg4) (Memref.whole main_arg5) Y' X'
    (rowW i (BitVec.ofNat 32 ($lb : Fin 8).val)).toNat (rowW_lt i $lb) (hY' _ (rowW_lt i $lb)) (hX' _ (rowW_lt i $lb)) (Memref.isWhole_whole _) _) $$ [Hst HB Hsemt]
  · isplitl [Hst]; · iexact Hst
    isplitl [HB]; · iexact HB
    iexact Hsemt
  icases Ht with ⟨Hft, HBr⟩
  sl_for (issueInv c i $lb A B Y X Y' X' hY hX hY' hX') $$ [Hfg Hft HY HX HY' HX']
  · issue_step_tac $lb $ib
  · unfold issueInv; rw [stI_zero]
    isplitl [Hfg]; · iexact Hfg
    isplitl [Hft]; · iexact Hft
    isplitl [HY]; · iexact HY
    isplitl [HX]; · iexact HX
    isplitl [HY']; · iexact HY'
    iexact HX'
  iintro %acc HI
  rw [show Scf.trips ($il).lb ($il).ub ($il).st = 64 from by decide]
  unfold issueInv
  rw [stI_all_eq_stW_zero]
  icases HI with ⟨Hfg, Hft, HY, HX, HY', HX'⟩
  sl_exec
  sl_for (waitInv c i $lb A B Y X Y' X' hY hX hY' hX') $$ [Hfg Hft HO]
  · wait_step_tac $lb $wb
  · unfold waitInv
    isplitl [Hfg]; · iexact Hfg
    isplitl [Hft]; · iexact Hft
    iexists _; iexact HO
  iintro %acc HI
  rw [show Scf.trips ($wl).lb ($wl).ub ($wl).st = 64 from by decide]
  unfold waitInv
  rw [stW_all]
  icases HI with ⟨Hfg, Hft, ⟨%W1, HO⟩⟩
  ihave Hg := (fam_elim c (Memref.whole cc0_scratch0) cc0_scratch2 (Memref.whole main_arg0) A (Memref.whole main_arg2) (Memref.whole main_arg3) Y X
    (rowW i (BitVec.ofNat 32 ($lb : Fin 8).val)).toNat (rowW_lt i $lb) (hY _ (rowW_lt i $lb)) (hX _ (rowW_lt i $lb)) (Memref.isWhole_whole _)) $$ [Hfg HAr]
  · isplitl [Hfg]; · iexact Hfg
    iexact HAr
  icases Hg with ⟨%ggx, %hggx, Hsg, HA, Hsemg⟩
  have $hgg := hggx
  ihave Ht := (fam_elim c (Memref.whole cc0_scratch1) cc0_scratch3 (Memref.whole main_arg1) B (Memref.whole main_arg4) (Memref.whole main_arg5) Y' X'
    (rowW i (BitVec.ofNat 32 ($lb : Fin 8).val)).toNat (rowW_lt i $lb) (hY' _ (rowW_lt i $lb)) (hX' _ (rowW_lt i $lb)) (Memref.isWhole_whole _)) $$ [Hft HBr]
  · isplitl [Hft]; · iexact Hft
    iexact HBr
  icases Ht with ⟨%gtx, %hgtx, Hst, HB, Hsemt⟩
  have $hgt := hgtx
  sl_exec))

/-! ## The kernel's run at one grid point

From the four origin tables, the two image arrays, the two patch buffers and the 128 cells of the kernel's own semaphore
arrays at zero, with the four output blocks' staging buffers at anything: the kernel runs to its return, leaving the
tables and the arrays as they were, the patch buffers at something, the cells at zero again, and each staging buffer at
the block `outBlk` names. Every transfer a pass starts it waits for before it reads the patch buffers, and the next pass
starts only after those reads, so nothing is in flight at the return. -/

set_option maxHeartbeats 40000000 in
theorem kernelRun (c : Dev nD) (i : grid0.Coords)
    (M7 M8 M9 M10 : Memref sig .tc .vmem S8x64 .f32) (h7 : M7.IsWhole) (h8 : M8.IsWhole) (h9 : M9.IsWhole) (h10 : M10.IsWhole)
    (A : Bf (F := F) c (Memref.whole main_arg0)) (B : Bf (F := F) c (Memref.whole main_arg1))
    (Y : Bf (F := F) c (Memref.whole main_arg2)) (X : Bf (F := F) c (Memref.whole main_arg3))
    (Y' : Bf (F := F) c (Memref.whole main_arg4)) (X' : Bf (F := F) c (Memref.whole main_arg5))
    (hY : TabOK c (Memref.whole main_arg2) Y) (hX : TabOK c (Memref.whole main_arg3) X)
    (hY' : TabOK c (Memref.whole main_arg4) Y') (hX' : TabOK c (Memref.whole main_arg5) X')
    (W : Waits sig Unit) :
    iprop(pt c (Memref.whole main_arg2) Y ∗ pt c (Memref.whole main_arg3) X ∗ pt c (Memref.whole main_arg4) Y' ∗ pt c (Memref.whole main_arg5) X'
        ∗ pt c (Memref.whole main_arg0) A ∗ pt c (Memref.whole main_arg1) B
        ∗ (∃ f, pt c (Memref.whole cc0_scratch0) f) ∗ (∃ f, pt c (Memref.whole cc0_scratch1) f)
        ∗ Pipeline.ownSems0 (Ix := Unit) (Name := ℕ) (U := UU nD τ) (Lvl := ℕ) (Val := Elt F) (τ := τ) osem c
        ∗ owes (c : Thread nD τ) 0 W
        ∗ (∃ d, owns (c : Thread nD τ) M7 fullShare d) ∗ (∃ d, owns (c : Thread nD τ) M8 fullShare d)
        ∗ (∃ d, owns (c : Thread nD τ) M9 fullShare d) ∗ (∃ d, owns (c : Thread nD τ) M10 fullShare d))
      ⊢ wp frame (wpE (defs₀ (F := F)) 𝒱₀ (c : Thread nD τ) none) Set.univ
          (cc0__stats_kernel (F := F) i (Memref.whole main_arg2) (Memref.isWhole_whole _) (Memref.whole main_arg3) (Memref.isWhole_whole _)
            (Memref.whole main_arg4) (Memref.isWhole_whole _) (Memref.whole main_arg5) (Memref.isWhole_whole _)
            (Memref.whole main_arg0) (Memref.isWhole_whole _) (Memref.whole main_arg1) (Memref.isWhole_whole _)
            M7 h7 M8 h8 M9 h9 M10 h10
            (Memref.whole cc0_scratch0) (Memref.isWhole_whole _) (Memref.whole cc0_scratch1) (Memref.isWhole_whole _) cc0_scratch2 cc0_scratch3)
          fun _ =>
            iprop(pt c (Memref.whole main_arg2) Y ∗ pt c (Memref.whole main_arg3) X ∗ pt c (Memref.whole main_arg4) Y' ∗ pt c (Memref.whole main_arg5) X'
              ∗ pt c (Memref.whole main_arg0) A ∗ pt c (Memref.whole main_arg1) B
              ∗ (∃ f, pt c (Memref.whole cc0_scratch0) f) ∗ (∃ f, pt c (Memref.whole cc0_scratch1) f)
              ∗ Pipeline.ownSems0 (Ix := Unit) (Name := ℕ) (U := UU nD τ) (Lvl := ℕ) (Val := Elt F) (τ := τ) osem c
              ∗ (∃ W', owes (c : Thread nD τ) 0 W')
              ∗ owns (c : Thread nD τ) M7 fullShare (outBlk c A B Y X Y' X' hY hX hY' hX' i 0)
              ∗ owns (c : Thread nD τ) M8 fullShare (outBlk c A B Y X Y' X' hY hX hY' hX' i 1)
              ∗ owns (c : Thread nD τ) M9 fullShare (outBlk c A B Y X Y' X' hY hX hY' hX' i 2)
              ∗ owns (c : Thread nD τ) M10 fullShare (outBlk c A B Y X Y' X' hY hX hY' hX' i 3)) := by
  rw [sems_split]
  unfold owns
  iintro ⟨HY, HX, HY', HX', HA, HB, ⟨%fg, Hsg⟩, ⟨%ft, Hst⟩, ⟨Hsemg, Hsemt⟩, HO, ⟨%d7, %g7, %e7, H7⟩, ⟨%d8, %g8, %e8, H8⟩, ⟨%d9, %g9, %e9, H9⟩, ⟨%d10, %g10, %e10, H10⟩⟩
  sl_unfold [cc0__stats_kernel]
  sl_exec
  pass_tac 0 k0_t1_body k0_t2_body k0_t1_loop k0_t2_loop hgg0 hgt0
  pass_tac 1 k0_t3_body k0_t4_body k0_t3_loop k0_t4_loop hgg1 hgt1
  pass_tac 2 k0_t5_body k0_t6_body k0_t5_loop k0_t6_loop hgg2 hgt2
  pass_tac 3 k0_t7_body k0_t8_body k0_t7_loop k0_t8_loop hgg3 hgt3
  pass_tac 4 k0_t9_body k0_t10_body k0_t9_loop k0_t10_loop hgg4 hgt4
  pass_tac 5 k0_t11_body k0_t12_body k0_t11_loop k0_t12_loop hgg5 hgt5
  pass_tac 6 k0_t13_body k0_t14_body k0_t13_loop k0_t14_loop hgg6 hgt6
  pass_tac 7 k0_t15_body k0_t16_body k0_t15_loop k0_t16_loop hgg7 hgt7
  sl_step
  -- each pass's patch buffers, as the loads read them, are the row's patches
  have rg0 := (readAt_full c (Memref.whole cc0_scratch0) _ inb_S64x3x8x8_S64x3x8x8_0_0_0_0).trans hgg0
  have rt0 := (readAt_full c (Memref.whole cc0_scratch1) _ inb_S64x3x8x8_S64x3x8x8_0_0_0_0).trans hgt0
  have rg1 := (readAt_full c (Memref.whole cc0_scratch0) _ inb_S64x3x8x8_S64x3x8x8_0_0_0_0).trans hgg1
  have rt1 := (readAt_full c (Memref.whole cc0_scratch1) _ inb_S64x3x8x8_S64x3x8x8_0_0_0_0).trans hgt1
  have rg2 := (readAt_full c (Memref.whole cc0_scratch0) _ inb_S64x3x8x8_S64x3x8x8_0_0_0_0).trans hgg2
  have rt2 := (readAt_full c (Memref.whole cc0_scratch1) _ inb_S64x3x8x8_S64x3x8x8_0_0_0_0).trans hgt2
  have rg3 := (readAt_full c (Memref.whole cc0_scratch0) _ inb_S64x3x8x8_S64x3x8x8_0_0_0_0).trans hgg3
  have rt3 := (readAt_full c (Memref.whole cc0_scratch1) _ inb_S64x3x8x8_S64x3x8x8_0_0_0_0).trans hgt3
  have rg4 := (readAt_full c (Memref.whole cc0_scratch0) _ inb_S64x3x8x8_S64x3x8x8_0_0_0_0).trans hgg4
  have rt4 := (readAt_full c (Memref.whole cc0_scratch1) _ inb_S64x3x8x8_S64x3x8x8_0_0_0_0).trans hgt4
  have rg5 := (readAt_full c (Memref.whole cc0_scratch0) _ inb_S64x3x8x8_S64x3x8x8_0_0_0_0).trans hgg5
  have rt5 := (readAt_full c (Memref.whole cc0_scratch1) _ inb_S64x3x8x8_S64x3x8x8_0_0_0_0).trans hgt5
  have rg6 := (readAt_full c (Memref.whole cc0_scratch0) _ inb_S64x3x8x8_S64x3x8x8_0_0_0_0).trans hgg6
  have rt6 := (readAt_full c (Memref.whole cc0_scratch1) _ inb_S64x3x8x8_S64x3x8x8_0_0_0_0).trans hgt6
  have rg7 := (readAt_full c (Memref.whole cc0_scratch0) _ inb_S64x3x8x8_S64x3x8x8_0_0_0_0).trans hgg7
  have rt7 := (readAt_full c (Memref.whole cc0_scratch1) _ inb_S64x3x8x8_S64x3x8x8_0_0_0_0).trans hgt7
  isplitl [HY]; · iexact HY
  isplitl [HX]; · iexact HX
  isplitl [HY']; · iexact HY'
  isplitl [HX']; · iexact HX'
  isplitl [HA]; · iexact HA
  isplitl [HB]; · iexact HB
  isplitl [Hsg]; · iexists _; iexact Hsg
  isplitl [Hst]; · iexists _; iexact Hst
  isplitl [Hsemg Hsemt]
  · isplitl [Hsemg]; · iexact Hsemg
    iexact Hsemt
  isplitl [HO]; · iexists _; iexact HO
  isplitl [H7]
  · iexists _; isplitr; swap; (· iexact H7)
    ipureintro
    exact out_rows M7 g7 _ _ _ _ _ _ _ _ _ (fun x => (rowG_mean c A B Y X Y' X' hY hX hY' hX' i 0 _ rg0 x)) (fun x => (rowG_mean c A B Y X Y' X' hY hX hY' hX' i 1 _ rg1 x)) (fun x => (rowG_mean c A B Y X Y' X' hY hX hY' hX' i 2 _ rg2 x)) (fun x => (rowG_mean c A B Y X Y' X' hY hX hY' hX' i 3 _ rg3 x)) (fun x => (rowG_mean c A B Y X Y' X' hY hX hY' hX' i 4 _ rg4 x)) (fun x => (rowG_mean c A B Y X Y' X' hY hX hY' hX' i 5 _ rg5 x)) (fun x => (rowG_mean c A B Y X Y' X' hY hX hY' hX' i 6 _ rg6 x)) (fun x => (rowG_mean c A B Y X Y' X' hY hX hY' hX' i 7 _ rg7 x))
  isplitl [H8]
  · iexists _; isplitr; swap; (· iexact H8)
    ipureintro
    exact out_rows M8 g8 _ _ _ _ _ _ _ _ _ (fun x => (rowG_var c A B Y X Y' X' hY hX hY' hX' i 0 _ rg0 x)) (fun x => (rowG_var c A B Y X Y' X' hY hX hY' hX' i 1 _ rg1 x)) (fun x => (rowG_var c A B Y X Y' X' hY hX hY' hX' i 2 _ rg2 x)) (fun x => (rowG_var c A B Y X Y' X' hY hX hY' hX' i 3 _ rg3 x)) (fun x => (rowG_var c A B Y X Y' X' hY hX hY' hX' i 4 _ rg4 x)) (fun x => (rowG_var c A B Y X Y' X' hY hX hY' hX' i 5 _ rg5 x)) (fun x => (rowG_var c A B Y X Y' X' hY hX hY' hX' i 6 _ rg6 x)) (fun x => (rowG_var c A B Y X Y' X' hY hX hY' hX' i 7 _ rg7 x))
  isplitl [H9]
  · iexists _; isplitr; swap; (· iexact H9)
    ipureintro
    exact out_rows M9 g9 _ _ _ _ _ _ _ _ _ (fun x => (rowT_mean c A B Y X Y' X' hY hX hY' hX' i 0 _ rt0 x)) (fun x => (rowT_mean c A B Y X Y' X' hY hX hY' hX' i 1 _ rt1 x)) (fun x => (rowT_mean c A B Y X Y' X' hY hX hY' hX' i 2 _ rt2 x)) (fun x => (rowT_mean c A B Y X Y' X' hY hX hY' hX' i 3 _ rt3 x)) (fun x => (rowT_mean c A B Y X Y' X' hY hX hY' hX' i 4 _ rt4 x)) (fun x => (rowT_mean c A B Y X Y' X' hY hX hY' hX' i 5 _ rt5 x)) (fun x => (rowT_mean c A B Y X Y' X' hY hX hY' hX' i 6 _ rt6 x)) (fun x => (rowT_mean c A B Y X Y' X' hY hX hY' hX' i 7 _ rt7 x))
  · iexists _; isplitr; swap; (· iexact H10)
    ipureintro
    exact out_rows M10 g10 _ _ _ _ _ _ _ _ _ (fun x => (rowT_var c A B Y X Y' X' hY hX hY' hX' i 0 _ rt0 x)) (fun x => (rowT_var c A B Y X Y' X' hY hX hY' hX' i 1 _ rt1 x)) (fun x => (rowT_var c A B Y X Y' X' hY hX hY' hX' i 2 _ rt2 x)) (fun x => (rowT_var c A B Y X Y' X' hY hX hY' hX' i 3 _ rt3 x)) (fun x => (rowT_var c A B Y X Y' X' hY hX hY' hX' i 4 _ rt4 x)) (fun x => (rowT_var c A B Y X Y' X' hY hX hY' hX' i 5 _ rt5 x)) (fun x => (rowT_var c A B Y X Y' X' hY hX hY' hX' i 6 _ rt6 x)) (fun x => (rowT_var c A B Y X Y' X' hY hX hY' hX' i 7 _ rt7 x))

end Cert.Proof.K
end
-- ==== Proof.K.Dat.lean ====
import proofs.«403745_j3521873182816_1_alg».proof.Proof.K.Body
import Idealize.ShloMosaic.Lib.Pipeline.Regions

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-! ## The pipeline's proof data

The four origin tables are prefetched: the pipeline runs at their contents as launched, which it holds whole while it
runs and hands back unchanged. Every word of them is an origin a whole patch fits behind (`TabsOK`: the certificate's
index-range precondition). The four windows are outputs whose blocks tile their arrays: nothing is fetched, every
point's block is written back, and the block grid point `t` writes of result `w` is `outBlk … (grid0.coords t) w`.
The invariant is the same at every point: the tables and the two image arrays at their launch contents, the two patch
buffers at anything, the 128 cells of the kernel's own semaphore arrays at zero. -/

/-- Every origin word of the four tables, as launched, is at most 504. -/
def TabsOK : Prop := ∀ c : Dev nD,
  TabOK c (Memref.whole main_arg2) (m ((c : Thread nD τ).loc main_arg2))
  ∧ TabOK c (Memref.whole main_arg3) (m ((c : Thread nD τ).loc main_arg3))
  ∧ TabOK c (Memref.whole main_arg4) (m ((c : Thread nD τ).loc main_arg4))
  ∧ TabOK c (Memref.whole main_arg5) (m ((c : Thread nD τ).loc main_arg5))

/-- The tables' contents as launched (on the one device); the pipeline's side condition on them is trivial. -/
def adm : (p : Fin 1) → (pcfgs (F := F) p).Adm :=
  fun _ => ⟨fun k => m ((((0 : Dev nD)) : Thread nD τ).loc (pre0.ref k)), trivial⟩

/-- The invariant at every point. -/
def Φc (c : Dev nD) : sProp 𝕄 :=
  iprop(pt c (Memref.whole main_arg2) (m ((c : Thread nD τ).loc main_arg2))
    ∗ pt c (Memref.whole main_arg3) (m ((c : Thread nD τ).loc main_arg3))
    ∗ pt c (Memref.whole main_arg4) (m ((c : Thread nD τ).loc main_arg4))
    ∗ pt c (Memref.whole main_arg5) (m ((c : Thread nD τ).loc main_arg5))
    ∗ pt c (Memref.whole main_arg0) (m ((c : Thread nD τ).loc main_arg0))
    ∗ pt c (Memref.whole main_arg1) (m ((c : Thread nD τ).loc main_arg1))
    ∗ Pipeline.scopedRest (Ix := Unit) (Name := ℕ) (U := UU nD τ) (Lvl := ℕ) (Val := Elt F) spec0 c
    ∗ Pipeline.ownSems0 (Ix := Unit) (Name := ℕ) (U := UU nD τ) (Lvl := ℕ) (Val := Elt F) (τ := τ) osem c)

/-- The block of result `w` that grid point `t` writes, from the launch memory. -/
abbrev blkAt (hT : TabsOK m) (c : Dev nD) (i : grid0.Coords) (w : Fin 4) : S8x64.Idx → Elt F .f32 :=
  outBlk c (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (hT c).1 (hT c).2.1 (hT c).2.2.1 (hT c).2.2.2 i w

/-- The proof data on core `c`: each result array at its launch contents; after the body at point `t` window `w`'s
    staging buffer holds the block the kernel writes there; the invariant; nothing owed; the full share. -/
def dats (ρ : Dev nD → PrngReg) (hT : TabsOK m) : (p : Fin 1) → (c : Dev nD) → Dat τ (Elt F) Unit ℕ (UU nD τ) ℕ (Pipeline.pin (pcfgs (F := F)) (adm m) p) c :=
  fun _ c =>
  { A := fun w => m ((c : Thread nD τ).loc (Pipeline.arrRef spec0 w))
    after := fun w t => match w with
      | ⟨0, _⟩ => blkAt m hT c (grid0.coords t) 0
      | ⟨1, _⟩ => blkAt m hT c (grid0.coords t) 1
      | ⟨2, _⟩ => blkAt m hT c (grid0.coords t) 2
      | ⟨3, _⟩ => blkAt m hT c (grid0.coords t) 3
      | ⟨_ + 4, h⟩ => absurd h (Nat.not_lt.2 (Nat.le_add_left _ _))
    Φ := fun _ => Φc m c
    q := fun _ => fullShare
    owed := fun _ => 0 }

section Body

variable (ρ : Dev nD → PrngReg) (hT : TabsOK m) (c : Dev nD) (t : Fin (Pipeline.pin (pcfgs (F := F)) (adm m) 0).N)

/-- The staging buffer window `w` is in at point `t`. -/
abbrev stg0 : Memref sig .tc .vmem S8x64 .f32 := ((Pipeline.pin (pcfgs (F := F)) (adm m) 0).win 0).stage ((Pipeline.pin (pcfgs (F := F)) (adm m) 0).slots t 0)
abbrev stg1 : Memref sig .tc .vmem S8x64 .f32 := ((Pipeline.pin (pcfgs (F := F)) (adm m) 0).win 1).stage ((Pipeline.pin (pcfgs (F := F)) (adm m) 0).slots t 1)
abbrev stg2 : Memref sig .tc .vmem S8x64 .f32 := ((Pipeline.pin (pcfgs (F := F)) (adm m) 0).win 2).stage ((Pipeline.pin (pcfgs (F := F)) (adm m) 0).slots t 2)
abbrev stg3 : Memref sig .tc .vmem S8x64 .f32 := ((Pipeline.pin (pcfgs (F := F)) (adm m) 0).win 3).stage ((Pipeline.pin (pcfgs (F := F)) (adm m) 0).slots t 3)

/-- The kernel's run at point `t`, in the obligation's terms. -/
theorem sound_body :
    iprop(Φc m c ∗ (dats m ρ hT 0 c).owesAt () t.castSucc
        ∗ (∃ d, owns (c : Thread nD τ) (stg0 m t) fullShare ((dats m ρ hT 0 c).before 0 t d))
        ∗ (∃ d, owns (c : Thread nD τ) (stg1 m t) fullShare ((dats m ρ hT 0 c).before 1 t d))
        ∗ (∃ d, owns (c : Thread nD τ) (stg2 m t) fullShare ((dats m ρ hT 0 c).before 2 t d))
        ∗ (∃ d, owns (c : Thread nD τ) (stg3 m t) fullShare ((dats m ρ hT 0 c).before 3 t d)))
      ⊢ wp frame (wpE (defs₀ (F := F)) 𝒱₀ (c : Thread nD τ) none) Set.univ
          (cc0__stats_kernel (F := F) (grid0.coords t) (Memref.whole main_arg2) (Memref.isWhole_whole _) (Memref.whole main_arg3) (Memref.isWhole_whole _)
            (Memref.whole main_arg4) (Memref.isWhole_whole _) (Memref.whole main_arg5) (Memref.isWhole_whole _)
            (Memref.whole main_arg0) (Memref.isWhole_whole _) (Memref.whole main_arg1) (Memref.isWhole_whole _)
            (stg0 m t) (stage_whole0 0 _) (stg1 m t) (stage_whole0 1 _) (stg2 m t) (stage_whole0 2 _) (stg3 m t) (stage_whole0 3 _)
            (Memref.whole cc0_scratch0) (Memref.isWhole_whole _) (Memref.whole cc0_scratch1) (Memref.isWhole_whole _) cc0_scratch2 cc0_scratch3)
          fun _ => iprop(Φc m c ∗ (dats m ρ hT 0 c).owesAt () t.succ
            ∗ owns (c : Thread nD τ) (stg0 m t) fullShare ((dats m ρ hT 0 c).after 0 t)
            ∗ owns (c : Thread nD τ) (stg1 m t) fullShare ((dats m ρ hT 0 c).after 1 t)
            ∗ owns (c : Thread nD τ) (stg2 m t) fullShare ((dats m ρ hT 0 c).after 2 t)
            ∗ owns (c : Thread nD τ) (stg3 m t) fullShare ((dats m ρ hT 0 c).after 3 t)) := by
  rw [show (dats m ρ hT 0 c).after 0 t = blkAt m hT c (grid0.coords t) 0 from rfl,
    show (dats m ρ hT 0 c).after 1 t = blkAt m hT c (grid0.coords t) 1 from rfl,
    show (dats m ρ hT 0 c).after 2 t = blkAt m hT c (grid0.coords t) 2 from rfl,
    show (dats m ρ hT 0 c).after 3 t = blkAt m hT c (grid0.coords t) 3 from rfl]
  unfold Φc Dat.owesAt Pipeline.owesWithin; rw [scopedRest0_eq]
  rw [show (dats m ρ hT 0 c).owed t.castSucc = 0 from rfl, show (dats m ρ hT 0 c).owed t.succ = 0 from rfl]
  iintro ⟨⟨Hy, Hx, Hy', Hx', Ha, Hb, ⟨Hs0, Hs1⟩, Hos⟩, ⟨%W, %hW, HO⟩, ⟨%d0, H0⟩, ⟨%d1, H1⟩, ⟨%d2, H2⟩, ⟨%d3, H3⟩⟩
  iapply (wp_wand_r Idealize.ShloMosaic.frame (wpE (defs₀ (F := F)) 𝒱₀ (c : Thread nD τ) none) Set.univ)
  isplitl [Hy Hx Hy' Hx' Ha Hb Hs0 Hs1 Hos HO H0 H1 H2 H3]
  · iapply (kernelRun c (grid0.coords t) (stg0 m t) (stg1 m t) (stg2 m t) (stg3 m t) (stage_whole0 0 _) (stage_whole0 1 _) (stage_whole0 2 _) (stage_whole0 3 _)
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (hT c).1 (hT c).2.1 (hT c).2.2.1 (hT c).2.2.2 W)
    isplitl [Hy]; · iexact Hy
    isplitl [Hx]; · iexact Hx
    isplitl [Hy']; · iexact Hy'
    isplitl [Hx']; · iexact Hx'
    isplitl [Ha]; · iexact Ha
    isplitl [Hb]; · iexact Hb
    isplitl [Hs0]; · iexact Hs0
    isplitl [Hs1]; · iexact Hs1
    isplitl [Hos]; · iexact Hos
    isplitl [HO]; · iexact HO
    isplitl [H0]; · iexists _; iexact H0
    isplitl [H1]; · iexists _; iexact H1
    isplitl [H2]; · iexists _; iexact H2
    iexists _; iexact H3
  · iintro %_ ⟨Hy, Hx, Hy', Hx', Ha, Hb, Hs0, Hs1, Hos, ⟨%W', HO⟩, H0, H1, H2, H3⟩
    isplitl [Hy Hx Hy' Hx' Ha Hb Hs0 Hs1 Hos]
    · isplitl [Hy]; · iexact Hy
      isplitl [Hx]; · iexact Hx
      isplitl [Hy']; · iexact Hy'
      isplitl [Hx']; · iexact Hx'
      isplitl [Ha]; · iexact Ha
      isplitl [Hb]; · iexact Hb
      isplitl [Hs0 Hs1]
      · isplitl [Hs0]; · iexact Hs0
        iexact Hs1
      iexact Hos
    isplitl [HO]
    · iexists W'; isplitr; · ipureintro; exact fun _ _ => Or.inl trivial
      iexact HO
    isplitl [H0]; · iexact H0
    isplitl [H1]; · iexact H1
    isplitl [H2]; · iexact H2
    iexact H3

/-- The library's body obligation at every point: the kernel's run. -/
theorem body_obligation : BodyObligation (dats m ρ hT 0 c) (defs₀ (F := F)) 𝒱₀ () Set.univ := fun t => by
  rw [bigSep_W0, bigSep_W0]
  exact sound_body m ρ hT c t

end Body

end Cert.Proof.K
end
-- ==== Proof.K.Launch.lean ====
import proofs.«403745_j3521873182816_1_alg».proof.Proof.K.Dat
import Idealize.ShloMosaic.Lib.Pipeline.Regions
import Idealize.ShloMosaic.Lib.Pipeline.FrameSuffix

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ)

/-! ## What the host computes from the four results

The mean over all 32 × 64 patches of the squared difference of the two images' patch means, plus the same of their
patch variances: each a subtraction, a square, a sum over both axes from zero and a division by 2048. -/

/-- The scalar the 13 host operations leave, as one function of the four result arrays (generated image's means and
    variances, target's means and variances). -/
def lossK (mg vg mt vt : FVec F S32x64 .f32) : FVec F S_ .f32 :=
  addf
    (Host.divf (Host.reduceAdd (mulf (subf mg mt) (subf mg mt)) (constant S_ .f32 0x00000000#32) Facts₀.reducesTo_S32x64_S_d0_1 Facts₀.h_S_)
      (constant S_ .f32 0x45000000#32))
    (Host.divf (Host.reduceAdd (mulf (subf vg vt) (subf vg vt)) (constant S_ .f32 0x00000000#32) Facts₀.reducesTo_S32x64_S_d0_1 Facts₀.h_S_)
      (constant S_ .f32 0x45000000#32))

/-- Whatever the buffers hold before them, the host operations leave that function of the four result arrays in the
    scalar result, -/
theorem after_v9 (V : Valuation τ sig (Elt F)) :
    StableHlo.after (hostOps1 (F := F)) V (Proc.devRef .tc main_v9)
      = lossK (V (Proc.devRef .tc main_v0_0)) (V (Proc.devRef .tc main_v0_1)) (V (Proc.devRef .tc main_v0_2)) (V (Proc.devRef .tc main_v0_3)) := by
  after_results; rfl

/-- and write none of the six arguments. -/
theorem after_arg0 (V : Valuation τ sig (Elt F)) : StableHlo.after (hostOps1 (F := F)) V (Proc.devRef .tc main_arg0) = V (Proc.devRef .tc main_arg0) := by after_results
theorem after_arg1 (V : Valuation τ sig (Elt F)) : StableHlo.after (hostOps1 (F := F)) V (Proc.devRef .tc main_arg1) = V (Proc.devRef .tc main_arg1) := by after_results
theorem after_arg2 (V : Valuation τ sig (Elt F)) : StableHlo.after (hostOps1 (F := F)) V (Proc.devRef .tc main_arg2) = V (Proc.devRef .tc main_arg2) := by after_results
theorem after_arg3 (V : Valuation τ sig (Elt F)) : StableHlo.after (hostOps1 (F := F)) V (Proc.devRef .tc main_arg3) = V (Proc.devRef .tc main_arg3) := by after_results
theorem after_arg4 (V : Valuation τ sig (Elt F)) : StableHlo.after (hostOps1 (F := F)) V (Proc.devRef .tc main_arg4) = V (Proc.devRef .tc main_arg4) := by after_results
theorem after_arg5 (V : Valuation τ sig (Elt F)) : StableHlo.after (hostOps1 (F := F)) V (Proc.devRef .tc main_arg5) = V (Proc.devRef .tc main_arg5) := by after_results

/-! ## The thread states

Before the region core `c` holds its unscoped buffers at the launch memory and owes nothing. The region takes the four
result arrays into the pipeline, the four tables as prefetched, the two image arrays and the kernel's semaphores into
the invariant; the other unscoped buffers bypass it. After the region the unscoped buffers are held at the launch
memory but for the four result arrays, which are at the pipeline's final contents; the host operations run from
there. -/

/-- No core owes another anything: no level is assigned. -/
abbrev L : GSem nD τ sig → Finset Unit := fun _ => ∅
abbrev lv : GSem nD τ sig → Unit → ℕ := fun _ _ => 0

/-- Core `c`'s buffers at launch, as a valuation. -/
abbrev V₀ (c : Dev nD) : Valuation τ sig (Elt F) := fun b => m ((c : Dev nD), b)

/-- A result array's contents after the region, as the pipeline library computes them. -/
def finalA (ρ : Dev nD → PrngReg) (hT : TabsOK m) (c : Dev nD) (w : Fin 4) : Buf (Elt F) ((spec0 w).arr.view.loc (c : Thread nD τ)) :=
  (dats m ρ hT 0 c).arrAt w (Pipeline.pin (pcfgs (F := F)) (adm m) 0).N

/-- Core `c`'s buffers after the region: the result arrays at their final contents, everything else as launched. -/
abbrev V₁ (ρ : Dev nD → PrngReg) (hT : TabsOK m) (c : Dev nD) : Valuation τ sig (Elt F) :=
  Pipeline.withArrays spec0 c (V₀ m c) (finalA m ρ hT c)

/-- The core owing nothing. -/
abbrev R₀ (c : Dev nD) : sProp 𝕄 := iprop(∃ W, owes (c : Thread nD τ) (0 : CellTallies nD τ sig Unit) W)

/-- The unscoped buffers that are no result array, no table and no image array, at contents `V`: they bypass the region. -/
abbrev Zc (c : Dev nD) (V : (b : Ref sig .tc) → Buf (Elt F) ((c : Thread nD τ).loc b)) : sProp 𝕄 :=
  iprop((((c : Thread nD τ).loc main_v1) ↦{fullShare} V main_v1)
    ∗ (((c : Thread nD τ).loc main_v2) ↦{fullShare} V main_v2)
    ∗ (((c : Thread nD τ).loc main_cst) ↦{fullShare} V main_cst)
    ∗ (((c : Thread nD τ).loc main_v3) ↦{fullShare} V main_v3)
    ∗ (((c : Thread nD τ).loc main_cst_0) ↦{fullShare} V main_cst_0)
    ∗ (((c : Thread nD τ).loc main_v4) ↦{fullShare} V main_v4)
    ∗ (((c : Thread nD τ).loc main_v5) ↦{fullShare} V main_v5)
    ∗ (((c : Thread nD τ).loc main_v6) ↦{fullShare} V main_v6)
    ∗ (((c : Thread nD τ).loc main_cst_1) ↦{fullShare} V main_cst_1)
    ∗ (((c : Thread nD τ).loc main_v7) ↦{fullShare} V main_v7)
    ∗ (((c : Thread nD τ).loc main_cst_2) ↦{fullShare} V main_cst_2)
    ∗ (((c : Thread nD τ).loc main_v8) ↦{fullShare} V main_v8)
    ∗ (((c : Thread nD τ).loc main_v9) ↦{fullShare} V main_v9))

/-- The four tables held whole at the contents the pipeline runs at are the four tables at the launch memory. -/
theorem tables_eq (c : Dev nD) :
    (Pipeline.prefHeld pre0 c (fun _ => fullShare) (adm m 0).1 : sProp 𝕄)
      = iprop(pt c (Memref.whole main_arg2) (m ((c : Thread nD τ).loc main_arg2))
          ∗ pt c (Memref.whole main_arg3) (m ((c : Thread nD τ).loc main_arg3))
          ∗ pt c (Memref.whole main_arg4) (m ((c : Thread nD τ).loc main_arg4))
          ∗ pt c (Memref.whole main_arg5) (m ((c : Thread nD τ).loc main_arg5))) := by
  obtain rfl : c = 0 := Subsingleton.elim _ _
  unfold Pipeline.prefHeld
  exact bigSep_W0 _

/-- The launch's unscoped buffers at a valuation, taken apart: the result arrays, the tables, the image arrays, the rest. -/
theorem unscoped_split (ρ : Dev nD → PrngReg) (hT : TabsOK m) (c : Dev nD) (W : Valuation τ sig (Elt F)) :
    (StableHlo.held (c : Thread nD τ) (Pipeline.ucRefs τ sig) W : sProp 𝕄)
      = iprop((dats m ρ hT 0 c).arrays (fun w => W (Proc.devRef .tc (Pipeline.arrRef spec0 w)))
          ∗ Pipeline.prefHeld pre0 c (fun _ => fullShare) (fun k => W (Proc.devRef .tc (pre0.ref k)))
          ∗ (((c : Thread nD τ).loc main_arg0) ↦{fullShare} W (Proc.devRef .tc main_arg0))
          ∗ (((c : Thread nD τ).loc main_arg1) ↦{fullShare} W (Proc.devRef .tc main_arg1))
          ∗ Zc c (fun b => W (Proc.devRef .tc b))) := by
  rw [← Pipeline.unscopedBufs_held (Ix := Unit) (Name := ℕ) (U := UU nD τ) (Lvl := ℕ) c W,
    Pipeline.unscopedBufs_split (Pipeline.pin (pcfgs (F := F)) (adm m)) 0 (launch0 (F := F)).win.arr_unscoped (launch0 (F := F)).win.arr_inj c _,
    Pipeline.unscopedRest_split (launch0 (F := F)).pre c _, unscopedRestP0_eq,
    Pipeline.arrays_eq (Pipeline.pin (pcfgs (F := F)) (adm m)) (dats m ρ hT) 0 c (launch0 (F := F)).arr_whole ((dats m ρ hT 0 c).share_full fun _ => rfl)]

/-- The region's exit state: the unscoped buffers at `V₁` are the result arrays at their final contents and everything
    else as launched. -/
theorem held_V₁ (ρ : Dev nD → PrngReg) (hT : TabsOK m) (c : Dev nD) :
    (StableHlo.held (c : Thread nD τ) (Pipeline.ucRefs τ sig) (V₁ m ρ hT c) : sProp 𝕄)
      = iprop((dats m ρ hT 0 c).arrays (finalA m ρ hT c)
          ∗ Pipeline.prefHeld pre0 c (fun _ => fullShare) (adm m 0).1
          ∗ (((c : Thread nD τ).loc main_arg0) ↦{fullShare} m ((c : Thread nD τ).loc main_arg0))
          ∗ (((c : Thread nD τ).loc main_arg1) ↦{fullShare} m ((c : Thread nD τ).loc main_arg1))
          ∗ Zc c (fun b => V₀ m c (Proc.devRef .tc b))) := by
  have hne : ∀ (b : Ref sig .tc), (∀ w, Pipeline.arrRef spec0 w ≠ b) → V₁ m ρ hT c (Proc.devRef .tc b) = V₀ m c (Proc.devRef .tc b) :=
    fun b hb => Pipeline.withArrays_of_ne spec0 c (V₀ m c) (finalA m ρ hT c) b hb
  rw [unscoped_split m ρ hT c]
  rw [show (fun w => V₁ m ρ hT c (Proc.devRef .tc (Pipeline.arrRef spec0 w))) = finalA m ρ hT c from
      funext fun w => Pipeline.withArrays_arr spec0 (launch0 (F := F)).win.arr_inj c (V₀ m c) (finalA m ρ hT c) w,
    show (fun k => V₁ m ρ hT c (Proc.devRef .tc (pre0.ref k))) = (adm m 0).1 from funext fun k => by
      rw [hne (pre0.ref k) fun w e => (launch0 (F := F)).pre.disj k w e.symm]
      obtain rfl : c = 0 := Subsingleton.elim _ _
      rfl]
  dsimp only [Zc]
  rw [hne main_arg0 (by decide), hne main_arg1 (by decide),
    hne main_v1 (by decide), hne main_v2 (by decide), hne main_cst (by decide), hne main_v3 (by decide), hne main_cst_0 (by decide),
    hne main_v4 (by decide), hne main_v5 (by decide), hne main_v6 (by decide), hne main_cst_1 (by decide), hne main_v7 (by decide),
    hne main_cst_2 (by decide), hne main_v8 (by decide), hne main_v9 (by decide)]

/-! ## The segments -/

/-- The layout the launch needs of the kernel's own semaphores: scoped, distinct, and no staging semaphore. -/
theorem ownSemFacts : Pipeline.OwnSemFacts spec0 osem := by decide +kernel

/-- The launch element: the pipeline library's at the staging cells; no counter yet. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

set_option backward.isDefEq.respectTransparency.types false in
/-- THE REGION: entered from the launch state — the result arrays into the pipeline, the tables as prefetched, the image
    arrays and the kernel's semaphores into the invariant, the rest bypassing —, left with the unscoped buffers at `V₁`. -/
def reg0 (ρ : Dev nD → PrngReg) (hT : TabsOK m) : Pipeline.RegionSeg (pcfgs (F := F)) (adm m) (dats m ρ hT) () defs₀ 𝒱₀ L lv 0 where
  win := (launch0 (F := F)).win.to₀
  block_pos := (launch0 (F := F)).block_pos
  stage_whole := (launch0 (F := F)).stage_whole
  K := Fin 2 × Fin 64
  osem := osem
  ho := ownSemFacts
  hbody c := (body_obligation m ρ hT c).loose
  hwaits := Pipeline.hwaits_of_owed_zero _ _ _ _ L lv 0 fun _ _ => rfl
  pre c := iprop(StableHlo.held (c : Thread nD τ) (Pipeline.ucRefs τ sig) (V₀ m c) ∗ R₀ c)
  post c := iprop(StableHlo.held (c : Thread nD τ) (Pipeline.ucRefs τ sig) (V₁ m ρ hT c) ∗ R₀ c)
  X c := iprop(pt c (Memref.whole main_arg0) (m ((c : Thread nD τ).loc main_arg0)) ∗ pt c (Memref.whole main_arg1) (m ((c : Thread nD τ).loc main_arg1))
    ∗ Pipeline.ownSems0 (Ix := Unit) (Name := ℕ) (U := UU nD τ) (Lvl := ℕ) (Val := Elt F) (τ := τ) osem c)
  Y c := iprop(Pipeline.prefHeld pre0 c (fun _ => fullShare) (adm m 0).1
    ∗ pt c (Memref.whole main_arg0) (m ((c : Thread nD τ).loc main_arg0)) ∗ pt c (Memref.whole main_arg1) (m ((c : Thread nD τ).loc main_arg1)))
  Z c := Zc c (fun b => V₀ m c (Proc.devRef .tc b))
  hentry c := by
    rw [unscoped_split m ρ hT c]
    iintro ⟨⟨⟨Ha, Htb, H0, H1, Hz⟩, HO⟩, Hos, -⟩
    imodintro
    isplitl [Ha]; · iexact Ha
    isplitl [Htb]
    · obtain rfl : c = 0 := Subsingleton.elim _ _
      iexact Htb
    isplitl [HO]
    · unfold Pipeline.Dat.owesAt Pipeline.owesWithin
      icases HO with ⟨%W, HO⟩; iexists W; isplitr; · ipureintro; exact fun _ _ => Or.inl trivial
      iexact HO
    isplitl [H0 H1 Hos]
    · isplitl [H0]; · iexact H0
      isplitl [H1]; · iexact H1
      iexact Hos
    iexact Hz
  hin c := by
    rw [show (dats m ρ hT 0 c).Φ 0 = Φc m c from rfl, tables_eq]; unfold Φc
    iintro ⟨⟨H0, H1, Hos⟩, ⟨Hy, Hx, Hy', Hx'⟩, Hr⟩
    isplitl [Hy]; · iexact Hy
    isplitl [Hx]; · iexact Hx
    isplitl [Hy']; · iexact Hy'
    isplitl [Hx']; · iexact Hx'
    isplitl [H0]; · iexact H0
    isplitl [H1]; · iexact H1
    isplitl [Hr]; · iexact Hr
    iexact Hos
  hout c := by
    rw [show (dats m ρ hT 0 c).Φ (Fin.last (Pipeline.pin (pcfgs (F := F)) (adm m) 0).N) = Φc m c from rfl, tables_eq]; unfold Φc
    iintro ⟨Hy, Hx, Hy', Hx', H0, H1, Hr, Hos⟩
    isplitl [Hy Hx Hy' Hx' H0 H1]
    · isplitl [Hy Hx Hy' Hx']
      · isplitl [Hy]; · iexact Hy
        isplitl [Hx]; · iexact Hx
        isplitl [Hy']; · iexact Hy'
        iexact Hx'
      isplitl [H0]; · iexact H0
      iexact H1
    isplitl [Hos]; · iexact Hos
    iexact Hr
  hexit c := by
    rw [held_V₁ m ρ hT c]
    iintro ⟨Ha, HO, ⟨Htb, H0, H1⟩, Hz⟩
    imodintro
    isplitr [HO]
    · isplitl [Ha]; · iexact Ha
      isplitl [Htb]; · iexact Htb
      isplitl [H0]; · iexact H0
      isplitl [H1]; · iexact H1
      iexact Hz
    · unfold Pipeline.Dat.owesAt Pipeline.owesWithin
      icases HO with ⟨%W, -, HO⟩; iexists W; iexact HO

/-- No host operation allocates. -/
theorem hostOps1_fresh : ∀ op ∈ (hostOps1 (F := F)), op.fresh = ∅ := by
  intro op hop
  simp only [List.mem_cons, List.mem_nil_iff, or_false] at hop
  rcases hop with rfl | rfl | rfl | rfl | rfl | rfl | rfl | rfl | rfl | rfl | rfl | rfl | rfl <;> rfl

/-- THE HOST SEGMENT: the 13 operations over the unscoped buffers, from the region's exit state. -/
def seg1 (ρ : Dev nD → PrngReg) (hT : TabsOK m) : Pipeline.HostSeg (Name := ℕ) (U := UU nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    hostOps1_fresh (V₁ m ρ hT) R₀

/-- @main as the list of the two. -/
abbrev segs (ρ : Dev nD → PrngReg) (hT : TabsOK m) : List (Pipeline.Seg (pcfgs (F := F)) (adm m) (dats m ρ hT) () defs₀ 𝒱₀ L lv) :=
  [.region (reg0 m ρ hT), .host (seg1 m ρ hT)]

/-- An unscoped reference is among the buffers the host operations run within. -/
theorem mem_ucRefs (b : Ref sig .tc) (hb : b.isScoped = false) : Proc.devRef (τ := τ) .tc b ∈ Pipeline.ucRefs τ sig :=
  Finset.mem_filter.mpr ⟨StableHlo.devRef_mem_tcRefs b, fun h => Bool.false_ne_true (hb.symm.trans h)⟩

set_option backward.isDefEq.respectTransparency.types false in
/-- At the compiled mesh, for any float values, from any memory with zero counters whose tables' words are origins a
    whole patch fits behind: every weakly fair execution of @main on the TensorCores terminates, and every final state
    has the scalar result at the host's function of the four result arrays as the pipeline leaves them, and the six
    arguments unchanged. -/
theorem run_main (ρ : Dev nD → PrngReg) (hT : TabsOK m) :
    θ_run (defs (F := F)) (onTc (τ := τ) (main (F := F))) ⟨m, fun _ => 0, ρ⟩ (fun r => ∀ c : Dev nD,
      r.2.mem ((c : Thread nD τ).loc main_v9) = lossK (finalA m ρ hT c 0) (finalA m ρ hT c 1) (finalA m ρ hT c 2) (finalA m ρ hT c 3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  Pipeline.θ_run_regions_kit (pcfgs (F := F)) (adm m) (dats m ρ hT) () (cellOf_inj (adm m)) EP defs₀ 𝒱₀ L lv m ρ main (segs m ρ hT)
    (fun c Q => by rw [main_segs (adm m) (dats m ρ hT) () 𝒱₀ L lv (seg1 m ρ hT) (reg0 m ρ hT) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R₀ c))
    (Tₙ := fun c => StableHlo.held (c : Thread nD τ) (Pipeline.ucRefs τ sig) (StableHlo.after hostOps1 (V₁ m ρ hT c)))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from
        Pipeline.unscopedBufs_held c (V₀ m c)]
      iintro ⟨⟨Hh, -, HO, -, -, -⟩, -⟩
      imodintro
      isplitl [Hh]; · iexact Hh
      iexists ∅; iexact HO)
    (QY := fun c s =>
      s.mem ((c : Thread nD τ).loc main_v9) = lossK (finalA m ρ hT c 0) (finalA m ρ hT c 1) (finalA m ρ hT c 2) (finalA m ρ hT c 3)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5))
    (hfin := fun c s' => by
      have hne : ∀ (b : Ref sig .tc), (∀ w, Pipeline.arrRef spec0 w ≠ b) → V₁ m ρ hT c (Proc.devRef .tc b) = m ((c : Thread nD τ).loc b) :=
        fun b hb => Pipeline.withArrays_of_ne spec0 c (V₀ m c) (finalA m ρ hT c) b hb
      have harr : ∀ w, V₁ m ρ hT c (Proc.devRef .tc (Pipeline.arrRef spec0 w)) = finalA m ρ hT c w :=
        fun w => Pipeline.withArrays_arr spec0 (launch0 (F := F)).win.arr_inj c (V₀ m c) (finalA m ρ hT c) w
      unfold StableHlo.held
      iintro ⟨Hh, HSI⟩
      ihave Hr := (pointsTo_read_all (Pipeline.ucRefs τ sig) (fun b => ((c : Thread nD τ).1, b)) (StableHlo.after hostOps1 (V₁ m ρ hT c)) s') $$ [Hh HSI]
      · isplitl [Hh] <;> iassumption
      icases Hr with ⟨%hr, HSI⟩
      imodintro
      isplitr
      · ipureintro
        refine ⟨(hr _ (mem_ucRefs main_v9 (by decide))).trans ?_, (hr _ (mem_ucRefs main_arg0 (by decide))).trans ?_,
          (hr _ (mem_ucRefs main_arg1 (by decide))).trans ?_, (hr _ (mem_ucRefs main_arg2 (by decide))).trans ?_,
          (hr _ (mem_ucRefs main_arg3 (by decide))).trans ?_, (hr _ (mem_ucRefs main_arg4 (by decide))).trans ?_,
          (hr _ (mem_ucRefs main_arg5 (by decide))).trans ?_⟩
        · rw [after_v9]; exact congr (congr (congr (congrArg lossK (harr 0)) (harr 1)) (harr 2)) (harr 3)
        · rw [after_arg0]; exact hne main_arg0 (by decide)
        · rw [after_arg1]; exact hne main_arg1 (by decide)
        · rw [after_arg2]; exact hne main_arg2 (by decide)
        · rw [after_arg3]; exact hne main_arg3 (by decide)
        · rw [after_arg4]; exact hne main_arg4 (by decide)
        · rw [after_arg5]; exact hne main_arg5 (by decide)
      iexact HSI)
    (hQ := fun _ h => h)

end Cert.Proof.K
end
-- ==== Proof.Tex.PreDecode.lean ====
import proofs.«403745_j3521873182816_1_alg».proof.Pre_finite_inputs
import proofs.«403745_j3521873182816_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

namespace Cert.Proof.Tex

open Idealize.ShloMosaic Cert.Pre_finite_inputs

/-- the rank-0 shape has exactly one index -/
instance : Subsingleton S_.Idx := ⟨fun a b => funext fun d => d.elim0⟩

/-- a 32-bit word that is at least 0 and at most 504 as a signed number is at most 504 as a natural -/
theorem word_le_504 (w : BitVec 32) (h0 : IntOp.cmpi .sge w 0#32 = 1#1) (h1 : IntOp.cmpi .sle w 504#32 = 1#1) :
    w.toNat ≤ 504 := by
  rw [IntOp.cmpi_sge] at h0
  rw [IntOp.cmpi_sle] at h1
  have e0 : (0#32 : BitVec 32).toInt = 0 := by decide
  have e1 : (504#32 : BitVec 32).toInt = 504 := by decide
  rw [e0] at h0
  rw [e1] at h1
  have hw := BitVec.toInt_eq_toNat_cond w
  split at hw <;> omega

theorem origins_le_504 {F : FTy → Type} [FloatOps F] (a0 a1 : FVec F S32x3x512x512 .f32) (a2 a3 a4 a5 : IVec S32x64 32)
    (h : Cert.Pre_finite_inputs.fn (F := F) a0 a1 a2 a3 a4 a5 = fun _ => 1#1) :
    (∀ j, (a2 j).toNat ≤ 504) ∧ (∀ j, (a3 j).toNat ≤ 504) ∧ (∀ j, (a4 j).toNat ≤ 504) ∧ (∀ j, (a5 j).toNat ≤ 504) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨⟨-, -⟩, g2⟩, l2⟩, g3⟩, l3⟩, g4⟩, l4⟩, g5⟩, l5⟩ := h0
  refine ⟨fun j => ?_, fun j => ?_, fun j => ?_, fun j => ?_⟩
  · exact word_le_504 (a2 j) (Host.reduce_andi_all _ _ _ _ _ g2 j) (Host.reduce_andi_all _ _ _ _ _ l2 j)
  · exact word_le_504 (a3 j) (Host.reduce_andi_all _ _ _ _ _ g3 j) (Host.reduce_andi_all _ _ _ _ _ l3 j)
  · exact word_le_504 (a4 j) (Host.reduce_andi_all _ _ _ _ _ g4 j) (Host.reduce_andi_all _ _ _ _ _ l4 j)
  · exact word_le_504 (a5 j) (Host.reduce_andi_all _ _ _ _ _ g5 j) (Host.reduce_andi_all _ _ _ _ _ l5 j)

/-- the f32 pattern with all-ones exponent and zero fraction denotes +infinity -/
theorem ofBits_inf : Ideal.ofBits .f32 0x7F800000#32 = (⊤ : EReal) := by
  simp [Ideal.ofBits, Ideal.ieee]

/-- an extended real whose absolute value max x (-x) is strictly below +infinity is a real number -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

theorem inputs_real (a0 a1 : FVec Ideal S32x3x512x512 .f32) (a2 a3 a4 a5 : IVec S32x64 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨⟨f0, f1⟩, -⟩, -⟩, -⟩, -⟩, -⟩, -⟩, -⟩, -⟩ := h0
  refine ⟨fun i => ?_, fun i => ?_⟩
  · exact real_of_abs_lt_inf (a0 i) (Host.reduce_andi_all _ _ _ _ _ f0 i)
  · exact real_of_abs_lt_inf (a1 i) (Host.reduce_andi_all _ _ _ _ _ f1 i)

end Cert.Proof.Tex
-- ==== Proof.K.PreOK.lean ====
import proofs.«403745_j3521873182816_1_alg».proof.Proof.K.Dat
import proofs.«403745_j3521873182816_1_alg».proof.Proof.Tex.PreDecode
import Idealize.ShloMosaic.Lib.ValueIdx

noncomputable section

namespace Cert.Proof.K

open Cert.Kernel Cert.Kernel.Gen
open Idealize.ShloMosaic Idealize.ShloMosaic.ValueIdx
open Idealize.ShloMosaic.TcCoe

variable {F : FTy → Type} [FloatOps F]

/-! ## The printed precondition gives the tables' index range

A whole table read at the unit rectangle `[R, j]` is its entry at `(R, j)`, at any float instance (the tables hold
integer words). The printed precondition bounds every entry of the four tables by 504 on every device, which is the
index-range condition the kernel's run takes. -/

theorem wordAtF_whole2 (c : Dev nD) (Yc : Bf (F := F) c (Memref.whole main_arg2)) (R : ℕ) (hR : R < 32) (j : Fin 64) :
    wordAt c (Memref.whole main_arg2) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega
theorem wordAtF_whole3 (c : Dev nD) (Yc : Bf (F := F) c (Memref.whole main_arg3)) (R : ℕ) (hR : R < 32) (j : Fin 64) :
    wordAt c (Memref.whole main_arg3) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega
theorem wordAtF_whole4 (c : Dev nD) (Yc : Bf (F := F) c (Memref.whole main_arg4)) (R : ℕ) (hR : R < 32) (j : Fin 64) :
    wordAt c (Memref.whole main_arg4) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega
theorem wordAtF_whole5 (c : Dev nD) (Yc : Bf (F := F) c (Memref.whole main_arg5)) (R : ℕ) (hR : R < 32) (j : Fin 64) :
    wordAt c (Memref.whole main_arg5) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega

/-- Under the printed precondition every origin word of the four tables, as launched, is at most 504. -/
theorem tabsOK_of_pre (m : (ℓ : Loc nD τ sig) → Buf (Elt F) ℓ)
    (h : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    TabsOK m := by
  intro c
  obtain ⟨h2, h3, h4, h5⟩ := Cert.Proof.Tex.origins_le_504 _ _ _ _ _ _ (h c)
  refine ⟨fun R hR j => ?_, fun R hR j => ?_, fun R hR j => ?_, fun R hR j => ?_⟩
  · rw [wordAtF_whole2]; exact h2 _
  · rw [wordAtF_whole3]; exact h3 _
  · rw [wordAtF_whole4]; exact h4 _
  · rw [wordAtF_whole5]; exact h5 _

end Cert.Proof.K
end
-- ==== Proof.KI.Names.lean ====
import proofs.«403745_j3521873182816_1_alg».proof.Proof.Gen.KernelIdeal.Loops
import proofs.«403745_j3521873182816_1_alg».proof.Proof.Gen.KernelIdeal.Launch
import Idealize.ShloMosaic.Lib.Tactic
import Idealize.ShloMosaic.Lib.Ring
import Idealize.ShloMosaic.Lib.Transfers
import Idealize.ShloMosaic.Lib.Pipeline.Rules
import Idealize.ShloMosaic.Lib.Pipeline.Kit

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

local notation "𝕄" => MT nD τ sig Unit (Elt F) ℕ (UU nD τ) ℕ

abbrev 𝒱₀ : Variants := Variants.none

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## Slots, cells, table words, source blocks

A patch buffer `[64, 3, 8, 8]` is 64 slots of `[3, 8, 8]`, slot `j` completing on cell `j` of its semaphore array. The
patch copied into slot `j` for image row `R` is the `[1, 3, 8, 8]` block of the image array at row `R`, channel 0 and the
row and column origins the two tables hold at `[R, j]`. -/

theorem inbSlot (j : Fin 64) : ∀ a, (![j.val, 0, 0, 0] : Fin 4 → Nat) a + S1x3x8x8.size a ≤ S64x3x8x8.size a := by
  have := j.isLt; intro a; fin_cases a
  · show j.val + 1 ≤ 64; omega
  · show 0 + 3 ≤ 3; omega
  · show 0 + 8 ≤ 8; omega
  · show 0 + 8 ≤ 8; omega
theorem inbCell (j : Fin 64) : ∀ a, (![j.val] : Fin 1 → Nat) a + S1.size a ≤ S64.size a := by
  have := j.isLt; intro a; fin_cases a; show j.val + 1 ≤ 64; omega
theorem inbTab (R : ℕ) (hR : R < 32) (j : Fin 64) : ∀ a, (![R, j.val] : Fin 2 → Nat) a + S1x1.size a ≤ S32x64.size a := by
  have := j.isLt; intro a; fin_cases a
  · show R + 1 ≤ 32; omega
  · show j.val + 1 ≤ 64; omega
theorem inbSrc (R : ℕ) (hR : R < 32) (y x : BitVec 32) (hy : y.toNat ≤ 504) (hx : x.toNat ≤ 504) :
    ∀ a, (![R, 0, y.toNat, x.toNat] : Fin 4 → Nat) a + S1x3x8x8.size a ≤ S32x3x512x512.size a := by
  intro a; fin_cases a
  · show R + 1 ≤ 32; omega
  · show 0 + 3 ≤ 3; omega
  · show y.toNat + 8 ≤ 512; omega
  · show x.toNat + 8 ≤ 512; omega

/-- Slot `j` of a patch buffer. -/
def slotOf (M : Memref sig .tc .vmem S64x3x8x8 .f32) (j : Fin 64) : Memref sig .tc .vmem S3x8x8 .f32 :=
  (M.slice (Rect.unit (s := S64x3x8x8) ![j.val, 0, 0, 0] S1x3x8x8.size (inbSlot j)) (fun _ => rfl)).squeeze S3x8x8 squeezes_S1x3x8x8_S3x8x8
/-- Cell `j` of a semaphore array. -/
def cellOfArr (S : DmaSems sig S64) (j : Fin 64) : SemLoc sig :=
  SemLoc.dma ((S.slice (Rect.unit (s := S64) ![j.val] S1.size (inbCell j))).squeeze S_ squeezes_S1_S_).sem
/-- The word a table holds at `[R, j]`. -/
def wordAt (c : Dev nD) (T : Memref sig .tc .smem S32x64 .i32) (Yc : Bf (F := F) c T) (R : ℕ) (hR : R < 32) (j : Fin 64) : BitVec 32 :=
  View.readAt (Elt F) T.view (Rect.unit (s := S32x64) ![R, j.val] S1x1.size (inbTab R hR j)).toLoadRect Yc (Shape.Idx.first (show 0 < S1x1.numel by decide))
/-- The image block at row `R` and origins `y`, `x`. -/
def srcOf (M : Memref sig .tc .hbm S32x3x512x512 .f32) (R : ℕ) (y x : BitVec 32)
    (h : ∀ a, (![R, 0, y.toNat, x.toNat] : Fin 4 → Nat) a + S1x3x8x8.size a ≤ S32x3x512x512.size a) : Memref sig .tc .hbm S3x8x8 .f32 :=
  (M.slice (Rect.unit (s := S32x3x512x512) ![R, 0, y.toNat, x.toNat] S1x3x8x8.size h) (fun _ => rfl)).squeeze S3x8x8 squeezes_S1x3x8x8_S3x8x8

theorem iv01_toNat : ∀ k : Fin 64, (Scf.iv 0#32 1#32 k.val).toNat = k.val := by decide

/-! ## One side's family of slots

For one image array `Mi` at contents `A`, its patch buffer `Mb`, its semaphore array `Sm` and its two origin tables at
contents `Yc`, `Xc`, and for the image row `R`: slot `j` is FREE (its cell at zero, the slot at anything, the array's read
share for cell `j` whole), IN FLIGHT (the transfer of the row's `j`-th patch into it, holding the patch's elements of the
read share) or LANDED (the cell at zero, the slot filled with the patch, the read share whole again). -/

/-- A slot's state. -/
inductive SlotSt where
  | free
  | inflight
  | landed
  deriving DecidableEq

section Side

variable (c : Dev nD) (Mb : Memref sig .tc .vmem S64x3x8x8 .f32) (Sm : DmaSems sig S64)
  (Mi : Memref sig .tc .hbm S32x3x512x512 .f32) (A : Bf (F := F) c Mi)
  (Ty Tx : Memref sig .tc .smem S32x64 .i32) (Yc : Bf (F := F) c Ty) (Xc : Bf (F := F) c Tx)
  (R : ℕ) (hR : R < 32)
  (hY : ∀ j, (wordAt c Ty Yc R hR j).toNat ≤ 504) (hX : ∀ j, (wordAt c Tx Xc R hR j).toNat ≤ 504)

/-- The source block of patch `j`. -/
def srcAt (j : Fin 64) : Memref sig .tc .hbm S3x8x8 .f32 :=
  srcOf Mi R (wordAt c Ty Yc R hR j) (wordAt c Tx Xc R hR j) (inbSrc R hR _ _ (hY j) (hX j))
/-- The patch's entries, as the transfer reads them. -/
def payAt (j : Fin 64) : S3x8x8.Idx → Elt F .f32 :=
  ReadAs.same.apply (View.read (Elt F) (srcAt c Mi Ty Tx Yc Xc R hR hY hX j).view A)

/-- The image array's read share for cell `j`, over the elements `S`. -/
abbrev tokI (j : Fin 64) (S : Finset (Idx (Mi.view.loc (c : Thread nD τ)))) : sProp 𝕄 :=
  Mi.view.loc (c : Thread nD τ) ↦[S]{Transfers.shareTok fullShare 64 j} A

abbrev freeS (j : Fin 64) : sProp 𝕄 :=
  iprop(semVal ((c : Thread nD τ), cellOfArr Sm j) 0
    ∗ (∃ f, (slotOf Mb j).view.loc (c : Thread nD τ) ↦[(slotOf Mb j).view.set]{fullShare} f)
    ∗ tokI c Mi A j Finset.univ)

abbrev inflightS (j : Fin 64) : sProp 𝕄 :=
  iprop((∃ f, Transfers.Flight (countersEmb (U := UU nD τ)) (c : Thread nD τ) (cellOfArr Sm j) () 384
            iprop(((slotOf Mb j).view.loc (c : Thread nD τ) ↦[(slotOf Mb j).view.set]{fullShare}
                    (slotOf Mb j).view.writes (Elt F) f [⟨Rect.whole S3x8x8, payAt c Mi A Ty Tx Yc Xc R hR hY hX j⟩])
              ∗ tokI c Mi A j (srcAt c Mi Ty Tx Yc Xc R hR hY hX j).view.set))
    ∗ tokI c Mi A j (Finset.univ \ (srcAt c Mi Ty Tx Yc Xc R hR hY hX j).view.set))

abbrev landedS (j : Fin 64) : sProp 𝕄 :=
  iprop(semVal ((c : Thread nD τ), cellOfArr Sm j) 0
    ∗ (∃ f, (slotOf Mb j).view.loc (c : Thread nD τ) ↦[(slotOf Mb j).view.set]{fullShare}
              (slotOf Mb j).view.writes (Elt F) f [⟨Rect.whole S3x8x8, payAt c Mi A Ty Tx Yc Xc R hR hY hX j⟩])
    ∗ tokI c Mi A j Finset.univ)

/-- Slot `j` in a state. -/
abbrev ΦS (j : Fin 64) (st : SlotSt) : sProp 𝕄 :=
  match st with
  | .free => freeS c Mb Sm Mi A j
  | .inflight => inflightS c Mb Sm Mi A Ty Tx Yc Xc R hR hY hX j
  | .landed => landedS c Mb Sm Mi A Ty Tx Yc Xc R hR hY hX j

end Side

/-- Before trip `k` of an issue loop: slots below `k` in flight, the others free. -/
def stI (k : ℕ) : Fin 64 → SlotSt := fun j => if j.val < k then .inflight else .free
/-- Before trip `k` of a wait loop: slots below `k` landed, the others in flight. -/
def stW (k : ℕ) : Fin 64 → SlotSt := fun j => if j.val < k then .landed else .inflight

theorem stI_at (k : ℕ) (j : Fin 64) (h : j.val = k) : stI k j = .free := by unfold stI; rw [if_neg (by omega)]
theorem stW_at (k : ℕ) (j : Fin 64) (h : j.val = k) : stW k j = .inflight := by unfold stW; rw [if_neg (by omega)]
theorem stI_succ (k : ℕ) (j : Fin 64) (h : j.val = k) : Function.update (stI k) j .inflight = stI (k + 1) := by
  funext x; unfold stI Function.update
  by_cases hx : x = j
  · subst hx; simp [h]
  · have : x.val ≠ j.val := fun e => hx (Fin.ext e)
    simp only [hx, dite_false]; split <;> split <;> first | rfl | omega
theorem stW_succ (k : ℕ) (j : Fin 64) (h : j.val = k) : Function.update (stW k) j .landed = stW (k + 1) := by
  funext x; unfold stW Function.update
  by_cases hx : x = j
  · subst hx; simp [h]
  · have : x.val ≠ j.val := fun e => hx (Fin.ext e)
    simp only [hx, dite_false]; split <;> split <;> first | rfl | omega
theorem stI_zero : stI 0 = fun _ => .free := by funext j; unfold stI; simp
theorem stI_all_eq_stW_zero : stI 64 = stW 0 := by funext j; unfold stI stW; have := j.isLt; simp [this]
theorem stW_all : stW 64 = fun _ => .landed := by funext j; unfold stW; have := j.isLt; simp [this]

/-- The image row a grid point's `lb`-th pass works on, as the kernel computes it: `8 · i + lb`. -/
def rowW (i : grid0.Coords) (lb : BitVec 32) : BitVec 32 := Scalar.addi (Scalar.muli (BitVec.ofNat 32 (i 0).val) 8#32) lb
theorem rowW_toNat : ∀ (i : grid0.Coords) (lb : Fin 8), (rowW i (BitVec.ofNat 32 lb.val)).toNat = 8 * (i 0).val + lb.val := by decide
theorem rowW_lt (i : grid0.Coords) (lb : Fin 8) : (rowW i (BitVec.ofNat 32 lb.val)).toNat < 32 := by
  rw [rowW_toNat]; have h4 : (i 0).val < 4 := (i 0).isLt; have := lb.isLt; omega

end Cert.Proof.KI
end
-- ==== Proof.KI.Out.lean ====
import proofs.«403745_j3521873182816_1_alg».proof.Proof.KI.Names
import proofs.«403745_j3521873182816_1_alg».proof.Proof.Gen.KernelIdeal.Skeleton
import Idealize.ShloMosaic.Lib.ValueIdx

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## What the kernel leaves in its four output blocks

Every origin word of a table is at most 504 (`TabOK`: what the certificate's precondition gives). The patch buffer of
an image array for row `R`, once its 64 transfers have landed, holds at `[n, ch, h, w]` the array's entry
`[R, ch, y + h, x + w]` with `y`, `x` the tables' words at `[R, n]` (`gath`). The kernel's mean and variance of a patch
buffer are its own operations `patchMean`, `patchVar`; the block of the four results that grid point `i` writes holds, at row `lb` and column `n`,
the mean (results 0 and 2) or variance (results 1 and 3) of patch `n` of row `8 i + lb` of the generated image (results
0, 1) or the target image (results 2, 3). -/

/-- Every word of a table is an origin a whole patch fits behind. -/
def TabOK (c : Dev nD) (T : Memref sig .tc .smem S32x64 .i32) (Yc : Bf (F := F) c T) : Prop :=
  ∀ (R : ℕ) (hR : R < 32) (j : Fin 64), (wordAt c T Yc R hR j).toNat ≤ 504

section Gath

variable (c : Dev nD) (Mi : Memref sig .tc .hbm S32x3x512x512 .f32) (A : Bf (F := F) c Mi)
  (Ty Tx : Memref sig .tc .smem S32x64 .i32) (Yc : Bf (F := F) c Ty) (Xc : Bf (F := F) c Tx)
  (hY : TabOK c Ty Yc) (hX : TabOK c Tx Xc)

/-- The patch buffer for row `R` once every transfer has landed. -/
def gath (R : ℕ) (hR : R < 32) : S64x3x8x8.Idx → Elt F .f32 := fun q =>
  payAt c Mi A Ty Tx Yc Xc R hR (hY R hR) (hX R hR) (q 0) (fun a => q a.succ)

end Gath

/-- The kernel's mean of each of the 64 patches of a patch buffer, -/
def patchMean (v : Vec F S64x3x8x8 .f32) : FVec F S64 .f32 := k0_pay2 v
/-- and their unbiased variance, in one pass. -/
def patchVar (v : Vec F S64x3x8x8 .f32) : FVec F S64 .f32 := k0_pay3 v

section Out

variable (c : Dev nD)
  (A : Bf (F := F) c (Memref.whole main_arg0)) (B : Bf (F := F) c (Memref.whole main_arg1))
  (Y : Bf (F := F) c (Memref.whole main_arg2)) (X : Bf (F := F) c (Memref.whole main_arg3))
  (Y' : Bf (F := F) c (Memref.whole main_arg4)) (X' : Bf (F := F) c (Memref.whole main_arg5))
  (hY : TabOK c (Memref.whole main_arg2) Y) (hX : TabOK c (Memref.whole main_arg3) X)
  (hY' : TabOK c (Memref.whole main_arg4) Y') (hX' : TabOK c (Memref.whole main_arg5) X')

/-- The generated image's patch buffer for the row of grid point `i`'s pass `lb` (row `8 i + lb`, as the kernel computes
    it: `rowW`), and the target's. -/
def gathG (i : grid0.Coords) (lb : Fin 8) : S64x3x8x8.Idx → Elt F .f32 :=
  gath c (Memref.whole main_arg0) A (Memref.whole main_arg2) (Memref.whole main_arg3) Y X hY hX
    (rowW i (BitVec.ofNat 32 lb.val)).toNat (rowW_lt i lb)
def gathT (i : grid0.Coords) (lb : Fin 8) : S64x3x8x8.Idx → Elt F .f32 :=
  gath c (Memref.whole main_arg1) B (Memref.whole main_arg4) (Memref.whole main_arg5) Y' X' hY' hX'
    (rowW i (BitVec.ofNat 32 lb.val)).toNat (rowW_lt i lb)

/-- The block of result `w` that grid point `i` writes. -/
def outBlk (i : grid0.Coords) : (w : Fin 4) → S8x64.Idx → Elt F .f32
  | 0 => fun y => patchMean (gathG c A Y X hY hX i (y 0)) (ValueIdx.ix1 (y 1))
  | 1 => fun y => patchVar (gathG c A Y X hY hX i (y 0)) (ValueIdx.ix1 (y 1))
  | 2 => fun y => patchMean (gathT c B Y' X' hY' hX' i (y 0)) (ValueIdx.ix1 (y 1))
  | 3 => fun y => patchVar (gathT c B Y' X' hY' hX' i (y 0)) (ValueIdx.ix1 (y 1))

end Out

/-! ## The kernel's own semaphores -/

/-- The 128 cells of the two scratch semaphore arrays: the generated image's 64, then the target's. -/
abbrev osem : Fin 2 × Fin 64 → SemLoc sig := fun q => SemLoc.dma ⟨8 + 64 * q.1.val + q.2.val, by
  have := q.1.isLt; have := q.2.isLt; show 8 + 64 * q.1.val + q.2.val < 136; omega⟩

theorem gcell_eq : ∀ j : Fin 64, cellOfArr cc0_scratch2 j = osem (0, j) := by decide +kernel
theorem tcell_eq : ∀ j : Fin 64, cellOfArr cc0_scratch3 j = osem (1, j) := by decide +kernel

end Cert.Proof.KI
end
-- ==== Proof.KI.Loops.lean ====
import proofs.«403745_j3521873182816_1_alg».proof.Proof.KI.Names
import proofs.«403745_j3521873182816_1_alg».proof.Proof.KI.Out

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The two loops of a pass

Pass `lb` of grid point `i` works on image row `rowW i lb`. Its first loop starts, at trip `k`, the transfer of the row's
`k`-th patch of each image into slot `k` of that image's patch buffer, on cell `k` of its semaphore array; its second
loop waits, at trip `k`, for those two transfers. Before trip `k` of the first loop the slots below `k` are in flight and
the others free; before trip `k` of the second the slots below `k` have landed and the others are in flight. -/

section Loops

variable (c : Dev nD) (i : grid0.Coords) (lb : Fin 8)
  (A : Bf (F := F) c (Memref.whole main_arg0)) (B : Bf (F := F) c (Memref.whole main_arg1))
  (Y : Bf (F := F) c (Memref.whole main_arg2)) (X : Bf (F := F) c (Memref.whole main_arg3))
  (Y' : Bf (F := F) c (Memref.whole main_arg4)) (X' : Bf (F := F) c (Memref.whole main_arg5))
  (hY : TabOK c (Memref.whole main_arg2) Y) (hX : TabOK c (Memref.whole main_arg3) X)
  (hY' : TabOK c (Memref.whole main_arg4) Y') (hX' : TabOK c (Memref.whole main_arg5) X')

/-- The generated image's slots and the target's, at the row of pass `lb`. -/
abbrev Φg : Fin 64 → SlotSt → sProp 𝕄 :=
  ΦS c (Memref.whole cc0_scratch0) cc0_scratch2 (Memref.whole main_arg0) A (Memref.whole main_arg2) (Memref.whole main_arg3) Y X
    (rowW i (BitVec.ofNat 32 lb.val)).toNat (rowW_lt i lb) (hY _ (rowW_lt i lb)) (hX _ (rowW_lt i lb))
abbrev Φt : Fin 64 → SlotSt → sProp 𝕄 :=
  ΦS c (Memref.whole cc0_scratch1) cc0_scratch3 (Memref.whole main_arg1) B (Memref.whole main_arg4) (Memref.whole main_arg5) Y' X'
    (rowW i (BitVec.ofNat 32 lb.val)).toNat (rowW_lt i lb) (hY' _ (rowW_lt i lb)) (hX' _ (rowW_lt i lb))

/-- The four origin tables, held whole. -/
abbrev tabs : sProp 𝕄 :=
  iprop(pt c (Memref.whole main_arg2) Y ∗ pt c (Memref.whole main_arg3) X ∗ pt c (Memref.whole main_arg4) Y' ∗ pt c (Memref.whole main_arg5) X')

/-- Before trip `k` of pass `lb`'s first loop. -/
def issueInv (k : ℕ) (_ : Unit) : sProp 𝕄 :=
  iprop(Ring.AtW (Φg c i lb A Y X hY hX) (stI k) ∗ Ring.AtW (Φt c i lb B Y' X' hY' hX') (stI k) ∗ tabs c Y X Y' X')

/-- Before trip `k` of its second loop. -/
def waitInv (k : ℕ) (_ : Unit) : sProp 𝕄 :=
  iprop(Ring.AtW (Φg c i lb A Y X hY hX) (stW k) ∗ Ring.AtW (Φt c i lb B Y' X' hY' hX') (stW k) ∗ ∃ W, owes (c : Thread nD τ) 0 W)

end Loops

/-- One trip of a pass's first loop, at a symbolic trip: slot `k` of each side is set apart, the two table words are read
    and are origins a patch fits behind, the two transfers start, and the slots go back in flight. `$lb` is the pass,
    `$body` the loop's region. -/
syntax "issue_step_tac " term:max ident : tactic
set_option hygiene false in
macro_rules
  | `(tactic| issue_step_tac $lb $body) => `(tactic| (
  intro k acc
  have hk : k.val < 64 := lt_of_lt_of_eq k.isLt (by decide)
  have hw : (Scf.iv 0#32 1#32 k.val).toNat < 64 := by rw [iv01_toNat ⟨k.val, hk⟩]; exact hk
  have hj : (Ring.slotOfW (n := 64) (Scf.iv 0#32 1#32 k.val) hw).val = k.val := iv01_toNat ⟨k.val, hk⟩
  unfold issueInv
  rw [Ring.AtW_focusW (Φg c i $lb A Y X hY hX) (stI k.val) (Scf.iv 0#32 1#32 k.val) hw,
    Ring.AtW_focusW (Φt c i $lb B Y' X' hY' hX') (stI k.val) (Scf.iv 0#32 1#32 k.val) hw]
  iintro ⟨⟨Hg, Hgrest⟩, ⟨Ht, Htrest⟩, HY, HX, HY', HX'⟩
  simp only [Φg, Φt, ΦS, stI_at _ _ hj]
  icases Hg with ⟨Hcell, ⟨%f, Hslot⟩, Htok⟩
  icases Ht with ⟨Hcell', ⟨%f', Hslot'⟩, Htok'⟩
  first | unfold $body | skip
  sl_exec (disch := first
    | exact inbSrc _ (rowW_lt i $lb) _ _ (hY _ (rowW_lt i $lb) (Ring.slotOfW (Scf.iv 0#32 1#32 k.val) hw)) (hX _ (rowW_lt i $lb) (Ring.slotOfW (Scf.iv 0#32 1#32 k.val) hw))
    | exact inbSrc _ (rowW_lt i $lb) _ _ (hY' _ (rowW_lt i $lb) (Ring.slotOfW (Scf.iv 0#32 1#32 k.val) hw)) (hX' _ (rowW_lt i $lb) (Ring.slotOfW (Scf.iv 0#32 1#32 k.val) hw)))
  sl_step
  rw [← stI_succ k.val _ hj]
  isplitl [Hcell Htok Hgrest]
  · iapply (Ring.AtW_update (Φg c i $lb A Y X hY hX) (stI k.val) (Ring.slotOfW (Scf.iv 0#32 1#32 k.val) hw) .inflight)
    isplitr [Hgrest]
    · simp only [Φg, ΦS]
      isplitl [Hcell]
      · iexists f; iexact Hcell
      · iexact Htok
    · iexact Hgrest
  isplitl [Hcell' Htok' Htrest]
  · iapply (Ring.AtW_update (Φt c i $lb B Y' X' hY' hX') (stI k.val) (Ring.slotOfW (Scf.iv 0#32 1#32 k.val) hw) .inflight)
    isplitr [Htrest]
    · simp only [Φt, ΦS]
      isplitl [Hcell']
      · iexists f'; iexact Hcell'
      · iexact Htok'
    · iexact Htrest
  isplitl [HY]; · iexact HY
  isplitl [HX]; · iexact HX
  isplitl [HY']; · iexact HY'
  iexact HX'))

/-- One trip of a pass's second loop: slot `k` of each side, in flight, is waited for and goes back landed. -/
syntax "wait_step_tac " term:max ident : tactic
set_option hygiene false in
macro_rules
  | `(tactic| wait_step_tac $lb $body) => `(tactic| (
  intro k acc
  have hk : k.val < 64 := lt_of_lt_of_eq k.isLt (by decide)
  have hw : (Scf.iv 0#32 1#32 k.val).toNat < 64 := by rw [iv01_toNat ⟨k.val, hk⟩]; exact hk
  have hj : (Ring.slotOfW (n := 64) (Scf.iv 0#32 1#32 k.val) hw).val = k.val := iv01_toNat ⟨k.val, hk⟩
  unfold waitInv
  rw [Ring.AtW_focusW (Φg c i $lb A Y X hY hX) (stW k.val) (Scf.iv 0#32 1#32 k.val) hw,
    Ring.AtW_focusW (Φt c i $lb B Y' X' hY' hX') (stW k.val) (Scf.iv 0#32 1#32 k.val) hw]
  iintro ⟨⟨Hg, Hgrest⟩, ⟨Ht, Htrest⟩, ⟨%W, HO⟩⟩
  simp only [Φg, Φt, ΦS, stW_at _ _ hj]
  icases Hg with ⟨⟨%f, Hfl⟩, Htok⟩
  icases Ht with ⟨⟨%f', Hfl'⟩, Htok'⟩
  first | unfold $body | skip
  sl_exec
  sl_step
  rw [← stW_succ k.val _ hj]
  isplitl [Hfl Hfl_dst Htok Hgrest]
  · iapply (Ring.AtW_update (Φg c i $lb A Y X hY hX) (stW k.val) (Ring.slotOfW (Scf.iv 0#32 1#32 k.val) hw) .landed)
    isplitr [Hgrest]
    · simp only [Φg, ΦS]
      isplitl [Hfl]; · iexact Hfl
      isplitl [Hfl_dst]; · iexists f; iexact Hfl_dst
      iexact Htok
    · iexact Hgrest
  isplitl [Hfl' Hfl'_dst Htok' Htrest]
  · iapply (Ring.AtW_update (Φt c i $lb B Y' X' hY' hX') (stW k.val) (Ring.slotOfW (Scf.iv 0#32 1#32 k.val) hw) .landed)
    isplitr [Htrest]
    · simp only [Φt, ΦS]
      isplitl [Hfl']; · iexact Hfl'
      isplitl [Hfl'_dst]; · iexists f'; iexact Hfl'_dst
      iexact Htok'
    · iexact Htrest
  iexists _; iexact HO))

end Cert.Proof.KI
end
-- ==== Proof.KI.Fam.lean ====
import proofs.«403745_j3521873182816_1_alg».proof.Proof.KI.Names
import Idealize.ShloMosaic.Lib.Ring
import Idealize.ShloMosaic.Lib.Transfers
import Idealize.ShloMosaic.Lib.Pipeline.Rules
import Idealize.ShloMosaic.Rules.PointsTo

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The 64 slots of a patch buffer: pairwise disjoint, covering it

Slot `j` is the unit rectangle at offsets `[j, 0, 0, 0]` of sizes `[1, 3, 8, 8]`; the slots differ along axis 0 only, one
long there and whole on the other axes, so they are pairwise disjoint and cover `[64, 3, 8, 8]`. A slot's elements of
the buffer are its rectangle's, placed by the buffer's own view. -/

/-- Slot `j`'s rectangle. -/
abbrev slotRect (j : Fin 64) : Rect S64x3x8x8 := Rect.unit (s := S64x3x8x8) ![j.val, 0, 0, 0] S1x3x8x8.size (inbSlot j)

theorem slotRect_disjoint (j j' : Fin 64) (h : j ≠ j') : Disjoint (slotRect j).set (slotRect j').set :=
  Ring.lead_disjoint (s := S64x3x8x8) (NB := 64) (0 : Fin 4) 1 (fun j : Fin 64 => ![j.val, 0, 0, 0]) S1x3x8x8.size inbSlot
    (fun b => by show b.val = 1 * b.val; omega) rfl j j' h

theorem slotRect_cover : Finset.univ.biUnion (fun j : Fin 64 => (slotRect j).set) = Finset.univ :=
  Ring.lead_cover (s := S64x3x8x8) (NB := 64) (0 : Fin 4) 1 (fun j : Fin 64 => ![j.val, 0, 0, 0]) S1x3x8x8.size inbSlot
    (fun b => by show b.val = 1 * b.val; omega)
    (fun b a ha => by fin_cases a <;> first | exact absurd rfl ha | rfl)
    rfl
    (fun a ha => by fin_cases a <;> first | exact absurd rfl ha | rfl)
    rfl

section Slots

variable (c : Dev nD) (Mb : Memref sig .tc .vmem S64x3x8x8 .f32)

/-- Slot `j`'s elements of the buffer. -/
abbrev slotI (j : Fin 64) : Finset (Idx (Mb.view.loc (c : Thread nD τ))) := (slotOf Mb j).view.set

theorem slotI_eq (j : Fin 64) : slotI c Mb j = (slotRect j).set.map Mb.view.emb := by
  show ((Mb.view.slice (slotRect j)).reshape S3x8x8 _).set = _
  rw [View.set_reshape, View.set_slice]

theorem slotI_disjoint (j j' : Fin 64) (h : j ≠ j') : Disjoint (slotI c Mb j) (slotI c Mb j') := by
  rw [slotI_eq, slotI_eq, Finset.disjoint_map]; exact slotRect_disjoint j j' h

theorem slotI_cover (hMb : Mb.IsWhole) : Finset.univ.biUnion (slotI c Mb) = Finset.univ := by
  ext i
  simp only [Finset.mem_biUnion, Finset.mem_univ, true_and, iff_true]
  have hi : i ∈ Mb.view.set := by rw [hMb.set_eq_univ]; exact Finset.mem_univ _
  obtain ⟨x, -, rfl⟩ := Finset.mem_map.mp hi
  have hx : x ∈ Finset.univ.biUnion (fun j : Fin 64 => (slotRect j).set) := by rw [slotRect_cover]; exact Finset.mem_univ _
  obtain ⟨j, -, hj⟩ := Finset.mem_biUnion.mp hx
  exact ⟨j, by rw [slotI_eq]; exact Finset.mem_map_of_mem _ hj⟩

end Slots
/-! ## The family at launch and at exit

At launch the patch buffer is held whole at anything, the image array whole, and every cell at zero: the buffer is its 64
slots (each at the buffer's contents), the array's full share is the remainder and one read share per cell, and that is
every slot FREE. -/

section Side

variable (c : Dev nD) (Mb : Memref sig .tc .vmem S64x3x8x8 .f32) (Sm : DmaSems sig S64)
  (Mi : Memref sig .tc .hbm S32x3x512x512 .f32) (A : Bf (F := F) c Mi)
  (Ty Tx : Memref sig .tc .smem S32x64 .i32) (Yc : Bf (F := F) c Ty) (Xc : Bf (F := F) c Tx)
  (R : ℕ) (hR : R < 32)
  (hY : ∀ j, (wordAt c Ty Yc R hR j).toNat ≤ 504) (hX : ∀ j, (wordAt c Tx Xc R hR j).toNat ≤ 504)

theorem fam_intro (hMb : Mb.IsWhole) (f : Bf (F := F) c Mb) :
    iprop(pt c Mb f ∗ pt c Mi A ∗ bigSep Finset.univ (fun j : Fin 64 => semVal ((c : Thread nD τ), cellOfArr Sm j) 0))
      ⊢ iprop(Ring.AtW (ΦS c Mb Sm Mi A Ty Tx Yc Xc R hR hY hX) (fun _ => SlotSt.free)
          ∗ (Mi.view.loc (c : Thread nD τ) ↦[Finset.univ]{Transfers.shareDrop fullShare 64} A)) := by
  have eAt : Ring.AtW (ΦS c Mb Sm Mi A Ty Tx Yc Xc R hR hY hX) (fun _ => SlotSt.free)
      = iprop(bigSep Finset.univ (fun j : Fin 64 => semVal ((c : Thread nD τ), cellOfArr Sm j) 0)
          ∗ bigSep Finset.univ (fun j : Fin 64 => iprop(∃ f, (slotOf Mb j).view.loc (c : Thread nD τ) ↦[(slotOf Mb j).view.set]{fullShare} f))
          ∗ bigSep Finset.univ (fun j : Fin 64 => tokI c Mi A j Finset.univ)) := by
    unfold Ring.AtW
    rw [← BI.bigSep_sep', ← BI.bigSep_sep']
  rw [eAt]
  iintro ⟨Hb, Hi, Hs⟩
  ihave Ht := (Transfers.pointsTo_toks_split fullShare 64) $$ Hi
  icases Ht with ⟨Hd, Ht⟩
  isplitr [Hd]
  · isplitl [Hs]; · iexact Hs
    isplitl [Hb]
    · ihave Hb' := (Entails.of_eq (Ring.pointsTo_blocks (Ix := Unit) (Val := Elt F) (Name := ℕ) (U := UU nD τ) (Lvl := ℕ) (q := fullShare)
        (slotI c Mb) (slotI_disjoint c Mb) (slotI_cover c Mb hMb) f)) $$ Hb
      have hone : ∀ j : Fin 64, (Mb.view.loc (c : Thread nD τ) ↦[slotI c Mb j]{fullShare} f : sProp 𝕄)
          ⊢ iprop(∃ f, (slotOf Mb j).view.loc (c : Thread nD τ) ↦[(slotOf Mb j).view.set]{fullShare} f) :=
        fun j => by iintro H; iexists f; iexact H
      have hall : bigSep Finset.univ (fun j : Fin 64 => (Mb.view.loc (c : Thread nD τ) ↦[slotI c Mb j]{fullShare} f : sProp 𝕄))
          ⊢ bigSep Finset.univ (fun j : Fin 64 => iprop(∃ f, (slotOf Mb j).view.loc (c : Thread nD τ) ↦[(slotOf Mb j).view.set]{fullShare} f)) :=
        BI.bigSep_mono fun j _ => hone j
      iapply hall
      iexact Hb'
    · iexact Ht
  · iexact Hd

end Side
/-! ## Reading the joined buffer

Element `q` of the buffer is element `(q 1, q 2, q 3)` of slot `q 0`: the slot's own index behind the coordinate 0 is the
unit rectangle's index, which the rectangle places at `[q 0 + 0, 0 + q 1, 0 + q 2, 0 + q 3]`. So contents that agree with
each slot's filled contents on the slot's elements read, at `q`, the payload of slot `q 0` at `(q 1, q 2, q 3)`. -/

section Read

variable (c : Dev nD) (Mb : Memref sig .tc .vmem S64x3x8x8 .f32)

theorem slot_emb (q : S64x3x8x8.Idx) :
    (Mb.view.emb q : Mb.view.ty.Idx) = (slotOf Mb (q 0)).view.emb (fun a => q a.succ) := by
  have hr := Shape.reshapeEquiv_cons_one (n := 3) (d := ![3, 8, 8]) squeezes_S1x3x8x8_S3x8x8.numel_eq (fun a => q a.succ)
  show Mb.view.emb q = Mb.view.emb ((slotRect (q 0)).emb (Shape.reshapeEquiv squeezes_S1x3x8x8_S3x8x8.numel_eq (fun a => q a.succ)))
  refine congrArg _ (funext fun a => Fin.ext ?_)
  rw [Rect.emb_apply, hr]
  fin_cases a
  · show (q 0 : ℕ) = (q 0 : ℕ) + 1 * 0; omega
  · show (q 1 : ℕ) = 0 + 1 * (q 1 : ℕ); omega
  · show (q 2 : ℕ) = 0 + 1 * (q 2 : ℕ); omega
  · show (q 3 : ℕ) = 0 + 1 * (q 3 : ℕ); omega

theorem writes_whole_emb (j : Fin 64) (f : (slotOf Mb j).view.ty.Contents (Elt F)) (p : S3x8x8.Idx → Elt F .f32) (z : S3x8x8.Idx) :
    (slotOf Mb j).view.writes (Elt F) f [⟨Rect.whole S3x8x8, p⟩] ((slotOf Mb j).view.emb z)
      = cast (congrArg (Elt F) (slotOf Mb j).view.elt_eq.symm) (p z) := by
  rw [← View.write_univ_eq_writes_whole, View.writes_nil, View.write_emb_of_mem _ _ (Finset.mem_univ _)]

theorem read_of_agree (g : Bf (F := F) c Mb) (y : Fin 64 → Bf (F := F) c Mb) (p : Fin 64 → S3x8x8.Idx → Elt F .f32)
    (hg : ∀ j ∈ (Finset.univ : Finset (Fin 64)), ∀ i ∈ slotI c Mb j,
      g i = (slotOf Mb j).view.writes (Elt F) (y j) [⟨Rect.whole S3x8x8, p j⟩] i) :
    Mb.view.read (Elt F) g = fun q => p (q 0) (fun a => q a.succ) := by
  funext q
  have h1 := (congrArg g (slot_emb Mb q)).trans (hg (q 0) (Finset.mem_univ _) _ ((slotOf Mb (q 0)).view.emb_mem_set _))
  have h2 := h1.trans (writes_whole_emb Mb (q 0) (y (q 0)) (p (q 0)) (fun a => q a.succ))
  rw [View.read_apply, h2]
  exact (cast_cast _ _ _).trans (cast_eq _ _)

end Read
/-! At exit every slot has LANDED: the cells are at zero, the read shares and the remainder are the image array whole again, and
the 64 slots, each filled whole with its patch over whatever it held, join to the buffer whole at contents that agree with
each slot's on the slot's elements, hence read patch `q 0` at `(q 1, q 2, q 3)`. -/

section SideOut

variable (c : Dev nD) (Mb : Memref sig .tc .vmem S64x3x8x8 .f32) (Sm : DmaSems sig S64)
  (Mi : Memref sig .tc .hbm S32x3x512x512 .f32) (A : Bf (F := F) c Mi)
  (Ty Tx : Memref sig .tc .smem S32x64 .i32) (Yc : Bf (F := F) c Ty) (Xc : Bf (F := F) c Tx)
  (R : ℕ) (hR : R < 32)
  (hY : ∀ j, (wordAt c Ty Yc R hR j).toNat ≤ 504) (hX : ∀ j, (wordAt c Tx Xc R hR j).toNat ≤ 504)

theorem fam_elim (hMb : Mb.IsWhole) :
    iprop(Ring.AtW (ΦS c Mb Sm Mi A Ty Tx Yc Xc R hR hY hX) (fun _ => SlotSt.landed)
        ∗ (Mi.view.loc (c : Thread nD τ) ↦[Finset.univ]{Transfers.shareDrop fullShare 64} A))
      ⊢ iprop(∃ g : Bf (F := F) c Mb, ⌜Mb.view.read (Elt F) g = fun q => payAt c Mi A Ty Tx Yc Xc R hR hY hX (q 0) (fun a => q a.succ)⌝
          ∗ pt c Mb g ∗ pt c Mi A ∗ bigSep Finset.univ (fun j : Fin 64 => semVal ((c : Thread nD τ), cellOfArr Sm j) 0)) := by
  have eAt : Ring.AtW (ΦS c Mb Sm Mi A Ty Tx Yc Xc R hR hY hX) (fun _ => SlotSt.landed)
      = iprop(bigSep Finset.univ (fun j : Fin 64 => semVal ((c : Thread nD τ), cellOfArr Sm j) 0)
          ∗ bigSep Finset.univ (fun j : Fin 64 => iprop(∃ f, (slotOf Mb j).view.loc (c : Thread nD τ) ↦[(slotOf Mb j).view.set]{fullShare}
              (slotOf Mb j).view.writes (Elt F) f [⟨Rect.whole S3x8x8, payAt c Mi A Ty Tx Yc Xc R hR hY hX j⟩]))
          ∗ bigSep Finset.univ (fun j : Fin 64 => tokI c Mi A j Finset.univ)) := by
    unfold Ring.AtW
    rw [← BI.bigSep_sep', ← BI.bigSep_sep']
  rw [eAt]
  -- some contents of the buffer (a patch entry everywhere): what no slot at all would join to
  have x0 : Elt F .f32 := payAt c Mi A Ty Tx Yc Xc R hR hY hX 0 (Shape.Idx.first (by decide : 0 < S3x8x8.numel))
  have g0 : Bf (F := F) c Mb := fun _ => cast (congrArg (Elt F) Mb.view.elt_eq.symm) x0
  haveI : Nonempty (Bf (F := F) c Mb) := ⟨g0⟩
  -- the slots joined
  have hjoin : bigSep Finset.univ (fun j : Fin 64 => iprop(∃ f, (slotOf Mb j).view.loc (c : Thread nD τ) ↦[(slotOf Mb j).view.set]{fullShare}
              (slotOf Mb j).view.writes (Elt F) f [⟨Rect.whole S3x8x8, payAt c Mi A Ty Tx Yc Xc R hR hY hX j⟩]))
      ⊢ (iprop(∃ g : Bf (F := F) c Mb, ⌜Mb.view.read (Elt F) g = fun q => payAt c Mi A Ty Tx Yc Xc R hR hY hX (q 0) (fun a => q a.succ)⌝
          ∗ pt c Mb g) : sProp 𝕄) := by
    refine (BI.bigSep_exists_pi (Y := fun _ : Fin 64 => Bf (F := F) c Mb) Finset.univ
      (fun (j : Fin 64) (f : Bf (F := F) c Mb) => (Mb.view.loc (c : Thread nD τ) ↦[slotI c Mb j]{fullShare}
          (slotOf Mb j).view.writes (Elt F) f [⟨Rect.whole S3x8x8, payAt c Mi A Ty Tx Yc Xc R hR hY hX j⟩] : sProp 𝕄))).trans ?_
    iintro ⟨%y, H⟩
    ihave H2 := (pointsTo_biUnion_join (Ix := Unit) (Val := Elt F) (Name := ℕ) (U := UU nD τ) (Lvl := ℕ) (q := fullShare)
      Finset.univ (slotI c Mb)
      (fun j : Fin 64 => (slotOf Mb j).view.writes (Elt F) (y j) [⟨Rect.whole S3x8x8, payAt c Mi A Ty Tx Yc Xc R hR hY hX j⟩])
      g0 (fun j _ j' _ h => slotI_disjoint c Mb j j' h)) $$ H
    icases H2 with ⟨%g, %hg, Hg⟩
    iexists g
    isplitr
    · ipureintro
      exact read_of_agree c Mb g y (payAt c Mi A Ty Tx Yc Xc R hR hY hX) hg
    · rw [slotI_cover c Mb hMb]; iexact Hg
  iintro ⟨⟨Hs, Hb, Ht⟩, Hd⟩
  ihave Hg := hjoin $$ Hb
  icases Hg with ⟨%g, %hr, Hg⟩
  iexists g
  isplitr
  · ipureintro; exact hr
  isplitl [Hg]; · iexact Hg
  isplitl [Hd Ht]
  · iapply (Transfers.pointsTo_toks_join fullShare 64)
    isplitl [Hd] <;> iassumption
  iexact Hs

end SideOut

end Cert.Proof.KI
end
-- ==== Proof.KI.Rows.lean ====
import proofs.«403745_j3521873182816_1_alg».proof.Proof.KI.Names
import proofs.«403745_j3521873182816_1_alg».proof.Proof.KI.Out
import Idealize.ShloMosaic.Lib.Pipeline.Value
import Idealize.ShloMosaic.Lib.Pipeline.FrameBody
import Idealize.ShloMosaic.Lib.Ring
import Idealize.ShloMosaic.Lib.Tactic

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.ShloMosaic.ValueIdx

/-! ## One row of an output block

Pass `lb` stores into row `lb` of each output block the 64 statistics of its patches, as a `[1, 64]` vector. The row's
rectangle embeds a `[1, 64]` index at `(lb, n)`; the `[64]` statistics read as a `[1, 64]` vector at `(0, n)` are the `n`-th;
the whole patch buffer loaded through its full rectangle is its contents. -/

theorem inbRow (lb : Fin 8) : ∀ a, (![lb.val, 0] : Fin 2 → Nat) a + S1x64.size a ≤ S8x64.size a := by
  have := lb.isLt; intro a; fin_cases a
  · show lb.val + 1 ≤ 8; omega
  · show 0 + 64 ≤ 64; omega

theorem emb_row (lb : Fin 8) (h) (x : S1x64.Idx) :
    (Rect.unit (s := S8x64) ![lb.val, 0] S1x64.size h).emb x = ix2 lb (x 1) := by
  funext a
  refine Fin.ext ?_
  match a with
  | ⟨0, _⟩ =>
    show lb.val + 1 * (x 0).val = lb.val
    have : (x 0).val < 1 := (x 0).isLt
    omega
  | ⟨1, _⟩ =>
    show 0 + 1 * (x 1).val = (x 1).val
    omega

theorem shapeCast_row (v : FVec F S64 .f32) (x : S1x64.Idx) :
    shapeCast S1x64 v shapeCasts_S64_S1x64 x = v (ix1 (x 1)) := by
  refine (shapeCast_addUnit_apply (n := 1) ![64] v shapeCasts_S64_S1x64 x).trans ?_
  exact congrArg v (funext fun a => by match a with | ⟨0, _⟩ => rfl)

theorem readAt_full (c : Dev nD) (M : Memref sig .tc .vmem S64x3x8x8 .f32) (g : Bf (F := F) c M) (h) :
    View.readAt (Elt F) M.view (Rect.unit (s := S64x3x8x8) ![0, 0, 0, 0] S64x3x8x8.size h).toLoadRect g = View.read (Elt F) M.view g := by
  show View.ld (View.read (Elt F) M.view g) (Rect.unit (s := S64x3x8x8) ![0, 0, 0, 0] S64x3x8x8.size h) = _
  exact View.ld_unit_zero (funext fun a => by fin_cases a <;> rfl) h _

/-- Eight row stores, one per row, leave the block that each row's vector is a row of. -/
theorem out_rows (M : Memref sig .tc .vmem S8x64 .f32) (g : M.view.ty.Contents (Elt F)) (G : S8x64.Idx → Elt F .f32)
    (p0 p1 p2 p3 p4 p5 p6 p7 : S1x64.Idx → Elt F .f32)
    (h0 : ∀ x, p0 x = G (ix2 0 (x 1))) (h1 : ∀ x, p1 x = G (ix2 1 (x 1))) (h2 : ∀ x, p2 x = G (ix2 2 (x 1)))
    (h3 : ∀ x, p3 x = G (ix2 3 (x 1))) (h4 : ∀ x, p4 x = G (ix2 4 (x 1))) (h5 : ∀ x, p5 x = G (ix2 5 (x 1)))
    (h6 : ∀ x, p6 x = G (ix2 6 (x 1))) (h7 : ∀ x, p7 x = G (ix2 7 (x 1))) :
    View.read (Elt F) M.view (M.view.writes (Elt F) g
      [⟨Rect.unit ![7, 0] S1x64.size inb_S8x64_S1x64_7_0, p7⟩, ⟨Rect.unit ![6, 0] S1x64.size inb_S8x64_S1x64_6_0, p6⟩,
       ⟨Rect.unit ![5, 0] S1x64.size inb_S8x64_S1x64_5_0, p5⟩, ⟨Rect.unit ![4, 0] S1x64.size inb_S8x64_S1x64_4_0, p4⟩,
       ⟨Rect.unit ![3, 0] S1x64.size inb_S8x64_S1x64_3_0, p3⟩, ⟨Rect.unit ![2, 0] S1x64.size inb_S8x64_S1x64_2_0, p2⟩,
       ⟨Rect.unit ![1, 0] S1x64.size inb_S8x64_S1x64_1_0, p1⟩, ⟨Rect.unit ![0, 0] S1x64.size inb_S8x64_S1x64_0_0, p0⟩]) = G := by
  have hcov : ∀ y : S8x64.Idx, ∃ p ∈ ([⟨Rect.unit ![7, 0] S1x64.size inb_S8x64_S1x64_7_0, p7⟩, ⟨Rect.unit ![6, 0] S1x64.size inb_S8x64_S1x64_6_0, p6⟩,
       ⟨Rect.unit ![5, 0] S1x64.size inb_S8x64_S1x64_5_0, p5⟩, ⟨Rect.unit ![4, 0] S1x64.size inb_S8x64_S1x64_4_0, p4⟩,
       ⟨Rect.unit ![3, 0] S1x64.size inb_S8x64_S1x64_3_0, p3⟩, ⟨Rect.unit ![2, 0] S1x64.size inb_S8x64_S1x64_2_0, p2⟩,
       ⟨Rect.unit ![1, 0] S1x64.size inb_S8x64_S1x64_1_0, p1⟩, ⟨Rect.unit ![0, 0] S1x64.size inb_S8x64_S1x64_0_0, p0⟩] : List (View.Piece (Elt F) S8x64 .f32)), y ∈ p.1.set :=
    View.cover_of_tiledL _ S1x64.size (by sl_kernel_rfl)
  rw [View.read_writes_eq_canon _ _ _ hcov]
  funext y
  refine View.canon_apply_of_pieces G _ ?_ y (hcov y)
  intro p hp x
  simp only [List.mem_cons, List.mem_nil_iff, or_false] at hp
  rcases hp with rfl | rfl | rfl | rfl | rfl | rfl | rfl | rfl
  · exact (h7 x).trans (congrArg G (emb_row 7 inb_S8x64_S1x64_7_0 x).symm)
  · exact (h6 x).trans (congrArg G (emb_row 6 inb_S8x64_S1x64_6_0 x).symm)
  · exact (h5 x).trans (congrArg G (emb_row 5 inb_S8x64_S1x64_5_0 x).symm)
  · exact (h4 x).trans (congrArg G (emb_row 4 inb_S8x64_S1x64_4_0 x).symm)
  · exact (h3 x).trans (congrArg G (emb_row 3 inb_S8x64_S1x64_3_0 x).symm)
  · exact (h2 x).trans (congrArg G (emb_row 2 inb_S8x64_S1x64_2_0 x).symm)
  · exact (h1 x).trans (congrArg G (emb_row 1 inb_S8x64_S1x64_1_0 x).symm)
  · exact (h0 x).trans (congrArg G (emb_row 0 inb_S8x64_S1x64_0_0 x).symm)

section RowOf

variable (c : Dev nD)
  (A : Bf (F := F) c (Memref.whole main_arg0)) (B : Bf (F := F) c (Memref.whole main_arg1))
  (Y : Bf (F := F) c (Memref.whole main_arg2)) (X : Bf (F := F) c (Memref.whole main_arg3))
  (Y' : Bf (F := F) c (Memref.whole main_arg4)) (X' : Bf (F := F) c (Memref.whole main_arg5))
  (hY : TabOK c (Memref.whole main_arg2) Y) (hX : TabOK c (Memref.whole main_arg3) X)
  (hY' : TabOK c (Memref.whole main_arg4) Y') (hX' : TabOK c (Memref.whole main_arg5) X')
  (i : grid0.Coords) (lb : Fin 8)

/-- The means of pass `lb`'s patches of the generated image, as a `[1, 64]` vector, are row `lb` of result 0's block; -/
theorem rowG_mean (v : Vec F S64x3x8x8 .f32) (hv : v = gathG c A Y X hY hX i lb) (x : S1x64.Idx) :
    shapeCast S1x64 (patchMean v) shapeCasts_S64_S1x64 x = outBlk c A B Y X Y' X' hY hX hY' hX' i 0 (ix2 lb (x 1)) := by
  subst hv; rw [shapeCast_row]; rfl
/-- their variances row `lb` of result 1's; -/
theorem rowG_var (v : Vec F S64x3x8x8 .f32) (hv : v = gathG c A Y X hY hX i lb) (x : S1x64.Idx) :
    shapeCast S1x64 (patchVar v) shapeCasts_S64_S1x64 x = outBlk c A B Y X Y' X' hY hX hY' hX' i 1 (ix2 lb (x 1)) := by
  subst hv; rw [shapeCast_row]; rfl
/-- the target image's means row `lb` of result 2's, -/
theorem rowT_mean (v : Vec F S64x3x8x8 .f32) (hv : v = gathT c B Y' X' hY' hX' i lb) (x : S1x64.Idx) :
    shapeCast S1x64 (patchMean v) shapeCasts_S64_S1x64 x = outBlk c A B Y X Y' X' hY hX hY' hX' i 2 (ix2 lb (x 1)) := by
  subst hv; rw [shapeCast_row]; rfl
/-- and its variances row `lb` of result 3's. -/
theorem rowT_var (v : Vec F S64x3x8x8 .f32) (hv : v = gathT c B Y' X' hY' hX' i lb) (x : S1x64.Idx) :
    shapeCast S1x64 (patchVar v) shapeCasts_S64_S1x64 x = outBlk c A B Y X Y' X' hY hX hY' hX' i 3 (ix2 lb (x 1)) := by
  subst hv; rw [shapeCast_row]; rfl

end RowOf

end Cert.Proof.KI
end
-- ==== Proof.KI.Body.lean ====
import proofs.«403745_j3521873182816_1_alg».proof.Proof.KI.Names
import proofs.«403745_j3521873182816_1_alg».proof.Proof.KI.Loops
import proofs.«403745_j3521873182816_1_alg».proof.Proof.KI.Fam
import proofs.«403745_j3521873182816_1_alg».proof.Proof.KI.Rows
import Idealize.ShloMosaic.Lib.Pipeline.Launch

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.SL.BI (bigSep_univ_prod)

theorem sems_split (c : Dev nD) :
    (Pipeline.ownSems0 (Ix := Unit) (Name := ℕ) (U := UU nD τ) (Lvl := ℕ) (Val := Elt F) (τ := τ) osem c : sProp 𝕄)
      = iprop(bigSep Finset.univ (fun j : Fin 64 => semVal ((c : Thread nD τ), cellOfArr cc0_scratch2 j) 0)
          ∗ bigSep Finset.univ (fun j : Fin 64 => semVal ((c : Thread nD τ), cellOfArr cc0_scratch3 j) 0)) := by
  unfold Pipeline.ownSems0
  rw [bigSep_univ_prod, Ring.bigSep_fin2]
  simp only [gcell_eq, tcell_eq]

/-- One pass of the kernel at a grid point, from its first loop to the next pass's: the two patch buffers are split
    into their slots and the two image arrays into one read share per cell, the first loop starts the 128 transfers, the
    second waits for them, the slots are joined back into the buffers — now holding the row's patches — and the run goes
    on through the pass's loads, arithmetic and stores. `$lb` is the pass; then its two regions and its two loops; then
    the names the joined buffers' contents and what they hold are given. -/
syntax "pass_tac " term:max ident ident ident ident ident ident : tactic
set_option hygiene false in
macro_rules
  | `(tactic| pass_tac $lb $ib $wb $il $wl $hgg $hgt) => `(tactic| (
  ihave Hg := (fam_intro c (Memref.whole cc0_scratch0) cc0_scratch2 (Memref.whole main_arg0) A (Memref.whole main_arg2) (Memref.whole main_arg3) Y X
    (rowW i (BitVec.ofNat 32 ($lb : Fin 8).val)).toNat (rowW_lt i $lb) (hY _ (rowW_lt i $lb)) (hX _ (rowW_lt i $lb)) (Memref.isWhole_whole _) _) $$ [Hsg HA Hsemg]
  · isplitl [Hsg]; · iexact Hsg
    isplitl [HA]; · iexact HA
    iexact Hsemg
  icases Hg with ⟨Hfg, HAr⟩
  ihave Ht := (fam_intro c (Memref.whole cc0_scratch1) cc0_scratch3 (Memref.whole main_arg1) B (Memref.whole main_arg4) (Memref.whole main_arg5) Y' X'
    (rowW i (BitVec.ofNat 32 ($lb : Fin 8).val)).toNat (rowW_lt i $lb) (hY' _ (rowW_lt i $lb)) (hX' _ (rowW_lt i $lb)) (Memref.isWhole_whole _) _) $$ [Hst HB Hsemt]
  · isplitl [Hst]; · iexact Hst
    isplitl [HB]; · iexact HB
    iexact Hsemt
  icases Ht with ⟨Hft, HBr⟩
  sl_for (issueInv c i $lb A B Y X Y' X' hY hX hY' hX') $$ [Hfg Hft HY HX HY' HX']
  · issue_step_tac $lb $ib
  · unfold issueInv; rw [stI_zero]
    isplitl [Hfg]; · iexact Hfg
    isplitl [Hft]; · iexact Hft
    isplitl [HY]; · iexact HY
    isplitl [HX]; · iexact HX
    isplitl [HY']; · iexact HY'
    iexact HX'
  iintro %acc HI
  rw [show Scf.trips ($il).lb ($il).ub ($il).st = 64 from by decide]
  unfold issueInv
  rw [stI_all_eq_stW_zero]
  icases HI with ⟨Hfg, Hft, HY, HX, HY', HX'⟩
  sl_exec
  sl_for (waitInv c i $lb A B Y X Y' X' hY hX hY' hX') $$ [Hfg Hft HO]
  · wait_step_tac $lb $wb
  · unfold waitInv
    isplitl [Hfg]; · iexact Hfg
    isplitl [Hft]; · iexact Hft
    iexists _; iexact HO
  iintro %acc HI
  rw [show Scf.trips ($wl).lb ($wl).ub ($wl).st = 64 from by decide]
  unfold waitInv
  rw [stW_all]
  icases HI with ⟨Hfg, Hft, ⟨%W1, HO⟩⟩
  ihave Hg := (fam_elim c (Memref.whole cc0_scratch0) cc0_scratch2 (Memref.whole main_arg0) A (Memref.whole main_arg2) (Memref.whole main_arg3) Y X
    (rowW i (BitVec.ofNat 32 ($lb : Fin 8).val)).toNat (rowW_lt i $lb) (hY _ (rowW_lt i $lb)) (hX _ (rowW_lt i $lb)) (Memref.isWhole_whole _)) $$ [Hfg HAr]
  · isplitl [Hfg]; · iexact Hfg
    iexact HAr
  icases Hg with ⟨%ggx, %hggx, Hsg, HA, Hsemg⟩
  have $hgg := hggx
  ihave Ht := (fam_elim c (Memref.whole cc0_scratch1) cc0_scratch3 (Memref.whole main_arg1) B (Memref.whole main_arg4) (Memref.whole main_arg5) Y' X'
    (rowW i (BitVec.ofNat 32 ($lb : Fin 8).val)).toNat (rowW_lt i $lb) (hY' _ (rowW_lt i $lb)) (hX' _ (rowW_lt i $lb)) (Memref.isWhole_whole _)) $$ [Hft HBr]
  · isplitl [Hft]; · iexact Hft
    iexact HBr
  icases Ht with ⟨%gtx, %hgtx, Hst, HB, Hsemt⟩
  have $hgt := hgtx
  sl_exec))

/-! ## The kernel's run at one grid point

From the four origin tables, the two image arrays, the two patch buffers and the 128 cells of the kernel's own semaphore
arrays at zero, with the four output blocks' staging buffers at anything: the kernel runs to its return, leaving the
tables and the arrays as they were, the patch buffers at something, the cells at zero again, and each staging buffer at
the block `outBlk` names. Every transfer a pass starts it waits for before it reads the patch buffers, and the next pass
starts only after those reads, so nothing is in flight at the return. -/

set_option maxHeartbeats 40000000 in
theorem kernelRun (c : Dev nD) (i : grid0.Coords)
    (M7 M8 M9 M10 : Memref sig .tc .vmem S8x64 .f32) (h7 : M7.IsWhole) (h8 : M8.IsWhole) (h9 : M9.IsWhole) (h10 : M10.IsWhole)
    (A : Bf (F := F) c (Memref.whole main_arg0)) (B : Bf (F := F) c (Memref.whole main_arg1))
    (Y : Bf (F := F) c (Memref.whole main_arg2)) (X : Bf (F := F) c (Memref.whole main_arg3))
    (Y' : Bf (F := F) c (Memref.whole main_arg4)) (X' : Bf (F := F) c (Memref.whole main_arg5))
    (hY : TabOK c (Memref.whole main_arg2) Y) (hX : TabOK c (Memref.whole main_arg3) X)
    (hY' : TabOK c (Memref.whole main_arg4) Y') (hX' : TabOK c (Memref.whole main_arg5) X')
    (W : Waits sig Unit) :
    iprop(pt c (Memref.whole main_arg2) Y ∗ pt c (Memref.whole main_arg3) X ∗ pt c (Memref.whole main_arg4) Y' ∗ pt c (Memref.whole main_arg5) X'
        ∗ pt c (Memref.whole main_arg0) A ∗ pt c (Memref.whole main_arg1) B
        ∗ (∃ f, pt c (Memref.whole cc0_scratch0) f) ∗ (∃ f, pt c (Memref.whole cc0_scratch1) f)
        ∗ Pipeline.ownSems0 (Ix := Unit) (Name := ℕ) (U := UU nD τ) (Lvl := ℕ) (Val := Elt F) (τ := τ) osem c
        ∗ owes (c : Thread nD τ) 0 W
        ∗ (∃ d, owns (c : Thread nD τ) M7 fullShare d) ∗ (∃ d, owns (c : Thread nD τ) M8 fullShare d)
        ∗ (∃ d, owns (c : Thread nD τ) M9 fullShare d) ∗ (∃ d, owns (c : Thread nD τ) M10 fullShare d))
      ⊢ wp frame (wpE (defs₀ (F := F)) 𝒱₀ (c : Thread nD τ) none) Set.univ
          (cc0__stats_kernel (F := F) i (Memref.whole main_arg2) (Memref.isWhole_whole _) (Memref.whole main_arg3) (Memref.isWhole_whole _)
            (Memref.whole main_arg4) (Memref.isWhole_whole _) (Memref.whole main_arg5) (Memref.isWhole_whole _)
            (Memref.whole main_arg0) (Memref.isWhole_whole _) (Memref.whole main_arg1) (Memref.isWhole_whole _)
            M7 h7 M8 h8 M9 h9 M10 h10
            (Memref.whole cc0_scratch0) (Memref.isWhole_whole _) (Memref.whole cc0_scratch1) (Memref.isWhole_whole _) cc0_scratch2 cc0_scratch3)
          fun _ =>
            iprop(pt c (Memref.whole main_arg2) Y ∗ pt c (Memref.whole main_arg3) X ∗ pt c (Memref.whole main_arg4) Y' ∗ pt c (Memref.whole main_arg5) X'
              ∗ pt c (Memref.whole main_arg0) A ∗ pt c (Memref.whole main_arg1) B
              ∗ (∃ f, pt c (Memref.whole cc0_scratch0) f) ∗ (∃ f, pt c (Memref.whole cc0_scratch1) f)
              ∗ Pipeline.ownSems0 (Ix := Unit) (Name := ℕ) (U := UU nD τ) (Lvl := ℕ) (Val := Elt F) (τ := τ) osem c
              ∗ (∃ W', owes (c : Thread nD τ) 0 W')
              ∗ owns (c : Thread nD τ) M7 fullShare (outBlk c A B Y X Y' X' hY hX hY' hX' i 0)
              ∗ owns (c : Thread nD τ) M8 fullShare (outBlk c A B Y X Y' X' hY hX hY' hX' i 1)
              ∗ owns (c : Thread nD τ) M9 fullShare (outBlk c A B Y X Y' X' hY hX hY' hX' i 2)
              ∗ owns (c : Thread nD τ) M10 fullShare (outBlk c A B Y X Y' X' hY hX hY' hX' i 3)) := by
  rw [sems_split]
  unfold owns
  iintro ⟨HY, HX, HY', HX', HA, HB, ⟨%fg, Hsg⟩, ⟨%ft, Hst⟩, ⟨Hsemg, Hsemt⟩, HO, ⟨%d7, %g7, %e7, H7⟩, ⟨%d8, %g8, %e8, H8⟩, ⟨%d9, %g9, %e9, H9⟩, ⟨%d10, %g10, %e10, H10⟩⟩
  sl_unfold [cc0__stats_kernel]
  sl_exec
  pass_tac 0 k0_t1_body k0_t2_body k0_t1_loop k0_t2_loop hgg0 hgt0
  pass_tac 1 k0_t3_body k0_t4_body k0_t3_loop k0_t4_loop hgg1 hgt1
  pass_tac 2 k0_t5_body k0_t6_body k0_t5_loop k0_t6_loop hgg2 hgt2
  pass_tac 3 k0_t7_body k0_t8_body k0_t7_loop k0_t8_loop hgg3 hgt3
  pass_tac 4 k0_t9_body k0_t10_body k0_t9_loop k0_t10_loop hgg4 hgt4
  pass_tac 5 k0_t11_body k0_t12_body k0_t11_loop k0_t12_loop hgg5 hgt5
  pass_tac 6 k0_t13_body k0_t14_body k0_t13_loop k0_t14_loop hgg6 hgt6
  pass_tac 7 k0_t15_body k0_t16_body k0_t15_loop k0_t16_loop hgg7 hgt7
  sl_step
  -- each pass's patch buffers, as the loads read them, are the row's patches
  have rg0 := (readAt_full c (Memref.whole cc0_scratch0) _ inb_S64x3x8x8_S64x3x8x8_0_0_0_0).trans hgg0
  have rt0 := (readAt_full c (Memref.whole cc0_scratch1) _ inb_S64x3x8x8_S64x3x8x8_0_0_0_0).trans hgt0
  have rg1 := (readAt_full c (Memref.whole cc0_scratch0) _ inb_S64x3x8x8_S64x3x8x8_0_0_0_0).trans hgg1
  have rt1 := (readAt_full c (Memref.whole cc0_scratch1) _ inb_S64x3x8x8_S64x3x8x8_0_0_0_0).trans hgt1
  have rg2 := (readAt_full c (Memref.whole cc0_scratch0) _ inb_S64x3x8x8_S64x3x8x8_0_0_0_0).trans hgg2
  have rt2 := (readAt_full c (Memref.whole cc0_scratch1) _ inb_S64x3x8x8_S64x3x8x8_0_0_0_0).trans hgt2
  have rg3 := (readAt_full c (Memref.whole cc0_scratch0) _ inb_S64x3x8x8_S64x3x8x8_0_0_0_0).trans hgg3
  have rt3 := (readAt_full c (Memref.whole cc0_scratch1) _ inb_S64x3x8x8_S64x3x8x8_0_0_0_0).trans hgt3
  have rg4 := (readAt_full c (Memref.whole cc0_scratch0) _ inb_S64x3x8x8_S64x3x8x8_0_0_0_0).trans hgg4
  have rt4 := (readAt_full c (Memref.whole cc0_scratch1) _ inb_S64x3x8x8_S64x3x8x8_0_0_0_0).trans hgt4
  have rg5 := (readAt_full c (Memref.whole cc0_scratch0) _ inb_S64x3x8x8_S64x3x8x8_0_0_0_0).trans hgg5
  have rt5 := (readAt_full c (Memref.whole cc0_scratch1) _ inb_S64x3x8x8_S64x3x8x8_0_0_0_0).trans hgt5
  have rg6 := (readAt_full c (Memref.whole cc0_scratch0) _ inb_S64x3x8x8_S64x3x8x8_0_0_0_0).trans hgg6
  have rt6 := (readAt_full c (Memref.whole cc0_scratch1) _ inb_S64x3x8x8_S64x3x8x8_0_0_0_0).trans hgt6
  have rg7 := (readAt_full c (Memref.whole cc0_scratch0) _ inb_S64x3x8x8_S64x3x8x8_0_0_0_0).trans hgg7
  have rt7 := (readAt_full c (Memref.whole cc0_scratch1) _ inb_S64x3x8x8_S64x3x8x8_0_0_0_0).trans hgt7
  isplitl [HY]; · iexact HY
  isplitl [HX]; · iexact HX
  isplitl [HY']; · iexact HY'
  isplitl [HX']; · iexact HX'
  isplitl [HA]; · iexact HA
  isplitl [HB]; · iexact HB
  isplitl [Hsg]; · iexists _; iexact Hsg
  isplitl [Hst]; · iexists _; iexact Hst
  isplitl [Hsemg Hsemt]
  · isplitl [Hsemg]; · iexact Hsemg
    iexact Hsemt
  isplitl [HO]; · iexists _; iexact HO
  isplitl [H7]
  · iexists _; isplitr; swap; (· iexact H7)
    ipureintro
    exact out_rows M7 g7 _ _ _ _ _ _ _ _ _ (fun x => (rowG_mean c A B Y X Y' X' hY hX hY' hX' i 0 _ rg0 x)) (fun x => (rowG_mean c A B Y X Y' X' hY hX hY' hX' i 1 _ rg1 x)) (fun x => (rowG_mean c A B Y X Y' X' hY hX hY' hX' i 2 _ rg2 x)) (fun x => (rowG_mean c A B Y X Y' X' hY hX hY' hX' i 3 _ rg3 x)) (fun x => (rowG_mean c A B Y X Y' X' hY hX hY' hX' i 4 _ rg4 x)) (fun x => (rowG_mean c A B Y X Y' X' hY hX hY' hX' i 5 _ rg5 x)) (fun x => (rowG_mean c A B Y X Y' X' hY hX hY' hX' i 6 _ rg6 x)) (fun x => (rowG_mean c A B Y X Y' X' hY hX hY' hX' i 7 _ rg7 x))
  isplitl [H8]
  · iexists _; isplitr; swap; (· iexact H8)
    ipureintro
    exact out_rows M8 g8 _ _ _ _ _ _ _ _ _ (fun x => (rowG_var c A B Y X Y' X' hY hX hY' hX' i 0 _ rg0 x)) (fun x => (rowG_var c A B Y X Y' X' hY hX hY' hX' i 1 _ rg1 x)) (fun x => (rowG_var c A B Y X Y' X' hY hX hY' hX' i 2 _ rg2 x)) (fun x => (rowG_var c A B Y X Y' X' hY hX hY' hX' i 3 _ rg3 x)) (fun x => (rowG_var c A B Y X Y' X' hY hX hY' hX' i 4 _ rg4 x)) (fun x => (rowG_var c A B Y X Y' X' hY hX hY' hX' i 5 _ rg5 x)) (fun x => (rowG_var c A B Y X Y' X' hY hX hY' hX' i 6 _ rg6 x)) (fun x => (rowG_var c A B Y X Y' X' hY hX hY' hX' i 7 _ rg7 x))
  isplitl [H9]
  · iexists _; isplitr; swap; (· iexact H9)
    ipureintro
    exact out_rows M9 g9 _ _ _ _ _ _ _ _ _ (fun x => (rowT_mean c A B Y X Y' X' hY hX hY' hX' i 0 _ rt0 x)) (fun x => (rowT_mean c A B Y X Y' X' hY hX hY' hX' i 1 _ rt1 x)) (fun x => (rowT_mean c A B Y X Y' X' hY hX hY' hX' i 2 _ rt2 x)) (fun x => (rowT_mean c A B Y X Y' X' hY hX hY' hX' i 3 _ rt3 x)) (fun x => (rowT_mean c A B Y X Y' X' hY hX hY' hX' i 4 _ rt4 x)) (fun x => (rowT_mean c A B Y X Y' X' hY hX hY' hX' i 5 _ rt5 x)) (fun x => (rowT_mean c A B Y X Y' X' hY hX hY' hX' i 6 _ rt6 x)) (fun x => (rowT_mean c A B Y X Y' X' hY hX hY' hX' i 7 _ rt7 x))
  · iexists _; isplitr; swap; (· iexact H10)
    ipureintro
    exact out_rows M10 g10 _ _ _ _ _ _ _ _ _ (fun x => (rowT_var c A B Y X Y' X' hY hX hY' hX' i 0 _ rt0 x)) (fun x => (rowT_var c A B Y X Y' X' hY hX hY' hX' i 1 _ rt1 x)) (fun x => (rowT_var c A B Y X Y' X' hY hX hY' hX' i 2 _ rt2 x)) (fun x => (rowT_var c A B Y X Y' X' hY hX hY' hX' i 3 _ rt3 x)) (fun x => (rowT_var c A B Y X Y' X' hY hX hY' hX' i 4 _ rt4 x)) (fun x => (rowT_var c A B Y X Y' X' hY hX hY' hX' i 5 _ rt5 x)) (fun x => (rowT_var c A B Y X Y' X' hY hX hY' hX' i 6 _ rt6 x)) (fun x => (rowT_var c A B Y X Y' X' hY hX hY' hX' i 7 _ rt7 x))

end Cert.Proof.KI
end
-- ==== Proof.KI.Dat.lean ====
import proofs.«403745_j3521873182816_1_alg».proof.Proof.KI.Body
import Idealize.ShloMosaic.Lib.Pipeline.Regions

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-! ## The pipeline's proof data

The four origin tables are prefetched: the pipeline runs at their contents as launched, which it holds whole while it
runs and hands back unchanged. Every word of them is an origin a whole patch fits behind (`TabsOK`: the certificate's
index-range precondition). The four windows are outputs whose blocks tile their arrays: nothing is fetched, every
point's block is written back, and the block grid point `t` writes of result `w` is `outBlk … (grid0.coords t) w`.
The invariant is the same at every point: the tables and the two image arrays at their launch contents, the two patch
buffers at anything, the 128 cells of the kernel's own semaphore arrays at zero. -/

/-- Every origin word of the four tables, as launched, is at most 504. -/
def TabsOK : Prop := ∀ c : Dev nD,
  TabOK c (Memref.whole main_arg2) (m ((c : Thread nD τ).loc main_arg2))
  ∧ TabOK c (Memref.whole main_arg3) (m ((c : Thread nD τ).loc main_arg3))
  ∧ TabOK c (Memref.whole main_arg4) (m ((c : Thread nD τ).loc main_arg4))
  ∧ TabOK c (Memref.whole main_arg5) (m ((c : Thread nD τ).loc main_arg5))

/-- The tables' contents as launched (on the one device); the pipeline's side condition on them is trivial. -/
def adm : (p : Fin 1) → (pcfgs (F := F) p).Adm :=
  fun _ => ⟨fun k => m ((((0 : Dev nD)) : Thread nD τ).loc (pre0.ref k)), trivial⟩

/-- The invariant at every point. -/
def Φc (c : Dev nD) : sProp 𝕄 :=
  iprop(pt c (Memref.whole main_arg2) (m ((c : Thread nD τ).loc main_arg2))
    ∗ pt c (Memref.whole main_arg3) (m ((c : Thread nD τ).loc main_arg3))
    ∗ pt c (Memref.whole main_arg4) (m ((c : Thread nD τ).loc main_arg4))
    ∗ pt c (Memref.whole main_arg5) (m ((c : Thread nD τ).loc main_arg5))
    ∗ pt c (Memref.whole main_arg0) (m ((c : Thread nD τ).loc main_arg0))
    ∗ pt c (Memref.whole main_arg1) (m ((c : Thread nD τ).loc main_arg1))
    ∗ Pipeline.scopedRest (Ix := Unit) (Name := ℕ) (U := UU nD τ) (Lvl := ℕ) (Val := Elt F) spec0 c
    ∗ Pipeline.ownSems0 (Ix := Unit) (Name := ℕ) (U := UU nD τ) (Lvl := ℕ) (Val := Elt F) (τ := τ) osem c)

/-- The block of result `w` that grid point `t` writes, from the launch memory. -/
abbrev blkAt (hT : TabsOK m) (c : Dev nD) (i : grid0.Coords) (w : Fin 4) : S8x64.Idx → Elt F .f32 :=
  outBlk c (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (hT c).1 (hT c).2.1 (hT c).2.2.1 (hT c).2.2.2 i w

/-- The proof data on core `c`: each result array at its launch contents; after the body at point `t` window `w`'s
    staging buffer holds the block the kernel writes there; the invariant; nothing owed; the full share. -/
def dats (ρ : Dev nD → PrngReg) (hT : TabsOK m) : (p : Fin 1) → (c : Dev nD) → Dat τ (Elt F) Unit ℕ (UU nD τ) ℕ (Pipeline.pin (pcfgs (F := F)) (adm m) p) c :=
  fun _ c =>
  { A := fun w => m ((c : Thread nD τ).loc (Pipeline.arrRef spec0 w))
    after := fun w t => match w with
      | ⟨0, _⟩ => blkAt m hT c (grid0.coords t) 0
      | ⟨1, _⟩ => blkAt m hT c (grid0.coords t) 1
      | ⟨2, _⟩ => blkAt m hT c (grid0.coords t) 2
      | ⟨3, _⟩ => blkAt m hT c (grid0.coords t) 3
      | ⟨_ + 4, h⟩ => absurd h (Nat.not_lt.2 (Nat.le_add_left _ _))
    Φ := fun _ => Φc m c
    q := fun _ => fullShare
    owed := fun _ => 0 }

section Body

variable (ρ : Dev nD → PrngReg) (hT : TabsOK m) (c : Dev nD) (t : Fin (Pipeline.pin (pcfgs (F := F)) (adm m) 0).N)

/-- The staging buffer window `w` is in at point `t`. -/
abbrev stg0 : Memref sig .tc .vmem S8x64 .f32 := ((Pipeline.pin (pcfgs (F := F)) (adm m) 0).win 0).stage ((Pipeline.pin (pcfgs (F := F)) (adm m) 0).slots t 0)
abbrev stg1 : Memref sig .tc .vmem S8x64 .f32 := ((Pipeline.pin (pcfgs (F := F)) (adm m) 0).win 1).stage ((Pipeline.pin (pcfgs (F := F)) (adm m) 0).slots t 1)
abbrev stg2 : Memref sig .tc .vmem S8x64 .f32 := ((Pipeline.pin (pcfgs (F := F)) (adm m) 0).win 2).stage ((Pipeline.pin (pcfgs (F := F)) (adm m) 0).slots t 2)
abbrev stg3 : Memref sig .tc .vmem S8x64 .f32 := ((Pipeline.pin (pcfgs (F := F)) (adm m) 0).win 3).stage ((Pipeline.pin (pcfgs (F := F)) (adm m) 0).slots t 3)

/-- The kernel's run at point `t`, in the obligation's terms. -/
theorem sound_body :
    iprop(Φc m c ∗ (dats m ρ hT 0 c).owesAt () t.castSucc
        ∗ (∃ d, owns (c : Thread nD τ) (stg0 m t) fullShare ((dats m ρ hT 0 c).before 0 t d))
        ∗ (∃ d, owns (c : Thread nD τ) (stg1 m t) fullShare ((dats m ρ hT 0 c).before 1 t d))
        ∗ (∃ d, owns (c : Thread nD τ) (stg2 m t) fullShare ((dats m ρ hT 0 c).before 2 t d))
        ∗ (∃ d, owns (c : Thread nD τ) (stg3 m t) fullShare ((dats m ρ hT 0 c).before 3 t d)))
      ⊢ wp frame (wpE (defs₀ (F := F)) 𝒱₀ (c : Thread nD τ) none) Set.univ
          (cc0__stats_kernel (F := F) (grid0.coords t) (Memref.whole main_arg2) (Memref.isWhole_whole _) (Memref.whole main_arg3) (Memref.isWhole_whole _)
            (Memref.whole main_arg4) (Memref.isWhole_whole _) (Memref.whole main_arg5) (Memref.isWhole_whole _)
            (Memref.whole main_arg0) (Memref.isWhole_whole _) (Memref.whole main_arg1) (Memref.isWhole_whole _)
            (stg0 m t) (stage_whole0 0 _) (stg1 m t) (stage_whole0 1 _) (stg2 m t) (stage_whole0 2 _) (stg3 m t) (stage_whole0 3 _)
            (Memref.whole cc0_scratch0) (Memref.isWhole_whole _) (Memref.whole cc0_scratch1) (Memref.isWhole_whole _) cc0_scratch2 cc0_scratch3)
          fun _ => iprop(Φc m c ∗ (dats m ρ hT 0 c).owesAt () t.succ
            ∗ owns (c : Thread nD τ) (stg0 m t) fullShare ((dats m ρ hT 0 c).after 0 t)
            ∗ owns (c : Thread nD τ) (stg1 m t) fullShare ((dats m ρ hT 0 c).after 1 t)
            ∗ owns (c : Thread nD τ) (stg2 m t) fullShare ((dats m ρ hT 0 c).after 2 t)
            ∗ owns (c : Thread nD τ) (stg3 m t) fullShare ((dats m ρ hT 0 c).after 3 t)) := by
  rw [show (dats m ρ hT 0 c).after 0 t = blkAt m hT c (grid0.coords t) 0 from rfl,
    show (dats m ρ hT 0 c).after 1 t = blkAt m hT c (grid0.coords t) 1 from rfl,
    show (dats m ρ hT 0 c).after 2 t = blkAt m hT c (grid0.coords t) 2 from rfl,
    show (dats m ρ hT 0 c).after 3 t = blkAt m hT c (grid0.coords t) 3 from rfl]
  unfold Φc Dat.owesAt Pipeline.owesWithin; rw [scopedRest0_eq]
  rw [show (dats m ρ hT 0 c).owed t.castSucc = 0 from rfl, show (dats m ρ hT 0 c).owed t.succ = 0 from rfl]
  iintro ⟨⟨Hy, Hx, Hy', Hx', Ha, Hb, ⟨Hs0, Hs1⟩, Hos⟩, ⟨%W, %hW, HO⟩, ⟨%d0, H0⟩, ⟨%d1, H1⟩, ⟨%d2, H2⟩, ⟨%d3, H3⟩⟩
  iapply (wp_wand_r Idealize.ShloMosaic.frame (wpE (defs₀ (F := F)) 𝒱₀ (c : Thread nD τ) none) Set.univ)
  isplitl [Hy Hx Hy' Hx' Ha Hb Hs0 Hs1 Hos HO H0 H1 H2 H3]
  · iapply (kernelRun c (grid0.coords t) (stg0 m t) (stg1 m t) (stg2 m t) (stg3 m t) (stage_whole0 0 _) (stage_whole0 1 _) (stage_whole0 2 _) (stage_whole0 3 _)
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (hT c).1 (hT c).2.1 (hT c).2.2.1 (hT c).2.2.2 W)
    isplitl [Hy]; · iexact Hy
    isplitl [Hx]; · iexact Hx
    isplitl [Hy']; · iexact Hy'
    isplitl [Hx']; · iexact Hx'
    isplitl [Ha]; · iexact Ha
    isplitl [Hb]; · iexact Hb
    isplitl [Hs0]; · iexact Hs0
    isplitl [Hs1]; · iexact Hs1
    isplitl [Hos]; · iexact Hos
    isplitl [HO]; · iexact HO
    isplitl [H0]; · iexists _; iexact H0
    isplitl [H1]; · iexists _; iexact H1
    isplitl [H2]; · iexists _; iexact H2
    iexists _; iexact H3
  · iintro %_ ⟨Hy, Hx, Hy', Hx', Ha, Hb, Hs0, Hs1, Hos, ⟨%W', HO⟩, H0, H1, H2, H3⟩
    isplitl [Hy Hx Hy' Hx' Ha Hb Hs0 Hs1 Hos]
    · isplitl [Hy]; · iexact Hy
      isplitl [Hx]; · iexact Hx
      isplitl [Hy']; · iexact Hy'
      isplitl [Hx']; · iexact Hx'
      isplitl [Ha]; · iexact Ha
      isplitl [Hb]; · iexact Hb
      isplitl [Hs0 Hs1]
      · isplitl [Hs0]; · iexact Hs0
        iexact Hs1
      iexact Hos
    isplitl [HO]
    · iexists W'; isplitr; · ipureintro; exact fun _ _ => Or.inl trivial
      iexact HO
    isplitl [H0]; · iexact H0
    isplitl [H1]; · iexact H1
    isplitl [H2]; · iexact H2
    iexact H3

/-- The library's body obligation at every point: the kernel's run. -/
theorem body_obligation : BodyObligation (dats m ρ hT 0 c) (defs₀ (F := F)) 𝒱₀ () Set.univ := fun t => by
  rw [bigSep_W0, bigSep_W0]
  exact sound_body m ρ hT c t

end Body

end Cert.Proof.KI
end
-- ==== Proof.KI.Launch.lean ====
import proofs.«403745_j3521873182816_1_alg».proof.Proof.KI.Dat
import Idealize.ShloMosaic.Lib.Pipeline.Regions
import Idealize.ShloMosaic.Lib.Pipeline.FrameSuffix

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ)

/-! ## What the host computes from the four results

The mean over all 32 × 64 patches of the squared difference of the two images' patch means, plus the same of their
patch variances: each a subtraction, a square, a sum over both axes from zero and a division by 2048. -/

/-- The scalar the 13 host operations leave, as one function of the four result arrays (generated image's means and
    variances, target's means and variances). -/
def lossK (mg vg mt vt : FVec F S32x64 .f32) : FVec F S_ .f32 :=
  addf
    (Host.divf (Host.reduceAdd (mulf (subf mg mt) (subf mg mt)) (constant S_ .f32 0x00000000#32) Facts₀.reducesTo_S32x64_S_d0_1 Facts₀.h_S_)
      (constant S_ .f32 0x45000000#32))
    (Host.divf (Host.reduceAdd (mulf (subf vg vt) (subf vg vt)) (constant S_ .f32 0x00000000#32) Facts₀.reducesTo_S32x64_S_d0_1 Facts₀.h_S_)
      (constant S_ .f32 0x45000000#32))

/-- Whatever the buffers hold before them, the host operations leave that function of the four result arrays in the
    scalar result, -/
theorem after_v9 (V : Valuation τ sig (Elt F)) :
    StableHlo.after (hostOps1 (F := F)) V (Proc.devRef .tc main_v9)
      = lossK (V (Proc.devRef .tc main_v0_0)) (V (Proc.devRef .tc main_v0_1)) (V (Proc.devRef .tc main_v0_2)) (V (Proc.devRef .tc main_v0_3)) := by
  after_results; rfl

/-- and write none of the six arguments. -/
theorem after_arg0 (V : Valuation τ sig (Elt F)) : StableHlo.after (hostOps1 (F := F)) V (Proc.devRef .tc main_arg0) = V (Proc.devRef .tc main_arg0) := by after_results
theorem after_arg1 (V : Valuation τ sig (Elt F)) : StableHlo.after (hostOps1 (F := F)) V (Proc.devRef .tc main_arg1) = V (Proc.devRef .tc main_arg1) := by after_results
theorem after_arg2 (V : Valuation τ sig (Elt F)) : StableHlo.after (hostOps1 (F := F)) V (Proc.devRef .tc main_arg2) = V (Proc.devRef .tc main_arg2) := by after_results
theorem after_arg3 (V : Valuation τ sig (Elt F)) : StableHlo.after (hostOps1 (F := F)) V (Proc.devRef .tc main_arg3) = V (Proc.devRef .tc main_arg3) := by after_results
theorem after_arg4 (V : Valuation τ sig (Elt F)) : StableHlo.after (hostOps1 (F := F)) V (Proc.devRef .tc main_arg4) = V (Proc.devRef .tc main_arg4) := by after_results
theorem after_arg5 (V : Valuation τ sig (Elt F)) : StableHlo.after (hostOps1 (F := F)) V (Proc.devRef .tc main_arg5) = V (Proc.devRef .tc main_arg5) := by after_results

/-! ## The thread states

Before the region core `c` holds its unscoped buffers at the launch memory and owes nothing. The region takes the four
result arrays into the pipeline, the four tables as prefetched, the two image arrays and the kernel's semaphores into
the invariant; the other unscoped buffers bypass it. After the region the unscoped buffers are held at the launch
memory but for the four result arrays, which are at the pipeline's final contents; the host operations run from
there. -/

/-- No core owes another anything: no level is assigned. -/
abbrev L : GSem nD τ sig → Finset Unit := fun _ => ∅
abbrev lv : GSem nD τ sig → Unit → ℕ := fun _ _ => 0

/-- Core `c`'s buffers at launch, as a valuation. -/
abbrev V₀ (c : Dev nD) : Valuation τ sig (Elt F) := fun b => m ((c : Dev nD), b)

/-- A result array's contents after the region, as the pipeline library computes them. -/
def finalA (ρ : Dev nD → PrngReg) (hT : TabsOK m) (c : Dev nD) (w : Fin 4) : Buf (Elt F) ((spec0 w).arr.view.loc (c : Thread nD τ)) :=
  (dats m ρ hT 0 c).arrAt w (Pipeline.pin (pcfgs (F := F)) (adm m) 0).N

/-- Core `c`'s buffers after the region: the result arrays at their final contents, everything else as launched. -/
abbrev V₁ (ρ : Dev nD → PrngReg) (hT : TabsOK m) (c : Dev nD) : Valuation τ sig (Elt F) :=
  Pipeline.withArrays spec0 c (V₀ m c) (finalA m ρ hT c)

/-- The core owing nothing. -/
abbrev R₀ (c : Dev nD) : sProp 𝕄 := iprop(∃ W, owes (c : Thread nD τ) (0 : CellTallies nD τ sig Unit) W)

/-- The unscoped buffers that are no result array, no table and no image array, at contents `V`: they bypass the region. -/
abbrev Zc (c : Dev nD) (V : (b : Ref sig .tc) → Buf (Elt F) ((c : Thread nD τ).loc b)) : sProp 𝕄 :=
  iprop((((c : Thread nD τ).loc main_v1) ↦{fullShare} V main_v1)
    ∗ (((c : Thread nD τ).loc main_v2) ↦{fullShare} V main_v2)
    ∗ (((c : Thread nD τ).loc main_cst) ↦{fullShare} V main_cst)
    ∗ (((c : Thread nD τ).loc main_v3) ↦{fullShare} V main_v3)
    ∗ (((c : Thread nD τ).loc main_cst_0) ↦{fullShare} V main_cst_0)
    ∗ (((c : Thread nD τ).loc main_v4) ↦{fullShare} V main_v4)
    ∗ (((c : Thread nD τ).loc main_v5) ↦{fullShare} V main_v5)
    ∗ (((c : Thread nD τ).loc main_v6) ↦{fullShare} V main_v6)
    ∗ (((c : Thread nD τ).loc main_cst_1) ↦{fullShare} V main_cst_1)
    ∗ (((c : Thread nD τ).loc main_v7) ↦{fullShare} V main_v7)
    ∗ (((c : Thread nD τ).loc main_cst_2) ↦{fullShare} V main_cst_2)
    ∗ (((c : Thread nD τ).loc main_v8) ↦{fullShare} V main_v8)
    ∗ (((c : Thread nD τ).loc main_v9) ↦{fullShare} V main_v9))

/-- The four tables held whole at the contents the pipeline runs at are the four tables at the launch memory. -/
theorem tables_eq (c : Dev nD) :
    (Pipeline.prefHeld pre0 c (fun _ => fullShare) (adm m 0).1 : sProp 𝕄)
      = iprop(pt c (Memref.whole main_arg2) (m ((c : Thread nD τ).loc main_arg2))
          ∗ pt c (Memref.whole main_arg3) (m ((c : Thread nD τ).loc main_arg3))
          ∗ pt c (Memref.whole main_arg4) (m ((c : Thread nD τ).loc main_arg4))
          ∗ pt c (Memref.whole main_arg5) (m ((c : Thread nD τ).loc main_arg5))) := by
  obtain rfl : c = 0 := Subsingleton.elim _ _
  unfold Pipeline.prefHeld
  exact bigSep_W0 _

/-- The launch's unscoped buffers at a valuation, taken apart: the result arrays, the tables, the image arrays, the rest. -/
theorem unscoped_split (ρ : Dev nD → PrngReg) (hT : TabsOK m) (c : Dev nD) (W : Valuation τ sig (Elt F)) :
    (StableHlo.held (c : Thread nD τ) (Pipeline.ucRefs τ sig) W : sProp 𝕄)
      = iprop((dats m ρ hT 0 c).arrays (fun w => W (Proc.devRef .tc (Pipeline.arrRef spec0 w)))
          ∗ Pipeline.prefHeld pre0 c (fun _ => fullShare) (fun k => W (Proc.devRef .tc (pre0.ref k)))
          ∗ (((c : Thread nD τ).loc main_arg0) ↦{fullShare} W (Proc.devRef .tc main_arg0))
          ∗ (((c : Thread nD τ).loc main_arg1) ↦{fullShare} W (Proc.devRef .tc main_arg1))
          ∗ Zc c (fun b => W (Proc.devRef .tc b))) := by
  rw [← Pipeline.unscopedBufs_held (Ix := Unit) (Name := ℕ) (U := UU nD τ) (Lvl := ℕ) c W,
    Pipeline.unscopedBufs_split (Pipeline.pin (pcfgs (F := F)) (adm m)) 0 (launch0 (F := F)).win.arr_unscoped (launch0 (F := F)).win.arr_inj c _,
    Pipeline.unscopedRest_split (launch0 (F := F)).pre c _, unscopedRestP0_eq,
    Pipeline.arrays_eq (Pipeline.pin (pcfgs (F := F)) (adm m)) (dats m ρ hT) 0 c (launch0 (F := F)).arr_whole ((dats m ρ hT 0 c).share_full fun _ => rfl)]

/-- The region's exit state: the unscoped buffers at `V₁` are the result arrays at their final contents and everything
    else as launched. -/
theorem held_V₁ (ρ : Dev nD → PrngReg) (hT : TabsOK m) (c : Dev nD) :
    (StableHlo.held (c : Thread nD τ) (Pipeline.ucRefs τ sig) (V₁ m ρ hT c) : sProp 𝕄)
      = iprop((dats m ρ hT 0 c).arrays (finalA m ρ hT c)
          ∗ Pipeline.prefHeld pre0 c (fun _ => fullShare) (adm m 0).1
          ∗ (((c : Thread nD τ).loc main_arg0) ↦{fullShare} m ((c : Thread nD τ).loc main_arg0))
          ∗ (((c : Thread nD τ).loc main_arg1) ↦{fullShare} m ((c : Thread nD τ).loc main_arg1))
          ∗ Zc c (fun b => V₀ m c (Proc.devRef .tc b))) := by
  have hne : ∀ (b : Ref sig .tc), (∀ w, Pipeline.arrRef spec0 w ≠ b) → V₁ m ρ hT c (Proc.devRef .tc b) = V₀ m c (Proc.devRef .tc b) :=
    fun b hb => Pipeline.withArrays_of_ne spec0 c (V₀ m c) (finalA m ρ hT c) b hb
  rw [unscoped_split m ρ hT c]
  rw [show (fun w => V₁ m ρ hT c (Proc.devRef .tc (Pipeline.arrRef spec0 w))) = finalA m ρ hT c from
      funext fun w => Pipeline.withArrays_arr spec0 (launch0 (F := F)).win.arr_inj c (V₀ m c) (finalA m ρ hT c) w,
    show (fun k => V₁ m ρ hT c (Proc.devRef .tc (pre0.ref k))) = (adm m 0).1 from funext fun k => by
      rw [hne (pre0.ref k) fun w e => (launch0 (F := F)).pre.disj k w e.symm]
      obtain rfl : c = 0 := Subsingleton.elim _ _
      rfl]
  dsimp only [Zc]
  rw [hne main_arg0 (by decide), hne main_arg1 (by decide),
    hne main_v1 (by decide), hne main_v2 (by decide), hne main_cst (by decide), hne main_v3 (by decide), hne main_cst_0 (by decide),
    hne main_v4 (by decide), hne main_v5 (by decide), hne main_v6 (by decide), hne main_cst_1 (by decide), hne main_v7 (by decide),
    hne main_cst_2 (by decide), hne main_v8 (by decide), hne main_v9 (by decide)]

/-! ## The segments -/

/-- The layout the launch needs of the kernel's own semaphores: scoped, distinct, and no staging semaphore. -/
theorem ownSemFacts : Pipeline.OwnSemFacts spec0 osem := by decide +kernel

/-- The launch element: the pipeline library's at the staging cells; no counter yet. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

set_option backward.isDefEq.respectTransparency.types false in
/-- THE REGION: entered from the launch state — the result arrays into the pipeline, the tables as prefetched, the image
    arrays and the kernel's semaphores into the invariant, the rest bypassing —, left with the unscoped buffers at `V₁`. -/
def reg0 (ρ : Dev nD → PrngReg) (hT : TabsOK m) : Pipeline.RegionSeg (pcfgs (F := F)) (adm m) (dats m ρ hT) () defs₀ 𝒱₀ L lv 0 where
  win := (launch0 (F := F)).win.to₀
  block_pos := (launch0 (F := F)).block_pos
  stage_whole := (launch0 (F := F)).stage_whole
  K := Fin 2 × Fin 64
  osem := osem
  ho := ownSemFacts
  hbody c := (body_obligation m ρ hT c).loose
  hwaits := Pipeline.hwaits_of_owed_zero _ _ _ _ L lv 0 fun _ _ => rfl
  pre c := iprop(StableHlo.held (c : Thread nD τ) (Pipeline.ucRefs τ sig) (V₀ m c) ∗ R₀ c)
  post c := iprop(StableHlo.held (c : Thread nD τ) (Pipeline.ucRefs τ sig) (V₁ m ρ hT c) ∗ R₀ c)
  X c := iprop(pt c (Memref.whole main_arg0) (m ((c : Thread nD τ).loc main_arg0)) ∗ pt c (Memref.whole main_arg1) (m ((c : Thread nD τ).loc main_arg1))
    ∗ Pipeline.ownSems0 (Ix := Unit) (Name := ℕ) (U := UU nD τ) (Lvl := ℕ) (Val := Elt F) (τ := τ) osem c)
  Y c := iprop(Pipeline.prefHeld pre0 c (fun _ => fullShare) (adm m 0).1
    ∗ pt c (Memref.whole main_arg0) (m ((c : Thread nD τ).loc main_arg0)) ∗ pt c (Memref.whole main_arg1) (m ((c : Thread nD τ).loc main_arg1)))
  Z c := Zc c (fun b => V₀ m c (Proc.devRef .tc b))
  hentry c := by
    rw [unscoped_split m ρ hT c]
    iintro ⟨⟨⟨Ha, Htb, H0, H1, Hz⟩, HO⟩, Hos, -⟩
    imodintro
    isplitl [Ha]; · iexact Ha
    isplitl [Htb]
    · obtain rfl : c = 0 := Subsingleton.elim _ _
      iexact Htb
    isplitl [HO]
    · unfold Pipeline.Dat.owesAt Pipeline.owesWithin
      icases HO with ⟨%W, HO⟩; iexists W; isplitr; · ipureintro; exact fun _ _ => Or.inl trivial
      iexact HO
    isplitl [H0 H1 Hos]
    · isplitl [H0]; · iexact H0
      isplitl [H1]; · iexact H1
      iexact Hos
    iexact Hz
  hin c := by
    rw [show (dats m ρ hT 0 c).Φ 0 = Φc m c from rfl, tables_eq]; unfold Φc
    iintro ⟨⟨H0, H1, Hos⟩, ⟨Hy, Hx, Hy', Hx'⟩, Hr⟩
    isplitl [Hy]; · iexact Hy
    isplitl [Hx]; · iexact Hx
    isplitl [Hy']; · iexact Hy'
    isplitl [Hx']; · iexact Hx'
    isplitl [H0]; · iexact H0
    isplitl [H1]; · iexact H1
    isplitl [Hr]; · iexact Hr
    iexact Hos
  hout c := by
    rw [show (dats m ρ hT 0 c).Φ (Fin.last (Pipeline.pin (pcfgs (F := F)) (adm m) 0).N) = Φc m c from rfl, tables_eq]; unfold Φc
    iintro ⟨Hy, Hx, Hy', Hx', H0, H1, Hr, Hos⟩
    isplitl [Hy Hx Hy' Hx' H0 H1]
    · isplitl [Hy Hx Hy' Hx']
      · isplitl [Hy]; · iexact Hy
        isplitl [Hx]; · iexact Hx
        isplitl [Hy']; · iexact Hy'
        iexact Hx'
      isplitl [H0]; · iexact H0
      iexact H1
    isplitl [Hos]; · iexact Hos
    iexact Hr
  hexit c := by
    rw [held_V₁ m ρ hT c]
    iintro ⟨Ha, HO, ⟨Htb, H0, H1⟩, Hz⟩
    imodintro
    isplitr [HO]
    · isplitl [Ha]; · iexact Ha
      isplitl [Htb]; · iexact Htb
      isplitl [H0]; · iexact H0
      isplitl [H1]; · iexact H1
      iexact Hz
    · unfold Pipeline.Dat.owesAt Pipeline.owesWithin
      icases HO with ⟨%W, -, HO⟩; iexists W; iexact HO

/-- No host operation allocates. -/
theorem hostOps1_fresh : ∀ op ∈ (hostOps1 (F := F)), op.fresh = ∅ := by
  intro op hop
  simp only [List.mem_cons, List.mem_nil_iff, or_false] at hop
  rcases hop with rfl | rfl | rfl | rfl | rfl | rfl | rfl | rfl | rfl | rfl | rfl | rfl | rfl <;> rfl

/-- THE HOST SEGMENT: the 13 operations over the unscoped buffers, from the region's exit state. -/
def seg1 (ρ : Dev nD → PrngReg) (hT : TabsOK m) : Pipeline.HostSeg (Name := ℕ) (U := UU nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    hostOps1_fresh (V₁ m ρ hT) R₀

/-- @main as the list of the two. -/
abbrev segs (ρ : Dev nD → PrngReg) (hT : TabsOK m) : List (Pipeline.Seg (pcfgs (F := F)) (adm m) (dats m ρ hT) () defs₀ 𝒱₀ L lv) :=
  [.region (reg0 m ρ hT), .host (seg1 m ρ hT)]

/-- An unscoped reference is among the buffers the host operations run within. -/
theorem mem_ucRefs (b : Ref sig .tc) (hb : b.isScoped = false) : Proc.devRef (τ := τ) .tc b ∈ Pipeline.ucRefs τ sig :=
  Finset.mem_filter.mpr ⟨StableHlo.devRef_mem_tcRefs b, fun h => Bool.false_ne_true (hb.symm.trans h)⟩

set_option backward.isDefEq.respectTransparency.types false in
/-- At the compiled mesh, for any float values, from any memory with zero counters whose tables' words are origins a
    whole patch fits behind: every weakly fair execution of @main on the TensorCores terminates, and every final state
    has the scalar result at the host's function of the four result arrays as the pipeline leaves them, and the six
    arguments unchanged. -/
theorem run_main (ρ : Dev nD → PrngReg) (hT : TabsOK m) :
    θ_run (defs (F := F)) (onTc (τ := τ) (main (F := F))) ⟨m, fun _ => 0, ρ⟩ (fun r => ∀ c : Dev nD,
      r.2.mem ((c : Thread nD τ).loc main_v9) = lossK (finalA m ρ hT c 0) (finalA m ρ hT c 1) (finalA m ρ hT c 2) (finalA m ρ hT c 3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  Pipeline.θ_run_regions_kit (pcfgs (F := F)) (adm m) (dats m ρ hT) () (cellOf_inj (adm m)) EP defs₀ 𝒱₀ L lv m ρ main (segs m ρ hT)
    (fun c Q => by rw [main_segs (adm m) (dats m ρ hT) () 𝒱₀ L lv (seg1 m ρ hT) (reg0 m ρ hT) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R₀ c))
    (Tₙ := fun c => StableHlo.held (c : Thread nD τ) (Pipeline.ucRefs τ sig) (StableHlo.after hostOps1 (V₁ m ρ hT c)))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from
        Pipeline.unscopedBufs_held c (V₀ m c)]
      iintro ⟨⟨Hh, -, HO, -, -, -⟩, -⟩
      imodintro
      isplitl [Hh]; · iexact Hh
      iexists ∅; iexact HO)
    (QY := fun c s =>
      s.mem ((c : Thread nD τ).loc main_v9) = lossK (finalA m ρ hT c 0) (finalA m ρ hT c 1) (finalA m ρ hT c 2) (finalA m ρ hT c 3)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5))
    (hfin := fun c s' => by
      have hne : ∀ (b : Ref sig .tc), (∀ w, Pipeline.arrRef spec0 w ≠ b) → V₁ m ρ hT c (Proc.devRef .tc b) = m ((c : Thread nD τ).loc b) :=
        fun b hb => Pipeline.withArrays_of_ne spec0 c (V₀ m c) (finalA m ρ hT c) b hb
      have harr : ∀ w, V₁ m ρ hT c (Proc.devRef .tc (Pipeline.arrRef spec0 w)) = finalA m ρ hT c w :=
        fun w => Pipeline.withArrays_arr spec0 (launch0 (F := F)).win.arr_inj c (V₀ m c) (finalA m ρ hT c) w
      unfold StableHlo.held
      iintro ⟨Hh, HSI⟩
      ihave Hr := (pointsTo_read_all (Pipeline.ucRefs τ sig) (fun b => ((c : Thread nD τ).1, b)) (StableHlo.after hostOps1 (V₁ m ρ hT c)) s') $$ [Hh HSI]
      · isplitl [Hh] <;> iassumption
      icases Hr with ⟨%hr, HSI⟩
      imodintro
      isplitr
      · ipureintro
        refine ⟨(hr _ (mem_ucRefs main_v9 (by decide))).trans ?_, (hr _ (mem_ucRefs main_arg0 (by decide))).trans ?_,
          (hr _ (mem_ucRefs main_arg1 (by decide))).trans ?_, (hr _ (mem_ucRefs main_arg2 (by decide))).trans ?_,
          (hr _ (mem_ucRefs main_arg3 (by decide))).trans ?_, (hr _ (mem_ucRefs main_arg4 (by decide))).trans ?_,
          (hr _ (mem_ucRefs main_arg5 (by decide))).trans ?_⟩
        · rw [after_v9]; exact congr (congr (congr (congrArg lossK (harr 0)) (harr 1)) (harr 2)) (harr 3)
        · rw [after_arg0]; exact hne main_arg0 (by decide)
        · rw [after_arg1]; exact hne main_arg1 (by decide)
        · rw [after_arg2]; exact hne main_arg2 (by decide)
        · rw [after_arg3]; exact hne main_arg3 (by decide)
        · rw [after_arg4]; exact hne main_arg4 (by decide)
        · rw [after_arg5]; exact hne main_arg5 (by decide)
      iexact HSI)
    (hQ := fun _ h => h)

end Cert.Proof.KI
end
-- ==== Proof.KI.PreOK.lean ====
import proofs.«403745_j3521873182816_1_alg».proof.Proof.KI.Dat
import proofs.«403745_j3521873182816_1_alg».proof.Proof.Tex.PreDecode
import Idealize.ShloMosaic.Lib.ValueIdx

noncomputable section

namespace Cert.Proof.KI

open Cert.KernelIdeal Cert.KernelIdeal.Gen
open Idealize.ShloMosaic Idealize.ShloMosaic.ValueIdx
open Idealize.ShloMosaic.TcCoe

variable {F : FTy → Type} [FloatOps F]

/-! ## The printed precondition gives the tables' index range

A whole table read at the unit rectangle `[R, j]` is its entry at `(R, j)`, at any float instance (the tables hold
integer words). The printed precondition bounds every entry of the four tables by 504 on every device, which is the
index-range condition the kernel's run takes. -/

theorem wordAtF_whole2 (c : Dev nD) (Yc : Bf (F := F) c (Memref.whole main_arg2)) (R : ℕ) (hR : R < 32) (j : Fin 64) :
    wordAt c (Memref.whole main_arg2) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega
theorem wordAtF_whole3 (c : Dev nD) (Yc : Bf (F := F) c (Memref.whole main_arg3)) (R : ℕ) (hR : R < 32) (j : Fin 64) :
    wordAt c (Memref.whole main_arg3) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega
theorem wordAtF_whole4 (c : Dev nD) (Yc : Bf (F := F) c (Memref.whole main_arg4)) (R : ℕ) (hR : R < 32) (j : Fin 64) :
    wordAt c (Memref.whole main_arg4) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega
theorem wordAtF_whole5 (c : Dev nD) (Yc : Bf (F := F) c (Memref.whole main_arg5)) (R : ℕ) (hR : R < 32) (j : Fin 64) :
    wordAt c (Memref.whole main_arg5) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega

/-- Under the printed precondition every origin word of the four tables, as launched, is at most 504. -/
theorem tabsOK_of_pre (m : (ℓ : Loc nD τ sig) → Buf (Elt F) ℓ)
    (h : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    TabsOK m := by
  intro c
  obtain ⟨h2, h3, h4, h5⟩ := Cert.Proof.Tex.origins_le_504 _ _ _ _ _ _ (h c)
  refine ⟨fun R hR j => ?_, fun R hR j => ?_, fun R hR j => ?_, fun R hR j => ?_⟩
  · rw [wordAtF_whole2]; exact h2 _
  · rw [wordAtF_whole3]; exact h3 _
  · rw [wordAtF_whole4]; exact h4 _
  · rw [wordAtF_whole5]; exact h5 _

end Cert.Proof.KI
end
-- ==== Proof.Tex.Spec.lean ====
/-
  What both programs compute, as functions of the argument arrays over the extended reals.

  An image array `A : [32, 3, 512, 512]` and two tables of row and column origins `Y X : [32, 64]` (32-bit words) name,
  for image `b` and patch `n`, the 3 × 8 × 8 block of `A` at rows `Y[b, n] … Y[b, n] + 7` and columns `X[b, n] … X[b, n] + 7`.
  Of each block: the sum of its 192 entries and of their squares, the mean (sum / 192), and the unbiased variance in two
  forms — the one-pass form `(Σ x² − 192 · mean · mean) / 191` and the two-pass form `Σ (x − mean)² / 191`. The two agree
  when the entries are real numbers (`pvar1_eq_pvar2`, in Proof/Tex/Algebra.lean). The final result is the mean
  over the 32 × 64 patches of the squared difference of the two images' means, plus the same of their variances.
-/
import Idealize.ShloMosaic.PureOps.Ideal
import Idealize.ShloMosaic.Lib.ValueIdx

noncomputable section

namespace Cert.Proof.Tex

open Idealize.ShloMosaic Idealize.ShloMosaic.ValueIdx

/-- The image arrays' shape, the origin tables' shape, a scalar's. -/
abbrev SImg : Shape := ⟨4, ![32, 3, 512, 512]⟩
abbrev STab : Shape := ⟨2, ![32, 64]⟩
abbrev SSc : Shape := ⟨0, ![]⟩

/-- Entry `(c, h, w)` of patch `n` of image `b`. The row and the column are taken modulo 512 so that the function is
    total; when every origin is at most 504 nothing wraps. -/
def patch (A : SImg.Idx → EReal) (Y X : STab.Idx → BitVec 32) (b : Fin 32) (n : Fin 64) (c : Fin 3) (h w : Fin 8) : EReal :=
  A (ix4 b c ⟨((Y (ix2 b n)).toNat + h.val) % 512, Nat.mod_lt _ (by decide)⟩ ⟨((X (ix2 b n)).toNat + w.val) % 512, Nat.mod_lt _ (by decide)⟩)

/-- The sum of a patch's 192 entries, channel by channel, row by row. -/
def psum (A : SImg.Idx → EReal) (Y X : STab.Idx → BitVec 32) (b : Fin 32) (n : Fin 64) : EReal :=
  ∑ c : Fin 3, ∑ h : Fin 8, ∑ w : Fin 8, patch A Y X b n c h w

/-- The sum of their squares. -/
def psq (A : SImg.Idx → EReal) (Y X : STab.Idx → BitVec 32) (b : Fin 32) (n : Fin 64) : EReal :=
  ∑ c : Fin 3, ∑ h : Fin 8, ∑ w : Fin 8, patch A Y X b n c h w * patch A Y X b n c h w

/-- 192 and 191 as the programs spell them. -/
abbrev c192 : EReal := Ideal.ofBits .f32 0x43400000#32
abbrev c191 : EReal := Ideal.ofBits .f32 0x433F0000#32

/-- A patch's mean. -/
def pmean (A : SImg.Idx → EReal) (Y X : STab.Idx → BitVec 32) (b : Fin 32) (n : Fin 64) : EReal :=
  Ideal.div (psum A Y X b n) c192

/-- Its unbiased variance, one pass: `(Σ x² − 192 · mean · mean) / 191`. -/
def pvar1 (A : SImg.Idx → EReal) (Y X : STab.Idx → BitVec 32) (b : Fin 32) (n : Fin 64) : EReal :=
  Ideal.div (psq A Y X b n - c192 * pmean A Y X b n * pmean A Y X b n) c191

/-- Its unbiased variance, two passes: `Σ (x − mean)² / 191`. -/
def pvar2 (A : SImg.Idx → EReal) (Y X : STab.Idx → BitVec 32) (b : Fin 32) (n : Fin 64) : EReal :=
  Ideal.div (∑ c : Fin 3, ∑ h : Fin 8, ∑ w : Fin 8,
    (patch A Y X b n c h w - pmean A Y X b n) * (patch A Y X b n c h w - pmean A Y X b n)) c191

/-- The four statistics as arrays over `[32, 64]`. -/
def meanArr (A : SImg.Idx → EReal) (Y X : STab.Idx → BitVec 32) : STab.Idx → EReal := fun j => pmean A Y X (j 0) (j 1)
def var1Arr (A : SImg.Idx → EReal) (Y X : STab.Idx → BitVec 32) : STab.Idx → EReal := fun j => pvar1 A Y X (j 0) (j 1)
def var2Arr (A : SImg.Idx → EReal) (Y X : STab.Idx → BitVec 32) : STab.Idx → EReal := fun j => pvar2 A Y X (j 0) (j 1)

/-- The programs' common last stretch: the mean over all patches of the squared difference of the means, plus that of
    the variances — the host operations both programs end with, on the four statistics. -/
def loss (hr : STab.ReducesTo [0, 1] SSc) (h0 : 0 < SSc.numel) (mg vg mt vt : FVec Ideal STab .f32) : FVec Ideal SSc .f32 :=
  addf
    (Host.divf (Host.reduceAdd (mulf (subf mg mt) (subf mg mt)) (constant (F := Ideal) SSc .f32 0x00000000#32) hr h0) (constant (F := Ideal) SSc .f32 0x45000000#32))
    (Host.divf (Host.reduceAdd (mulf (subf vg vt) (subf vg vt)) (constant (F := Ideal) SSc .f32 0x00000000#32) hr h0) (constant (F := Ideal) SSc .f32 0x45000000#32))

end Cert.Proof.Tex

end
-- ==== Proof.Tex.Algebra.lean ====
/-
  The algebra of one patch: the float constants the programs spell denote the reals 192 and 191, and the one-pass and
  the two-pass unbiased variance of 192 real entries agree over the extended reals. Also the regrouping of a sum over
  the 192 row-major positions of a 3 × 8 × 8 block into the nested sum over channel, row and column.
-/
import proofs.«403745_j3521873182816_1_alg».proof.Proof.Tex.Spec
import Mathlib.Data.EReal.Inv
import Mathlib.Algebra.BigOperators.Fin
import Mathlib.Algebra.BigOperators.Ring.Finset
import Mathlib.Data.Fintype.BigOperators
import Mathlib.Tactic.Ring
import Mathlib.Tactic.NormNum
import Mathlib.Tactic.Linarith

noncomputable section

namespace Cert.Proof.Tex

open Idealize.ShloMosaic Idealize.ShloMosaic.ValueIdx

/-- The pattern `0x43400000` is `1.5 · 2⁷`, the real 192. -/
theorem c192_eq : c192 = ((192 : ℝ) : EReal) := by
  simp [c192, Ideal.ofBits, Ideal.ieee, -EReal.coe_mul]; norm_num

/-- The pattern `0x433F0000` is `(2²³ + 0x3F0000) · 2⁻¹⁶`, the real 191. -/
theorem c191_eq : c191 = ((191 : ℝ) : EReal) := by
  simp [c191, Ideal.ofBits, Ideal.ieee, -EReal.coe_mul]; norm_num

/-- A finite sum of reals, read in the extended reals, is the sum of the readings. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over the reals: with `m = (Σ x) / 192`, `Σ x² − 192 · m · m = Σ (x − m)²` for 192 entries `x`. -/
theorem var_real (p : Fin 3 → Fin 8 → Fin 8 → ℝ) (m : ℝ) (hm : m = (∑ c, ∑ h, ∑ w, p c h w) * (1 / 192)) :
    (∑ c, ∑ h, ∑ w, p c h w * p c h w) - 192 * m * m
      = ∑ c, ∑ h, ∑ w, (p c h w - m) * (p c h w - m) := by
  have hS : (∑ c, ∑ h, ∑ w, p c h w) = 192 * m := by rw [hm]; ring
  have hsq : ∀ c h w, (p c h w - m) * (p c h w - m) = p c h w * p c h w - 2 * m * p c h w + m * m := by
    intros; ring
  simp only [hsq, Finset.sum_add_distrib, Finset.sum_sub_distrib, ← Finset.mul_sum, Finset.sum_const,
    Finset.card_univ, Fintype.card_fin, nsmul_eq_mul]
  rw [hS]; push_cast; ring

theorem pvar1_eq_pvar2 (A : SImg.Idx → EReal) (Y X : STab.Idx → BitVec 32) (b : Fin 32) (n : Fin 64)
    (hfin : ∀ i, ∃ r : ℝ, A i = (r : EReal)) : pvar1 A Y X b n = pvar2 A Y X b n := by
  choose r hr using hfin
  -- the 192 entries as reals
  obtain ⟨p, hp⟩ : ∃ p : Fin 3 → Fin 8 → Fin 8 → ℝ, ∀ c h w, patch A Y X b n c h w = ((p c h w : ℝ) : EReal) :=
    ⟨fun c h w => r _, fun c h w => hr _⟩
  have h192 : (192 : ℝ) ≠ 0 := by norm_num
  have h191 : (191 : ℝ) ≠ 0 := by norm_num
  have hmean : pmean A Y X b n = (((∑ c, ∑ h, ∑ w, p c h w) * (1 / 192) : ℝ) : EReal) := by
    simp only [pmean, psum, hp, sum_coe, c192_eq, Ideal.div_coe h192, ← EReal.coe_mul]
  rw [pvar1, pvar2, hmean]
  simp only [psq, hp, c191_eq, c192_eq, Ideal.div_coe h191, ← EReal.coe_mul, ← EReal.coe_sub, sum_coe]
  rw [var_real p _ rfl]

theorem var1Arr_eq_var2Arr (A : SImg.Idx → EReal) (Y X : STab.Idx → BitVec 32)
    (hfin : ∀ i, ∃ r : ℝ, A i = (r : EReal)) : var1Arr A Y X = var2Arr A Y X := by
  funext j
  exact pvar1_eq_pvar2 A Y X (j 0) (j 1) hfin

/-- a sum over the 192 row-major positions j = c·64 + h·8 + w of a 3×8×8 block is the nested sum -/
theorem sum_flat192 {M : Type*} [AddCommMonoid M] (f : Fin 3 → Fin 8 → Fin 8 → M) :
    (∑ j : Fin 192, f ⟨j.val / 64, by omega⟩ ⟨j.val / 8 % 8, by omega⟩ ⟨j.val % 8, by omega⟩)
      = ∑ c : Fin 3, ∑ h : Fin 8, ∑ w : Fin 8, f c h w := by
  -- position j ↔ (channel, row, column): j = c · 64 + h · 8 + w
  let e : Fin 192 ≃ Fin 3 × Fin 8 × Fin 8 :=
    { toFun := fun j => (⟨j.val / 64, by omega⟩, ⟨j.val / 8 % 8, by omega⟩, ⟨j.val % 8, by omega⟩)
      invFun := fun x => ⟨x.1.val * 64 + x.2.1.val * 8 + x.2.2.val, by omega⟩
      left_inv := fun j => by apply Fin.ext; simp only; omega
      right_inv := fun x => by
        obtain ⟨c, h, w⟩ := x
        refine Prod.ext (Fin.ext ?_) (Prod.ext (Fin.ext ?_) (Fin.ext ?_)) <;> simp only <;> omega }
  calc (∑ j : Fin 192, f ⟨j.val / 64, by omega⟩ ⟨j.val / 8 % 8, by omega⟩ ⟨j.val % 8, by omega⟩)
      = ∑ x : Fin 3 × Fin 8 × Fin 8, f x.1 x.2.1 x.2.2 := Fintype.sum_equiv e _ _ (fun j => rfl)
    _ = ∑ c : Fin 3, ∑ h : Fin 8, ∑ w : Fin 8, f c h w := by
        rw [Fintype.sum_prod_type]
        refine Finset.sum_congr rfl (fun c _ => ?_)
        rw [Fintype.sum_prod_type]

end Cert.Proof.Tex

end
-- ==== Proof.KI.Value.lean ====
import proofs.«403745_j3521873182816_1_alg».proof.Proof.KI.Out
import proofs.«403745_j3521873182816_1_alg».proof.Proof.Tex.Spec
import proofs.«403745_j3521873182816_1_alg».proof.Proof.Tex.Algebra
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KI.Val

open Cert.KernelIdeal Cert.KernelIdeal.Gen
open Idealize.ShloMosaic Idealize.ShloMosaic.ValueIdx
open Idealize.ShloMosaic.TcCoe
open Cert.Proof.Tex Cert.Proof.KI

/-! # The kernel's value leg at the ideal instance

What the kernel leaves in its result arrays, as the specification's functions of the argument arrays, over the extended
reals. Three steps: the patch buffer of an image row holds the specification's patch entries (a transfer reads the
`[1, 3, 8, 8]` block of the image at the origins the tables hold, and an origin of at most 504 never wraps modulo 512); the
kernel's three sums over column, row and channel are the specification's nested sum, so its mean and one-pass variance are
the specification's; hence each `[8, 64]` block a grid point writes holds the means or variances of the patches of its
eight rows. -/

/-! ## Table words and source blocks at an index -/

/-- The word a whole table holds at the unit rectangle `[R, j]` is its entry at `(R, j)`. -/
theorem wordAt_whole2 (c : Dev nD) (Yc : Bf (F := Ideal) c (Memref.whole main_arg2)) (R : ℕ) (hR : R < 32) (j : Fin 64) :
    wordAt c (Memref.whole main_arg2) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega
theorem wordAt_whole3 (c : Dev nD) (Yc : Bf (F := Ideal) c (Memref.whole main_arg3)) (R : ℕ) (hR : R < 32) (j : Fin 64) :
    wordAt c (Memref.whole main_arg3) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega
theorem wordAt_whole4 (c : Dev nD) (Yc : Bf (F := Ideal) c (Memref.whole main_arg4)) (R : ℕ) (hR : R < 32) (j : Fin 64) :
    wordAt c (Memref.whole main_arg4) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega
theorem wordAt_whole5 (c : Dev nD) (Yc : Bf (F := Ideal) c (Memref.whole main_arg5)) (R : ℕ) (hR : R < 32) (j : Fin 64) :
    wordAt c (Memref.whole main_arg5) Yc R hR j = Yc (ix2 (⟨R, hR⟩ : Fin 32) j) := by
  unfold wordAt
  rw [View.readAt_apply]
  show Yc _ = Yc _
  refine congrArg Yc (funext fun a => Fin.ext ?_)
  match a with
  | ⟨0, _⟩ => show R + 1 * 0 = R; omega
  | ⟨1, _⟩ => show j.val + 1 * 0 = j.val; omega

/-- Coordinates 1, 2, 3 of `(n, ch, h, w)` are `(ch, h, w)`. -/
theorem tail_ix4 (n : Fin 64) (ch : Fin 3) (h w : Fin 8) :
    ((fun a : Fin 3 => ix4 n ch h w a.succ) : S3x8x8.Idx) = ix3 ch h w := by
  funext a
  match a with
  | ⟨0, _⟩ => rfl
  | ⟨1, _⟩ => rfl
  | ⟨2, _⟩ => rfl

/-- The `[1, 3, 8, 8]` block of the generated image at row `R` and origins `y`, `x`, squeezed, read at `(ch, h, w)`:
    the image's entry `[R, ch, y + h, x + w]`. -/
theorem src_read0 (c : Dev nD) (A : Bf (F := Ideal) c (Memref.whole main_arg0)) (R : ℕ) (hR : R < 32) (y x : BitVec 32)
    (hy : y.toNat ≤ 504) (hx : x.toNat ≤ 504)
    (hin : ∀ a, (![R, 0, y.toNat, x.toNat] : Fin 4 → Nat) a + S1x3x8x8.size a ≤ S32x3x512x512.size a)
    (ch : Fin 3) (h w : Fin 8) (q : S3x8x8.Idx) (e : q = ix3 ch h w) :
    View.read (Elt Ideal) (srcOf (Memref.whole main_arg0) R y x hin).view A q
      = A (ix4 (⟨R, hR⟩ : Fin 32) ch (⟨y.toNat + h.val, by have := h.isLt; omega⟩ : Fin 512) (⟨x.toNat + w.val, by have := w.isLt; omega⟩ : Fin 512)) := by
  subst e
  unfold srcOf
  rw [View.read_apply]
  show A ((Rect.unit (s := S32x3x512x512) ![R, 0, y.toNat, x.toNat] S1x3x8x8.size hin).emb
      (Shape.reshapeEquiv squeezes_S1x3x8x8_S3x8x8.numel_eq (ix3 ch h w))) = A _
  rw [reshapeEquiv_ix3_1abc]
  refine congrArg A (funext fun a => Fin.ext ?_)
  match a with
  | ⟨0, _⟩ => show R + 1 * 0 = R; omega
  | ⟨1, _⟩ => show 0 + 1 * ch.val = ch.val; omega
  | ⟨2, _⟩ => show y.toNat + 1 * h.val = y.toNat + h.val; omega
  | ⟨3, _⟩ => show x.toNat + 1 * w.val = x.toNat + w.val; omega

/-- The `[1, 3, 8, 8]` block of the target image at row `R` and origins `y`, `x`, squeezed, read at `(ch, h, w)`:
    the image's entry `[R, ch, y + h, x + w]`. -/
theorem src_read1 (c : Dev nD) (A : Bf (F := Ideal) c (Memref.whole main_arg1)) (R : ℕ) (hR : R < 32) (y x : BitVec 32)
    (hy : y.toNat ≤ 504) (hx : x.toNat ≤ 504)
    (hin : ∀ a, (![R, 0, y.toNat, x.toNat] : Fin 4 → Nat) a + S1x3x8x8.size a ≤ S32x3x512x512.size a)
    (ch : Fin 3) (h w : Fin 8) (q : S3x8x8.Idx) (e : q = ix3 ch h w) :
    View.read (Elt Ideal) (srcOf (Memref.whole main_arg1) R y x hin).view A q
      = A (ix4 (⟨R, hR⟩ : Fin 32) ch (⟨y.toNat + h.val, by have := h.isLt; omega⟩ : Fin 512) (⟨x.toNat + w.val, by have := w.isLt; omega⟩ : Fin 512)) := by
  subst e
  unfold srcOf
  rw [View.read_apply]
  show A ((Rect.unit (s := S32x3x512x512) ![R, 0, y.toNat, x.toNat] S1x3x8x8.size hin).emb
      (Shape.reshapeEquiv squeezes_S1x3x8x8_S3x8x8.numel_eq (ix3 ch h w))) = A _
  rw [reshapeEquiv_ix3_1abc]
  refine congrArg A (funext fun a => Fin.ext ?_)
  match a with
  | ⟨0, _⟩ => show R + 1 * 0 = R; omega
  | ⟨1, _⟩ => show 0 + 1 * ch.val = ch.val; omega
  | ⟨2, _⟩ => show y.toNat + 1 * h.val = y.toNat + h.val; omega
  | ⟨3, _⟩ => show x.toNat + 1 * w.val = x.toNat + w.val; omega

/-- The patch buffer of the generated image for row `R`, at `[n, ch, h, w]`: the specification's patch entry. -/
theorem gath_apply0 (c : Dev nD) (A : Bf (F := Ideal) c (Memref.whole main_arg0))
    (Yc : Bf (F := Ideal) c (Memref.whole main_arg2)) (Xc : Bf (F := Ideal) c (Memref.whole main_arg3))
    (hY : TabOK c (Memref.whole main_arg2) Yc) (hX : TabOK c (Memref.whole main_arg3) Xc)
    (R : ℕ) (hR : R < 32) (n : Fin 64) (ch : Fin 3) (h w : Fin 8) :
    gath c (Memref.whole main_arg0) A (Memref.whole main_arg2) (Memref.whole main_arg3) Yc Xc hY hX R hR (ix4 n ch h w)
      = patch A Yc Xc ⟨R, hR⟩ n ch h w := by
  have hy := hY R hR n
  have hx := hX R hR n
  have ey := wordAt_whole2 c Yc R hR n
  have ex := wordAt_whole3 c Xc R hR n
  unfold gath payAt srcAt patch
  refine (src_read0 c A R hR _ _ hy hx _ ch h w _ (tail_ix4 n ch h w)).trans ?_
  refine congrArg A (funext fun a => Fin.ext ?_)
  match a with
  | ⟨0, _⟩ => rfl
  | ⟨1, _⟩ => rfl
  | ⟨2, _⟩ =>
    show (wordAt c (Memref.whole main_arg2) Yc R hR n).toNat + h.val = ((Yc (ix2 (⟨R, hR⟩ : Fin 32) n)).toNat + h.val) % 512
    rw [ey] at hy ⊢; have := h.isLt; omega
  | ⟨3, _⟩ =>
    show (wordAt c (Memref.whole main_arg3) Xc R hR n).toNat + w.val = ((Xc (ix2 (⟨R, hR⟩ : Fin 32) n)).toNat + w.val) % 512
    rw [ex] at hx ⊢; have := w.isLt; omega

/-- The patch buffer of the target image for row `R`, at `[n, ch, h, w]`: the specification's patch entry. -/
theorem gath_apply1 (c : Dev nD) (A : Bf (F := Ideal) c (Memref.whole main_arg1))
    (Yc : Bf (F := Ideal) c (Memref.whole main_arg4)) (Xc : Bf (F := Ideal) c (Memref.whole main_arg5))
    (hY : TabOK c (Memref.whole main_arg4) Yc) (hX : TabOK c (Memref.whole main_arg5) Xc)
    (R : ℕ) (hR : R < 32) (n : Fin 64) (ch : Fin 3) (h w : Fin 8) :
    gath c (Memref.whole main_arg1) A (Memref.whole main_arg4) (Memref.whole main_arg5) Yc Xc hY hX R hR (ix4 n ch h w)
      = patch A Yc Xc ⟨R, hR⟩ n ch h w := by
  have hy := hY R hR n
  have hx := hX R hR n
  have ey := wordAt_whole4 c Yc R hR n
  have ex := wordAt_whole5 c Xc R hR n
  unfold gath payAt srcAt patch
  refine (src_read1 c A R hR _ _ hy hx _ ch h w _ (tail_ix4 n ch h w)).trans ?_
  refine congrArg A (funext fun a => Fin.ext ?_)
  match a with
  | ⟨0, _⟩ => rfl
  | ⟨1, _⟩ => rfl
  | ⟨2, _⟩ =>
    show (wordAt c (Memref.whole main_arg4) Yc R hR n).toNat + h.val = ((Yc (ix2 (⟨R, hR⟩ : Fin 32) n)).toNat + h.val) % 512
    rw [ey] at hy ⊢; have := h.isLt; omega
  | ⟨3, _⟩ =>
    show (wordAt c (Memref.whole main_arg5) Xc R hR n).toNat + w.val = ((Xc (ix2 (⟨R, hR⟩ : Fin 32) n)).toNat + w.val) % 512
    rw [ex] at hx ⊢; have := w.isLt; omega

/-! ## The kernel's three reductions of a patch buffer, at an index

Each `vector.multi_reduction <add>` over one axis is, at the ideal instance, the sum over that axis's coordinates. -/

theorem red_w (v : FVec Ideal S64x3x8x8 .f32) (hφ : FKind.Formats .f32)
    (hacc : (0x00000000#32 : BitVec 32) = FKind.add.neutral .f32 hφ) (n : Fin 64) (ch : Fin 3) (h : Fin 8) :
    multiReduction (F := Ideal) .add [3] S64x3x8 v 0x00000000#32 reduces_S64x3x8x8_S64x3x8 hφ hacc (ix3 n ch h)
      = ∑ w : Fin 8, v (ix4 n ch h w) := by
  refine (Ideal.multiReduction_add_single v 0x00000000#32 reduces_S64x3x8x8_S64x3x8 hφ hacc (ix3 n ch h)).trans ?_
  refine Finset.sum_congr rfl fun w _ => congrArg v (funext fun a => Fin.ext ?_)
  match a with
  | ⟨0, _⟩ => rfl
  | ⟨1, _⟩ => rfl
  | ⟨2, _⟩ => rfl
  | ⟨3, _⟩ => rfl

theorem red_h (v : FVec Ideal S64x3x8 .f32) (hφ : FKind.Formats .f32)
    (hacc : (0x00000000#32 : BitVec 32) = FKind.add.neutral .f32 hφ) (n : Fin 64) (ch : Fin 3) :
    multiReduction (F := Ideal) .add [2] S64x3 v 0x00000000#32 reduces_S64x3x8_S64x3 hφ hacc (ix2 n ch)
      = ∑ h : Fin 8, v (ix3 n ch h) := by
  refine (Ideal.multiReduction_add_single v 0x00000000#32 reduces_S64x3x8_S64x3 hφ hacc (ix2 n ch)).trans ?_
  refine Finset.sum_congr rfl fun h _ => congrArg v (funext fun a => Fin.ext ?_)
  match a with
  | ⟨0, _⟩ => rfl
  | ⟨1, _⟩ => rfl
  | ⟨2, _⟩ => rfl

theorem red_c (v : FVec Ideal S64x3 .f32) (hφ : FKind.Formats .f32)
    (hacc : (0x00000000#32 : BitVec 32) = FKind.add.neutral .f32 hφ) (n : Fin 64) :
    multiReduction (F := Ideal) .add [1] S64 v 0x00000000#32 reduces_S64x3_S64 hφ hacc (ix1 n)
      = ∑ ch : Fin 3, v (ix2 n ch) := by
  refine (Ideal.multiReduction_add_single v 0x00000000#32 reduces_S64x3_S64 hφ hacc (ix1 n)).trans ?_
  refine Finset.sum_congr rfl fun ch _ => congrArg v (funext fun a => Fin.ext ?_)
  match a with
  | ⟨0, _⟩ => rfl
  | ⟨1, _⟩ => rfl

/-- The three in turn: the sum of a patch's 192 entries, channel by channel, row by row. -/
theorem red3 (v : FVec Ideal S64x3x8x8 .f32) (hφ : FKind.Formats .f32)
    (hacc : (0x00000000#32 : BitVec 32) = FKind.add.neutral .f32 hφ) (n : Fin 64) :
    multiReduction (F := Ideal) .add [1] S64
      (multiReduction (F := Ideal) .add [2] S64x3
        (multiReduction (F := Ideal) .add [3] S64x3x8 v 0x00000000#32 reduces_S64x3x8x8_S64x3x8 hφ hacc)
        0x00000000#32 reduces_S64x3x8_S64x3 hφ hacc)
      0x00000000#32 reduces_S64x3_S64 hφ hacc (ix1 n)
      = ∑ ch : Fin 3, ∑ h : Fin 8, ∑ w : Fin 8, v (ix4 n ch h w) := by
  rw [red_c]
  refine Finset.sum_congr rfl fun ch _ => ?_
  rw [red_h]
  refine Finset.sum_congr rfl fun h _ => ?_
  rw [red_w]

/-- The kernel's mean of patch `n`: the sum of its entries over 192. -/
theorem patchMean_apply (v : Vec Ideal S64x3x8x8 .f32) (n : Fin 64) :
    patchMean v (ix1 n) = Ideal.div (∑ ch : Fin 3, ∑ h : Fin 8, ∑ w : Fin 8, v (ix4 n ch h w)) c192 := by
  unfold patchMean k0_pay2
  exact congrArg (fun x => Ideal.div x c192) (red3 v _ _ n)

/-- The kernel's one-pass variance of patch `n`: `(Σ x² − 192 · mean · mean) / 191`. -/
theorem patchVar_apply (v : Vec Ideal S64x3x8x8 .f32) (n : Fin 64) :
    patchVar v (ix1 n) = Ideal.div ((∑ ch : Fin 3, ∑ h : Fin 8, ∑ w : Fin 8, v (ix4 n ch h w) * v (ix4 n ch h w))
      - c192 * patchMean v (ix1 n) * patchMean v (ix1 n)) c191 := by
  unfold patchVar k0_pay3
  exact congrArg (fun x => Ideal.div (x - c192 * patchMean v (ix1 n) * patchMean v (ix1 n)) c191) (red3 (mulf v v) _ _ n)

/-! ## The four output blocks -/

/-- The patch buffer does not depend on how its row number is spelt. -/
theorem gath_congr (c : Dev nD) (Mi : Memref sig .tc .hbm S32x3x512x512 .f32) (A : Bf (F := Ideal) c Mi)
    (Ty Tx : Memref sig .tc .smem S32x64 .i32) (Yc : Bf (F := Ideal) c Ty) (Xc : Bf (F := Ideal) c Tx)
    (hY : TabOK c Ty Yc) (hX : TabOK c Tx Xc) (R R' : ℕ) (hR : R < 32) (hR' : R' < 32) (e : R = R') :
    gath c Mi A Ty Tx Yc Xc hY hX R hR = gath c Mi A Ty Tx Yc Xc hY hX R' hR' := by
  subst e; rfl

/-- Row `8 i + lb` is one of the 32 rows. -/
theorem row_lt (i : grid0.Coords) (lb : Fin 8) : 8 * (i 0).val + lb.val < 32 := by
  have h4 : (i 0).val < 4 := (i 0).isLt
  have := lb.isLt
  omega

section Blocks

variable (c : Dev nD)
  (A : Bf (F := Ideal) c (Memref.whole main_arg0)) (B : Bf (F := Ideal) c (Memref.whole main_arg1))
  (Y : Bf (F := Ideal) c (Memref.whole main_arg2)) (X : Bf (F := Ideal) c (Memref.whole main_arg3))
  (Y' : Bf (F := Ideal) c (Memref.whole main_arg4)) (X' : Bf (F := Ideal) c (Memref.whole main_arg5))
  (hY : TabOK c (Memref.whole main_arg2) Y) (hX : TabOK c (Memref.whole main_arg3) X)
  (hY' : TabOK c (Memref.whole main_arg4) Y') (hX' : TabOK c (Memref.whole main_arg5) X')

/-- The generated image's patch buffer of grid point `i`'s pass `lb` holds the patches of row `8 i + lb`, -/
theorem gathG_apply (i : grid0.Coords) (lb : Fin 8) (n : Fin 64) (ch : Fin 3) (h w : Fin 8) :
    gathG c A Y X hY hX i lb (ix4 n ch h w) = patch A Y X ⟨8 * (i 0).val + lb.val, row_lt i lb⟩ n ch h w := by
  unfold gathG
  rw [gath_congr c _ A _ _ Y X hY hX _ _ (rowW_lt i lb) (row_lt i lb) (rowW_toNat i lb)]
  exact gath_apply0 c A Y X hY hX _ (row_lt i lb) n ch h w

/-- and the target image's likewise. -/
theorem gathT_apply (i : grid0.Coords) (lb : Fin 8) (n : Fin 64) (ch : Fin 3) (h w : Fin 8) :
    gathT c B Y' X' hY' hX' i lb (ix4 n ch h w) = patch B Y' X' ⟨8 * (i 0).val + lb.val, row_lt i lb⟩ n ch h w := by
  unfold gathT
  rw [gath_congr c _ B _ _ Y' X' hY' hX' _ _ (rowW_lt i lb) (row_lt i lb) (rowW_toNat i lb)]
  exact gath_apply1 c B Y' X' hY' hX' _ (row_lt i lb) n ch h w

/-- Result 0's block: the means of the generated image's patches. -/
theorem outBlk_apply0 (i : grid0.Coords) (lb : Fin 8) (n : Fin 64) :
    outBlk c A B Y X Y' X' hY hX hY' hX' i 0 (ix2 lb n) = pmean A Y X ⟨8 * (i 0).val + lb.val, row_lt i lb⟩ n := by
  show patchMean (gathG c A Y X hY hX i lb) (ix1 n) = _
  rw [patchMean_apply]
  unfold pmean psum
  simp only [gathG_apply]

/-- Result 1's block: their one-pass variances. -/
theorem outBlk_apply1 (i : grid0.Coords) (lb : Fin 8) (n : Fin 64) :
    outBlk c A B Y X Y' X' hY hX hY' hX' i 1 (ix2 lb n) = pvar1 A Y X ⟨8 * (i 0).val + lb.val, row_lt i lb⟩ n := by
  show patchVar (gathG c A Y X hY hX i lb) (ix1 n) = _
  rw [patchVar_apply, patchMean_apply]
  unfold pvar1 pmean psq psum
  simp only [gathG_apply]

/-- Result 2's block: the means of the target image's patches. -/
theorem outBlk_apply2 (i : grid0.Coords) (lb : Fin 8) (n : Fin 64) :
    outBlk c A B Y X Y' X' hY hX hY' hX' i 2 (ix2 lb n) = pmean B Y' X' ⟨8 * (i 0).val + lb.val, row_lt i lb⟩ n := by
  show patchMean (gathT c B Y' X' hY' hX' i lb) (ix1 n) = _
  rw [patchMean_apply]
  unfold pmean psum
  simp only [gathT_apply]

/-- Result 3's block: their one-pass variances. -/
theorem outBlk_apply3 (i : grid0.Coords) (lb : Fin 8) (n : Fin 64) :
    outBlk c A B Y X Y' X' hY hX hY' hX' i 3 (ix2 lb n) = pvar1 B Y' X' ⟨8 * (i 0).val + lb.val, row_lt i lb⟩ n := by
  show patchVar (gathT c B Y' X' hY' hX' i lb) (ix1 n) = _
  rw [patchVar_apply, patchMean_apply]
  unfold pvar1 pmean psq psum
  simp only [gathT_apply]

end Blocks

end Cert.Proof.KI.Val
end
-- ==== Proof.KI.ValueArr.lean ====
import proofs.«403745_j3521873182816_1_alg».proof.Proof.KI.Dat
import proofs.«403745_j3521873182816_1_alg».proof.Proof.KI.Value
import Idealize.ShloMosaic.Lib.Pipeline.Value

noncomputable section

namespace Cert.Proof.KI.Val

open Cert.KernelIdeal Cert.KernelIdeal.Gen
open Idealize.ShloMosaic Idealize.ShloMosaic.ValueIdx
open Idealize.ShloMosaic.TcCoe
open Idealize.ShloMosaic.Pipeline (Dat)
open Cert.Proof.Tex Cert.Proof.KI

/-! ## The result arrays

Grid point `t` writes rows `8 t … 8 t + 7` of each result: its block's entry `(lb, n)` sits at `(8 t + lb, n)` of the array,
where the specification's array holds the statistic of patch `n` of row `8 t + lb`; the four points' blocks cover the 32 rows. -/

/-- The results' block index at grid point `i` is `(i, 0)`. -/
theorem blockIdx : ∀ i : grid0.Coords,
    (cc0_transform_2 i 0 = (i 0).val ∧ cc0_transform_2 i 1 = 0) ∧ (cc0_transform_3 i 0 = (i 0).val ∧ cc0_transform_3 i 1 = 0)
    ∧ (cc0_transform_4 i 0 = (i 0).val ∧ cc0_transform_4 i 1 = 0) ∧ (cc0_transform_5 i 0 = (i 0).val ∧ cc0_transform_5 i 1 = 0) := by
  decide

/-- A function of a row and a column at equal row and column numbers. -/
theorem at_congr (f : Fin 32 → Fin 64 → EReal) {b b' : Fin 32} {n n' : Fin 64} (hb : b.val = b'.val) (hn : n.val = n'.val) :
    f b n = f b' n' := by
  obtain rfl := Fin.ext hb
  obtain rfl := Fin.ext hn
  rfl

variable (m : (ℓ : Loc nD τ sig) → Buf (Elt Ideal) ℓ) (ρ : Dev nD → PrngReg) (hT : TabsOK m) (c : Dev nD)

local notation "𝒞" => Pipeline.pin (pcfgs (F := Ideal)) (adm m) 0

/-- Each result's block index moves at every step of the grid, so every grid point writes its blocks back. -/
theorem stepIdx : ∀ t : Fin grid0.N,
    (t.val + 1 = grid0.N ∨ ∃ h : t.val + 1 < grid0.N, cc0_transform_2 (grid0.coords ⟨t.val + 1, h⟩) ≠ cc0_transform_2 (grid0.coords t))
    ∧ (t.val + 1 = grid0.N ∨ ∃ h : t.val + 1 < grid0.N, cc0_transform_3 (grid0.coords ⟨t.val + 1, h⟩) ≠ cc0_transform_3 (grid0.coords t))
    ∧ (t.val + 1 = grid0.N ∨ ∃ h : t.val + 1 < grid0.N, cc0_transform_4 (grid0.coords ⟨t.val + 1, h⟩) ≠ cc0_transform_4 (grid0.coords t))
    ∧ (t.val + 1 = grid0.N ∨ ∃ h : t.val + 1 < grid0.N, cc0_transform_5 (grid0.coords ⟨t.val + 1, h⟩) ≠ cc0_transform_5 (grid0.coords t)) := by
  decide +kernel

/-- The grid coordinate of point `t` is `t`. -/
theorem coords_val : ∀ t : Fin grid0.N, (grid0.coords t 0).val = t.val := by decide +kernel

theorem flush0 (t : Fin (𝒞).N) : ((𝒞).win 0).flush t = true := by
  unfold Pipeline.Window.flush
  rw [show ((𝒞).win 0).isOut = true from rfl]
  simp only [Bool.true_and, Bool.or_eq_true, decide_eq_true_eq]
  exact (stepIdx t).1

/-- What grid point `t` writes back of result 0 is block `t` of the array of the generated image's patch means. -/
theorem flushed0_eq (t : Fin (𝒞).N) :
    (dats m ρ hT 0 c).flushed 0 t = (((𝒞).win 0).blk t).view.read (Elt Ideal) (meanArr (m ((c : Thread nD τ).loc main_arg0)) (m ((c : Thread nD τ).loc main_arg2)) (m ((c : Thread nD τ).loc main_arg3))) := by
  refine funext fun (j : S8x64.Idx) => ?_
  obtain ⟨lb, n, rfl⟩ : ∃ (lb : Fin 8) (n : Fin 64), j = ix2 lb n := ⟨j 0, j 1, eq_ix2 j⟩
  refine (outBlk_apply0 c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (hT c).1 (hT c).2.1 (hT c).2.2.1 (hT c).2.2.2 (grid0.coords t) lb n).trans ?_
  show _ = meanArr _ _ _ ((((𝒞).win 0).blk t).view.emb (ix2 lb n))
  unfold meanArr
  refine at_congr (pmean _ _ _) ?_ ?_
  · show 8 * (grid0.coords t 0).val + lb.val = cc0_transform_2 (grid0.coords t) 0 * 8 + 1 * lb.val
    rw [(blockIdx _).1.1]; omega
  · show n.val = cc0_transform_2 (grid0.coords t) 1 * 64 + 1 * n.val
    rw [(blockIdx _).1.2]; omega

/-- Row `r` of result 0 is in the block of grid point `r / 8`. -/
theorem cover0 (i : S32x64.Idx) : ∃ t : Fin (𝒞).N, ((𝒞).win 0).flush t = true ∧ i ∈ (((𝒞).win 0).blk t).view.set := by
  have h0 : (i 0).val < 32 := (i 0).isLt
  have hN : grid0.N = 4 := N_0
  let t : Fin (𝒞).N := ⟨(i 0).val / 8, by show (i 0).val / 8 < grid0.N; omega⟩
  refine ⟨t, flush0 m t, ?_⟩
  have e : (((𝒞).win 0).blk t).view.emb (ix2 (⟨(i 0).val % 8, Nat.mod_lt _ (by decide)⟩ : Fin 8) (⟨(i 1).val, (i 1).isLt⟩ : Fin 64)) = i := by
    funext a; apply Fin.ext
    match a with
    | ⟨0, _⟩ =>
      show cc0_transform_2 (grid0.coords t) 0 * 8 + 1 * ((i 0).val % 8) = (i 0).val
      rw [(blockIdx _).1.1, coords_val]
      show (i 0).val / 8 * 8 + 1 * ((i 0).val % 8) = (i 0).val
      omega
    | ⟨1, _⟩ =>
      show cc0_transform_2 (grid0.coords t) 1 * 64 + 1 * (i 1).val = (i 1).val
      rw [(blockIdx _).1.2]; omega
  exact e ▸ View.emb_mem_set _ _

/-- Result 0 after the region: the generated image's patch means. -/
theorem final0 : (dats m ρ hT 0 c).arrAt 0 (𝒞).N = meanArr (m ((c : Thread nD τ).loc main_arg0)) (m ((c : Thread nD τ).loc main_arg2)) (m ((c : Thread nD τ).loc main_arg3)) :=
  (dats m ρ hT 0 c).arrAt_eq_of_cover 0 (meanArr (m ((c : Thread nD τ).loc main_arg0)) (m ((c : Thread nD τ).loc main_arg2)) (m ((c : Thread nD τ).loc main_arg3))) (fun t _ => flushed0_eq m ρ hT c t) (cover0 m)

theorem flush1 (t : Fin (𝒞).N) : ((𝒞).win 1).flush t = true := by
  unfold Pipeline.Window.flush
  rw [show ((𝒞).win 1).isOut = true from rfl]
  simp only [Bool.true_and, Bool.or_eq_true, decide_eq_true_eq]
  exact (stepIdx t).2.1

/-- What grid point `t` writes back of result 1 is block `t` of the array of the generated image's patch variances. -/
theorem flushed1_eq (t : Fin (𝒞).N) :
    (dats m ρ hT 0 c).flushed 1 t = (((𝒞).win 1).blk t).view.read (Elt Ideal) (var1Arr (m ((c : Thread nD τ).loc main_arg0)) (m ((c : Thread nD τ).loc main_arg2)) (m ((c : Thread nD τ).loc main_arg3))) := by
  refine funext fun (j : S8x64.Idx) => ?_
  obtain ⟨lb, n, rfl⟩ : ∃ (lb : Fin 8) (n : Fin 64), j = ix2 lb n := ⟨j 0, j 1, eq_ix2 j⟩
  refine (outBlk_apply1 c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (hT c).1 (hT c).2.1 (hT c).2.2.1 (hT c).2.2.2 (grid0.coords t) lb n).trans ?_
  show _ = var1Arr _ _ _ ((((𝒞).win 1).blk t).view.emb (ix2 lb n))
  unfold var1Arr
  refine at_congr (pvar1 _ _ _) ?_ ?_
  · show 8 * (grid0.coords t 0).val + lb.val = cc0_transform_3 (grid0.coords t) 0 * 8 + 1 * lb.val
    rw [(blockIdx _).2.1.1]; omega
  · show n.val = cc0_transform_3 (grid0.coords t) 1 * 64 + 1 * n.val
    rw [(blockIdx _).2.1.2]; omega

/-- Row `r` of result 1 is in the block of grid point `r / 8`. -/
theorem cover1 (i : S32x64.Idx) : ∃ t : Fin (𝒞).N, ((𝒞).win 1).flush t = true ∧ i ∈ (((𝒞).win 1).blk t).view.set := by
  have h0 : (i 0).val < 32 := (i 0).isLt
  have hN : grid0.N = 4 := N_0
  let t : Fin (𝒞).N := ⟨(i 0).val / 8, by show (i 0).val / 8 < grid0.N; omega⟩
  refine ⟨t, flush1 m t, ?_⟩
  have e : (((𝒞).win 1).blk t).view.emb (ix2 (⟨(i 0).val % 8, Nat.mod_lt _ (by decide)⟩ : Fin 8) (⟨(i 1).val, (i 1).isLt⟩ : Fin 64)) = i := by
    funext a; apply Fin.ext
    match a with
    | ⟨0, _⟩ =>
      show cc0_transform_3 (grid0.coords t) 0 * 8 + 1 * ((i 0).val % 8) = (i 0).val
      rw [(blockIdx _).2.1.1, coords_val]
      show (i 0).val / 8 * 8 + 1 * ((i 0).val % 8) = (i 0).val
      omega
    | ⟨1, _⟩ =>
      show cc0_transform_3 (grid0.coords t) 1 * 64 + 1 * (i 1).val = (i 1).val
      rw [(blockIdx _).2.1.2]; omega
  exact e ▸ View.emb_mem_set _ _

/-- Result 1 after the region: the generated image's one-pass patch variances. -/
theorem final1 : (dats m ρ hT 0 c).arrAt 1 (𝒞).N = var1Arr (m ((c : Thread nD τ).loc main_arg0)) (m ((c : Thread nD τ).loc main_arg2)) (m ((c : Thread nD τ).loc main_arg3)) :=
  (dats m ρ hT 0 c).arrAt_eq_of_cover 1 (var1Arr (m ((c : Thread nD τ).loc main_arg0)) (m ((c : Thread nD τ).loc main_arg2)) (m ((c : Thread nD τ).loc main_arg3))) (fun t _ => flushed1_eq m ρ hT c t) (cover1 m)

theorem flush2 (t : Fin (𝒞).N) : ((𝒞).win 2).flush t = true := by
  unfold Pipeline.Window.flush
  rw [show ((𝒞).win 2).isOut = true from rfl]
  simp only [Bool.true_and, Bool.or_eq_true, decide_eq_true_eq]
  exact (stepIdx t).2.2.1

/-- What grid point `t` writes back of result 2 is block `t` of the array of the target image's patch means. -/
theorem flushed2_eq (t : Fin (𝒞).N) :
    (dats m ρ hT 0 c).flushed 2 t = (((𝒞).win 2).blk t).view.read (Elt Ideal) (meanArr (m ((c : Thread nD τ).loc main_arg1)) (m ((c : Thread nD τ).loc main_arg4)) (m ((c : Thread nD τ).loc main_arg5))) := by
  refine funext fun (j : S8x64.Idx) => ?_
  obtain ⟨lb, n, rfl⟩ : ∃ (lb : Fin 8) (n : Fin 64), j = ix2 lb n := ⟨j 0, j 1, eq_ix2 j⟩
  refine (outBlk_apply2 c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (hT c).1 (hT c).2.1 (hT c).2.2.1 (hT c).2.2.2 (grid0.coords t) lb n).trans ?_
  show _ = meanArr _ _ _ ((((𝒞).win 2).blk t).view.emb (ix2 lb n))
  unfold meanArr
  refine at_congr (pmean _ _ _) ?_ ?_
  · show 8 * (grid0.coords t 0).val + lb.val = cc0_transform_4 (grid0.coords t) 0 * 8 + 1 * lb.val
    rw [(blockIdx _).2.2.1.1]; omega
  · show n.val = cc0_transform_4 (grid0.coords t) 1 * 64 + 1 * n.val
    rw [(blockIdx _).2.2.1.2]; omega

/-- Row `r` of result 2 is in the block of grid point `r / 8`. -/
theorem cover2 (i : S32x64.Idx) : ∃ t : Fin (𝒞).N, ((𝒞).win 2).flush t = true ∧ i ∈ (((𝒞).win 2).blk t).view.set := by
  have h0 : (i 0).val < 32 := (i 0).isLt
  have hN : grid0.N = 4 := N_0
  let t : Fin (𝒞).N := ⟨(i 0).val / 8, by show (i 0).val / 8 < grid0.N; omega⟩
  refine ⟨t, flush2 m t, ?_⟩
  have e : (((𝒞).win 2).blk t).view.emb (ix2 (⟨(i 0).val % 8, Nat.mod_lt _ (by decide)⟩ : Fin 8) (⟨(i 1).val, (i 1).isLt⟩ : Fin 64)) = i := by
    funext a; apply Fin.ext
    match a with
    | ⟨0, _⟩ =>
      show cc0_transform_4 (grid0.coords t) 0 * 8 + 1 * ((i 0).val % 8) = (i 0).val
      rw [(blockIdx _).2.2.1.1, coords_val]
      show (i 0).val / 8 * 8 + 1 * ((i 0).val % 8) = (i 0).val
      omega
    | ⟨1, _⟩ =>
      show cc0_transform_4 (grid0.coords t) 1 * 64 + 1 * (i 1).val = (i 1).val
      rw [(blockIdx _).2.2.1.2]; omega
  exact e ▸ View.emb_mem_set _ _

/-- Result 2 after the region: the target image's patch means. -/
theorem final2 : (dats m ρ hT 0 c).arrAt 2 (𝒞).N = meanArr (m ((c : Thread nD τ).loc main_arg1)) (m ((c : Thread nD τ).loc main_arg4)) (m ((c : Thread nD τ).loc main_arg5)) :=
  (dats m ρ hT 0 c).arrAt_eq_of_cover 2 (meanArr (m ((c : Thread nD τ).loc main_arg1)) (m ((c : Thread nD τ).loc main_arg4)) (m ((c : Thread nD τ).loc main_arg5))) (fun t _ => flushed2_eq m ρ hT c t) (cover2 m)

theorem flush3 (t : Fin (𝒞).N) : ((𝒞).win 3).flush t = true := by
  unfold Pipeline.Window.flush
  rw [show ((𝒞).win 3).isOut = true from rfl]
  simp only [Bool.true_and, Bool.or_eq_true, decide_eq_true_eq]
  exact (stepIdx t).2.2.2

/-- What grid point `t` writes back of result 3 is block `t` of the array of the target image's patch variances. -/
theorem flushed3_eq (t : Fin (𝒞).N) :
    (dats m ρ hT 0 c).flushed 3 t = (((𝒞).win 3).blk t).view.read (Elt Ideal) (var1Arr (m ((c : Thread nD τ).loc main_arg1)) (m ((c : Thread nD τ).loc main_arg4)) (m ((c : Thread nD τ).loc main_arg5))) := by
  refine funext fun (j : S8x64.Idx) => ?_
  obtain ⟨lb, n, rfl⟩ : ∃ (lb : Fin 8) (n : Fin 64), j = ix2 lb n := ⟨j 0, j 1, eq_ix2 j⟩
  refine (outBlk_apply3 c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (hT c).1 (hT c).2.1 (hT c).2.2.1 (hT c).2.2.2 (grid0.coords t) lb n).trans ?_
  show _ = var1Arr _ _ _ ((((𝒞).win 3).blk t).view.emb (ix2 lb n))
  unfold var1Arr
  refine at_congr (pvar1 _ _ _) ?_ ?_
  · show 8 * (grid0.coords t 0).val + lb.val = cc0_transform_5 (grid0.coords t) 0 * 8 + 1 * lb.val
    rw [(blockIdx _).2.2.2.1]; omega
  · show n.val = cc0_transform_5 (grid0.coords t) 1 * 64 + 1 * n.val
    rw [(blockIdx _).2.2.2.2]; omega

/-- Row `r` of result 3 is in the block of grid point `r / 8`. -/
theorem cover3 (i : S32x64.Idx) : ∃ t : Fin (𝒞).N, ((𝒞).win 3).flush t = true ∧ i ∈ (((𝒞).win 3).blk t).view.set := by
  have h0 : (i 0).val < 32 := (i 0).isLt
  have hN : grid0.N = 4 := N_0
  let t : Fin (𝒞).N := ⟨(i 0).val / 8, by show (i 0).val / 8 < grid0.N; omega⟩
  refine ⟨t, flush3 m t, ?_⟩
  have e : (((𝒞).win 3).blk t).view.emb (ix2 (⟨(i 0).val % 8, Nat.mod_lt _ (by decide)⟩ : Fin 8) (⟨(i 1).val, (i 1).isLt⟩ : Fin 64)) = i := by
    funext a; apply Fin.ext
    match a with
    | ⟨0, _⟩ =>
      show cc0_transform_5 (grid0.coords t) 0 * 8 + 1 * ((i 0).val % 8) = (i 0).val
      rw [(blockIdx _).2.2.2.1, coords_val]
      show (i 0).val / 8 * 8 + 1 * ((i 0).val % 8) = (i 0).val
      omega
    | ⟨1, _⟩ =>
      show cc0_transform_5 (grid0.coords t) 1 * 64 + 1 * (i 1).val = (i 1).val
      rw [(blockIdx _).2.2.2.2]; omega
  exact e ▸ View.emb_mem_set _ _

/-- Result 3 after the region: the target image's one-pass patch variances. -/
theorem final3 : (dats m ρ hT 0 c).arrAt 3 (𝒞).N = var1Arr (m ((c : Thread nD τ).loc main_arg1)) (m ((c : Thread nD τ).loc main_arg4)) (m ((c : Thread nD τ).loc main_arg5)) :=
  (dats m ρ hT 0 c).arrAt_eq_of_cover 3 (var1Arr (m ((c : Thread nD τ).loc main_arg1)) (m ((c : Thread nD τ).loc main_arg4)) (m ((c : Thread nD τ).loc main_arg5))) (fun t _ => flushed3_eq m ρ hT c t) (cover3 m)

/-- The grid has four points: the same four equations at the numeral. -/
theorem final0' : (dats m ρ hT 0 c).arrAt 0 4 = meanArr (m ((c : Thread nD τ).loc main_arg0)) (m ((c : Thread nD τ).loc main_arg2)) (m ((c : Thread nD τ).loc main_arg3)) := final0 m ρ hT c
theorem final1' : (dats m ρ hT 0 c).arrAt 1 4 = var1Arr (m ((c : Thread nD τ).loc main_arg0)) (m ((c : Thread nD τ).loc main_arg2)) (m ((c : Thread nD τ).loc main_arg3)) := final1 m ρ hT c
theorem final2' : (dats m ρ hT 0 c).arrAt 2 4 = meanArr (m ((c : Thread nD τ).loc main_arg1)) (m ((c : Thread nD τ).loc main_arg4)) (m ((c : Thread nD τ).loc main_arg5)) := final2 m ρ hT c
theorem final3' : (dats m ρ hT 0 c).arrAt 3 4 = var1Arr (m ((c : Thread nD τ).loc main_arg1)) (m ((c : Thread nD τ).loc main_arg4)) (m ((c : Thread nD τ).loc main_arg5)) := final3 m ρ hT c

end Cert.Proof.KI.Val
end
-- ==== Proof.Tex.RefValue.lean ====
/-
  The reference program's four statistics arrays, and its result, identified with the specification's functions.

  For each image array the reference wraps a negative origin by 512, joins a zero channel origin with the row and the
  column origin into a start index, and gathers the 3 × 8 × 8 block at that start, the start clamped so the block fits.
  When every origin word is at most 504 nothing wraps and nothing is clamped: the block is the specification's patch.
  Flattened to 192 entries, its sum over 192 is the mean and the sum of squared deviations over 191 the variance.
-/
import proofs.«403745_j3521873182816_1_alg».proof.Proof.Gen.ReferenceIdeal.Read
import proofs.«403745_j3521873182816_1_alg».proof.Proof.Tex.Spec
import proofs.«403745_j3521873182816_1_alg».proof.Proof.Tex.Algebra
import Idealize.ShloMosaic.Lib.ValueIdx
import Idealize.ShloMosaic.Lib.Pipeline.Value
import Idealize.ShloMosaic.PureOps.Ideal.Laws

noncomputable section

namespace Cert.Proof.Tex.Ref

open Cert.ReferenceIdeal Cert.ReferenceIdeal.Gen Cert.ReferenceIdeal.Read Idealize.ShloMosaic Idealize.ShloMosaic.ValueIdx Cert.Proof.Tex

/-- The block gather's dimension numbers. -/
abbrev gd := gather_S32x3x512x512_S32x64x3_S32x64x3x8x8_234_n_0_0_123_2_1388

/-- Result index (b, n, c, h, w) reads component k of its start index at (b, n, k) of the start indices. -/
theorem siIdx_at (b : Fin 32) (n : Fin 64) (c : Fin 3) (h w : Fin 8) (k : Fin 3) (hk : k.val < gd.startIndexMap.length) :
    gd.siIdx (ix5 b n c h w) ⟨k.val, hk⟩ = ix3 b n k := by
  funext a; refine Fin.ext ?_
  match a with
  | ⟨0, _⟩ => rfl
  | ⟨1, _⟩ => rfl
  | ⟨2, _⟩ => rfl

/-- The clamped start on the channel axis: the block is all three channels, so the start is clamped to 0. -/
theorem start1 (idx : IVec S32x64x3 32) (b : Fin 32) (n : Fin 64) (c : Fin 3) (h w : Fin 8) :
    gd.start (ix5 b n c h w) idx 1 = min (idx (ix3 b n 0)).toInt.toNat 0 := by
  unfold GatherDims.start
  rw [dif_pos (show (1 : Fin 4) ∈ gd.startIndexMap by decide)]
  rw [show (⟨List.idxOf (1 : Fin 4) gd.startIndexMap, List.idxOf_lt_length_iff.2 (show (1 : Fin 4) ∈ gd.startIndexMap by decide)⟩ : Fin gd.startIndexMap.length) = ⟨(0 : Fin 3).val, by decide⟩ from rfl, siIdx_at]
  rfl

/-- The clamped start on the row axis: at most 512 − 8. -/
theorem start2 (idx : IVec S32x64x3 32) (b : Fin 32) (n : Fin 64) (c : Fin 3) (h w : Fin 8) :
    gd.start (ix5 b n c h w) idx 2 = min (idx (ix3 b n 1)).toInt.toNat 504 := by
  unfold GatherDims.start
  rw [dif_pos (show (2 : Fin 4) ∈ gd.startIndexMap by decide)]
  rw [show (⟨List.idxOf (2 : Fin 4) gd.startIndexMap, List.idxOf_lt_length_iff.2 (show (2 : Fin 4) ∈ gd.startIndexMap by decide)⟩ : Fin gd.startIndexMap.length) = ⟨(1 : Fin 3).val, by decide⟩ from rfl, siIdx_at]
  rfl

/-- The clamped start on the column axis: at most 512 − 8. -/
theorem start3 (idx : IVec S32x64x3 32) (b : Fin 32) (n : Fin 64) (c : Fin 3) (h w : Fin 8) :
    gd.start (ix5 b n c h w) idx 3 = min (idx (ix3 b n 2)).toInt.toNat 504 := by
  unfold GatherDims.start
  rw [dif_pos (show (3 : Fin 4) ∈ gd.startIndexMap by decide)]
  rw [show (⟨List.idxOf (3 : Fin 4) gd.startIndexMap, List.idxOf_lt_length_iff.2 (show (3 : Fin 4) ∈ gd.startIndexMap by decide)⟩ : Fin gd.startIndexMap.length) = ⟨(2 : Fin 3).val, by decide⟩ from rfl, siIdx_at]
  rfl

/-- The block gather read at (b, n, c, h, w): image b of the operand, at the start index (b, n, ·) read signed and
    clamped so that the 3 × 8 × 8 block fits, plus the offset (c, h, w). -/
theorem gather_apply {α : Type} (x : S32x3x512x512.Idx → α) (idx : IVec S32x64x3 32)
    (b : Fin 32) (n : Fin 64) (c : Fin 3) (h w : Fin 8) :
    Host.gather gd x idx (ix5 b n c h w) =
      x (ix4 b ⟨min (idx (ix3 b n 0)).toInt.toNat 0 + c.val, by omega⟩
               ⟨min (idx (ix3 b n 1)).toInt.toNat 504 + h.val, by omega⟩
               ⟨min (idx (ix3 b n 2)).toInt.toNat 504 + w.val, by omega⟩) := by
  have e0 : (gd.operandIdx (ix5 b n c h w) idx 0).val = b.val := by
    show gd.start (ix5 b n c h w) idx 0 + gd.batchCoord (ix5 b n c h w) 0 + gd.offCoord (ix5 b n c h w) 0 = _
    rw [GatherDims.start_batching _ _ _ _ (show (0 : Fin 4) ∈ gd.operandBatchingDims by decide)]
    show 0 + b.val + 0 = b.val
    omega
  have e1 : (gd.operandIdx (ix5 b n c h w) idx 1).val = min (idx (ix3 b n 0)).toInt.toNat 0 + c.val := by
    show gd.start (ix5 b n c h w) idx 1 + gd.batchCoord (ix5 b n c h w) 1 + gd.offCoord (ix5 b n c h w) 1 = _
    rw [start1]; rfl
  have e2 : (gd.operandIdx (ix5 b n c h w) idx 2).val = min (idx (ix3 b n 1)).toInt.toNat 504 + h.val := by
    show gd.start (ix5 b n c h w) idx 2 + gd.batchCoord (ix5 b n c h w) 2 + gd.offCoord (ix5 b n c h w) 2 = _
    rw [start2]; rfl
  have e3 : (gd.operandIdx (ix5 b n c h w) idx 3).val = min (idx (ix3 b n 2)).toInt.toNat 504 + w.val := by
    show gd.start (ix5 b n c h w) idx 3 + gd.batchCoord (ix5 b n c h w) 3 + gd.offCoord (ix5 b n c h w) 3 = _
    rw [start3]; rfl
  unfold Host.gather
  congr 1
  funext a; refine Fin.ext ?_
  match a with
  | ⟨0, _⟩ => exact e0
  | ⟨1, _⟩ => exact e1
  | ⟨2, _⟩ => exact e2
  | ⟨3, _⟩ => exact e3

/-- Three [32, 64, 1] pieces joined along the last axis, read at (b, n, 1): the second piece at (b, n, 0). -/
theorem cat3_1 {α : Type} (y0 y1 y2 : S32x64x1.Idx → α) (b : Fin 32) (n : Fin 64) :
    concatenate S32x64x3 2 [⟨S32x64x1, y0⟩, ⟨S32x64x1, y1⟩, ⟨S32x64x1, y2⟩]
      concatenates_S32x64x1_S32x64x1_S32x64x1_S32x64x3_d2 (ix3 b n 1) = y1 (ix3 b n 0) := by
  refine concatenate_apply_piece 2 [⟨S32x64x1, y0⟩, ⟨S32x64x1, y1⟩, ⟨S32x64x1, y2⟩]
    concatenates_S32x64x1_S32x64x1_S32x64x1_S32x64x3_d2 (ix3 b n 1) 1 (by show (1 : Nat) < 3; omega) S32x64x1 y1 rfl rfl 1 rfl
    (ix3 b n 0) (fun a ha => ?_) rfl
  match a with
  | ⟨0, _⟩ => rfl
  | ⟨1, _⟩ => rfl
  | ⟨2, _⟩ => exact absurd rfl ha

/-- … at (b, n, 2): the third piece at (b, n, 0). -/
theorem cat3_2 {α : Type} (y0 y1 y2 : S32x64x1.Idx → α) (b : Fin 32) (n : Fin 64) :
    concatenate S32x64x3 2 [⟨S32x64x1, y0⟩, ⟨S32x64x1, y1⟩, ⟨S32x64x1, y2⟩]
      concatenates_S32x64x1_S32x64x1_S32x64x1_S32x64x3_d2 (ix3 b n 2) = y2 (ix3 b n 0) := by
  refine concatenate_apply_piece 2 [⟨S32x64x1, y0⟩, ⟨S32x64x1, y1⟩, ⟨S32x64x1, y2⟩]
    concatenates_S32x64x1_S32x64x1_S32x64x1_S32x64x3_d2 (ix3 b n 2) 2 (by show (2 : Nat) < 3; omega) S32x64x1 y2 rfl rfl 2 rfl
    (ix3 b n 0) (fun a ha => ?_) rfl
  match a with
  | ⟨0, _⟩ => rfl
  | ⟨1, _⟩ => rfl
  | ⟨2, _⟩ => exact absurd rfl ha

/-- A word of value at most 504 is non-negative read signed, so its signed reading is its value. -/
theorem toInt_toNat_small (v : BitVec 32) (hv : v.toNat ≤ 504) : v.toInt.toNat = v.toNat := by
  rw [BitVec.toInt_eq_toNat_cond, if_pos (by omega)]
  exact Int.toNat_natCast _

/-- … and the wrap of a negative origin by 512 keeps it. -/
theorem wrap_keep (v : BitVec 32) (hv : v.toNat ≤ 504) :
    Scalar.select (IntOp.cmpi .slt v 0#32) (IntOp.addi v 512#32) v = v := by
  have hs : v.slt 0#32 = false := by
    simp only [BitVec.slt, decide_eq_false_iff_not]
    rw [BitVec.toInt_eq_toNat_cond, if_pos (by omega)]
    simp
  show (if BitVec.ofBool (v.slt 0#32) = 1 then _ else _) = v
  rw [hs]; rfl

/-- Position k of the 192 of patch (b, n) is entry (k / 64, k / 8 % 8, k % 8) of the block. -/
theorem flat_idx (b : Fin 32) (n : Fin 64) (k : Fin 192) :
    idx_main_v32 (ix3 b n k) = ix5 b n ⟨k.val / 64, by omega⟩ ⟨k.val / 8 % 8, by omega⟩ ⟨k.val % 8, by omega⟩ := by
  funext a; refine Fin.ext ?_
  have hb := b.isLt; have hn := n.isLt; have hk := k.isLt
  match a with
  | ⟨0, _⟩ => show ((b.val * 64 + n.val) * 192 + k.val) / 12288 = b.val; omega
  | ⟨1, _⟩ => show ((b.val * 64 + n.val) * 192 + k.val) / 192 % 64 = n.val; omega
  | ⟨2, _⟩ => show ((b.val * 64 + n.val) * 192 + k.val) / 64 % 3 = k.val / 64; omega
  | ⟨3, _⟩ => show ((b.val * 64 + n.val) * 192 + k.val) / 8 % 8 = k.val / 8 % 8; omega
  | ⟨4, _⟩ => show ((b.val * 64 + n.val) * 192 + k.val) % 8 = k.val % 8; omega

/-- The reduce's operand index for result (b, n) and position k is (b, n, k). -/
theorem red_idx (b : Fin 32) (n : Fin 64) (k : Fin 192) : idx_main_v33 (ix2 b n) k = ix3 b n k := by
  funext a; match a with | ⟨0, _⟩ => rfl | ⟨1, _⟩ => rfl | ⟨2, _⟩ => rfl

/-- The mean broadcast back over the 192 positions is read at (b, n). -/
theorem bc_idx (b : Fin 32) (n : Fin 64) (k : Fin 192) : idx_main_v36 (idx_main_v37 (ix3 b n k)) = ix2 b n := by
  funext a; match a with | ⟨0, _⟩ => rfl | ⟨1, _⟩ => rfl

/-- The origin tables broadcast to [32, 64, 1] are read at (b, n). -/
theorem org_idx (b : Fin 32) (n : Fin 64) : idx_main_v11 (ix3 b n 0) = ix2 b n := by
  funext a; match a with | ⟨0, _⟩ => rfl | ⟨1, _⟩ => rfl

/-- The row origin the reference hands the gather for patch (b, n) is the table's word. -/
theorem v14_at1 (x2 x3 : IVec S32x64 32) (h2 : ∀ j, (x2 j).toNat ≤ 504) (b : Fin 32) (n : Fin 64) :
    val_main_v14 (F := Ideal) x2 x3 (ix3 b n 1) = x2 (ix2 b n) := by
  unfold val_main_v14
  rw [cat3_1, val_main_v11_apply, val_main_v4_apply, val_main_v1_apply, val_main_v3_apply, val_main_v0_apply,
    val_main_c_apply, val_main_v2_apply, val_main_c_0_apply,
    show idx_main_v11 (ix3 b n 0) = ix2 b n from org_idx b n]
  exact wrap_keep _ (h2 _)

/-- The column origin likewise. -/
theorem v14_at2 (x2 x3 : IVec S32x64 32) (h3 : ∀ j, (x3 j).toNat ≤ 504) (b : Fin 32) (n : Fin 64) :
    val_main_v14 (F := Ideal) x2 x3 (ix3 b n 2) = x3 (ix2 b n) := by
  unfold val_main_v14
  rw [cat3_2, val_main_v12_apply, val_main_v9_apply, val_main_v6_apply, val_main_v8_apply, val_main_v5_apply,
    val_main_c_1_apply, val_main_v7_apply, val_main_c_2_apply,
    show idx_main_v12 (ix3 b n 0) = ix2 b n from org_idx b n]
  exact wrap_keep _ (h3 _)

/-- The gathered block is the specification's patch: the channel start is clamped to 0, and a row or column origin of
    at most 504 is neither wrapped nor clamped, nor does origin + offset reach 512. -/
theorem gather_patch_g (x0 : FVec Ideal S32x3x512x512 .f32) (x2 x3 : IVec S32x64 32)
    (h2 : ∀ j, (x2 j).toNat ≤ 504) (h3 : ∀ j, (x3 j).toNat ≤ 504)
    (b : Fin 32) (n : Fin 64) (c : Fin 3) (h w : Fin 8) :
    val_main_v15 (F := Ideal) x0 x2 x3 (ix5 b n c h w) = patch x0 x2 x3 b n c h w := by
  unfold val_main_v15 patch
  rw [gather_apply]
  congr 1
  funext a; refine Fin.ext ?_
  match a with
  | ⟨0, _⟩ => rfl
  | ⟨1, _⟩ =>
    show min (val_main_v14 (F := Ideal) x2 x3 (ix3 b n 0)).toInt.toNat 0 + c.val = c.val
    omega
  | ⟨2, _⟩ =>
    show min (val_main_v14 (F := Ideal) x2 x3 (ix3 b n 1)).toInt.toNat 504 + h.val = ((x2 (ix2 b n)).toNat + h.val) % 512
    rw [v14_at1 x2 x3 h2, toInt_toNat_small _ (h2 _)]
    have := h2 (ix2 b n); omega
  | ⟨3, _⟩ =>
    show min (val_main_v14 (F := Ideal) x2 x3 (ix3 b n 2)).toInt.toNat 504 + w.val = ((x3 (ix2 b n)).toNat + w.val) % 512
    rw [v14_at2 x2 x3 h3, toInt_toNat_small _ (h3 _)]
    have := h3 (ix2 b n); omega

/-- Position k of the flattened block of patch (b, n). -/
theorem flat_patch_g (x0 : FVec Ideal S32x3x512x512 .f32) (x2 x3 : IVec S32x64 32)
    (h2 : ∀ j, (x2 j).toNat ≤ 504) (h3 : ∀ j, (x3 j).toNat ≤ 504) (b : Fin 32) (n : Fin 64) (k : Fin 192) :
    val_main_v32 (F := Ideal) x0 x2 x3 (ix3 b n k)
      = patch x0 x2 x3 b n ⟨k.val / 64, by omega⟩ ⟨k.val / 8 % 8, by omega⟩ ⟨k.val % 8, by omega⟩ := by
  rw [val_main_v32_apply,
    show idx_main_v32 (ix3 b n k) = ix5 b n ⟨k.val / 64, by omega⟩ ⟨k.val / 8 % 8, by omega⟩ ⟨k.val % 8, by omega⟩
      from flat_idx b n k,
    gather_patch_g x0 x2 x3 h2 h3]

/-- The reference's mean array is the specification's: the sum of the 192 flattened entries, regrouped, over 192. -/
theorem ref_mean_g (x0 : FVec Ideal S32x3x512x512 .f32) (x2 x3 : IVec S32x64 32)
    (h2 : ∀ j, (x2 j).toNat ≤ 504) (h3 : ∀ j, (x3 j).toNat ≤ 504) :
    Cert.ReferenceIdeal.Read.val_main_v35 (F := Ideal) x0 x2 x3 = meanArr x0 x2 x3 := by
  funext j
  obtain ⟨b, n, rfl⟩ : ∃ b n, j = ix2 b n := ⟨j 0, j 1, eq_ix2 j⟩
  rw [val_main_v35_apply, val_main_v33_apply, val_main_v34_apply, val_main_cst_9_apply, val_main_cst_apply]
  show Ideal.div (Ideal.ofBits .f32 0x00000000#32
      + ∑ k : Fin 192, val_main_v32 (F := Ideal) x0 x2 x3 (idx_main_v33 (ix2 b n) k)) c192 = pmean x0 x2 x3 b n
  rw [Ideal.ofBits_zero_f32, zero_add]
  unfold pmean psum
  congr 1
  rw [← sum_flat192 (fun c h w => patch x0 x2 x3 b n c h w)]
  refine Finset.sum_congr rfl (fun k _ => ?_)
  rw [show idx_main_v33 (ix2 b n) k = ix3 b n k from red_idx b n k, flat_patch_g x0 x2 x3 h2 h3]

/-- The reference's variance array is the specification's two-pass form: each flattened entry less the mean of its
    patch, squared, summed, over 191. -/
theorem ref_var_g (x0 : FVec Ideal S32x3x512x512 .f32) (x2 x3 : IVec S32x64 32)
    (h2 : ∀ j, (x2 j).toNat ≤ 504) (h3 : ∀ j, (x3 j).toNat ≤ 504) :
    Cert.ReferenceIdeal.Read.val_main_v42 (F := Ideal) x0 x2 x3 = var2Arr x0 x2 x3 := by
  funext j
  obtain ⟨b, n, rfl⟩ : ∃ b n, j = ix2 b n := ⟨j 0, j 1, eq_ix2 j⟩
  rw [val_main_v42_apply, val_main_v40_apply, val_main_v41_apply, val_main_cst_11_apply, val_main_cst_10_apply]
  show Ideal.div (Ideal.ofBits .f32 0x00000000#32
      + ∑ k : Fin 192, val_main_v39 (F := Ideal) x0 x2 x3 (idx_main_v40 (ix2 b n) k)) c191 = pvar2 x0 x2 x3 b n
  rw [Ideal.ofBits_zero_f32, zero_add]
  unfold pvar2
  congr 1
  rw [← sum_flat192 (fun c h w =>
    (patch x0 x2 x3 b n c h w - pmean x0 x2 x3 b n) * (patch x0 x2 x3 b n c h w - pmean x0 x2 x3 b n))]
  refine Finset.sum_congr rfl (fun k _ => ?_)
  rw [show idx_main_v40 (ix2 b n) k = ix3 b n k from red_idx b n k, val_main_v39_apply, val_main_v38_apply,
    val_main_v37_apply, val_main_v36_apply,
    show idx_main_v36 (idx_main_v37 (ix3 b n k)) = ix2 b n from bc_idx b n k,
    flat_patch_g x0 x2 x3 h2 h3, ref_mean_g x0 x2 x3 h2 h3]
  rfl

/-- The same for the second image array and its origin tables: the row origin … -/
theorem v30_at1 (x4 x5 : IVec S32x64 32) (h4 : ∀ j, (x4 j).toNat ≤ 504) (b : Fin 32) (n : Fin 64) :
    val_main_v30 (F := Ideal) x4 x5 (ix3 b n 1) = x4 (ix2 b n) := by
  unfold val_main_v30
  rw [cat3_1, val_main_v27_apply, val_main_v20_apply, val_main_v17_apply, val_main_v19_apply, val_main_v16_apply,
    val_main_c_4_apply, val_main_v18_apply, val_main_c_5_apply,
    show idx_main_v27 (ix3 b n 0) = ix2 b n from org_idx b n]
  exact wrap_keep _ (h4 _)

/-- … the column origin … -/
theorem v30_at2 (x4 x5 : IVec S32x64 32) (h5 : ∀ j, (x5 j).toNat ≤ 504) (b : Fin 32) (n : Fin 64) :
    val_main_v30 (F := Ideal) x4 x5 (ix3 b n 2) = x5 (ix2 b n) := by
  unfold val_main_v30
  rw [cat3_2, val_main_v28_apply, val_main_v25_apply, val_main_v22_apply, val_main_v24_apply, val_main_v21_apply,
    val_main_c_6_apply, val_main_v23_apply, val_main_c_7_apply,
    show idx_main_v28 (ix3 b n 0) = ix2 b n from org_idx b n]
  exact wrap_keep _ (h5 _)

/-- … the gathered block … -/
theorem gather_patch_t (x1 : FVec Ideal S32x3x512x512 .f32) (x4 x5 : IVec S32x64 32)
    (h4 : ∀ j, (x4 j).toNat ≤ 504) (h5 : ∀ j, (x5 j).toNat ≤ 504)
    (b : Fin 32) (n : Fin 64) (c : Fin 3) (h w : Fin 8) :
    val_main_v31 (F := Ideal) x1 x4 x5 (ix5 b n c h w) = patch x1 x4 x5 b n c h w := by
  unfold val_main_v31 patch
  rw [gather_apply]
  congr 1
  funext a; refine Fin.ext ?_
  match a with
  | ⟨0, _⟩ => rfl
  | ⟨1, _⟩ =>
    show min (val_main_v30 (F := Ideal) x4 x5 (ix3 b n 0)).toInt.toNat 0 + c.val = c.val
    omega
  | ⟨2, _⟩ =>
    show min (val_main_v30 (F := Ideal) x4 x5 (ix3 b n 1)).toInt.toNat 504 + h.val = ((x4 (ix2 b n)).toNat + h.val) % 512
    rw [v30_at1 x4 x5 h4, toInt_toNat_small _ (h4 _)]
    have := h4 (ix2 b n); omega
  | ⟨3, _⟩ =>
    show min (val_main_v30 (F := Ideal) x4 x5 (ix3 b n 2)).toInt.toNat 504 + w.val = ((x5 (ix2 b n)).toNat + w.val) % 512
    rw [v30_at2 x4 x5 h5, toInt_toNat_small _ (h5 _)]
    have := h5 (ix2 b n); omega

/-- … position k of the flattened block … -/
theorem flat_patch_t (x1 : FVec Ideal S32x3x512x512 .f32) (x4 x5 : IVec S32x64 32)
    (h4 : ∀ j, (x4 j).toNat ≤ 504) (h5 : ∀ j, (x5 j).toNat ≤ 504) (b : Fin 32) (n : Fin 64) (k : Fin 192) :
    val_main_v43 (F := Ideal) x1 x4 x5 (ix3 b n k)
      = patch x1 x4 x5 b n ⟨k.val / 64, by omega⟩ ⟨k.val / 8 % 8, by omega⟩ ⟨k.val % 8, by omega⟩ := by
  rw [val_main_v43_apply,
    show idx_main_v43 (ix3 b n k) = ix5 b n ⟨k.val / 64, by omega⟩ ⟨k.val / 8 % 8, by omega⟩ ⟨k.val % 8, by omega⟩
      from flat_idx b n k,
    gather_patch_t x1 x4 x5 h4 h5]

/-- … the mean array … -/
theorem ref_mean_t (x1 : FVec Ideal S32x3x512x512 .f32) (x4 x5 : IVec S32x64 32)
    (h4 : ∀ j, (x4 j).toNat ≤ 504) (h5 : ∀ j, (x5 j).toNat ≤ 504) :
    Cert.ReferenceIdeal.Read.val_main_v46 (F := Ideal) x1 x4 x5 = meanArr x1 x4 x5 := by
  funext j
  obtain ⟨b, n, rfl⟩ : ∃ b n, j = ix2 b n := ⟨j 0, j 1, eq_ix2 j⟩
  rw [val_main_v46_apply, val_main_v44_apply, val_main_v45_apply, val_main_cst_13_apply, val_main_cst_12_apply]
  show Ideal.div (Ideal.ofBits .f32 0x00000000#32
      + ∑ k : Fin 192, val_main_v43 (F := Ideal) x1 x4 x5 (idx_main_v44 (ix2 b n) k)) c192 = pmean x1 x4 x5 b n
  rw [Ideal.ofBits_zero_f32, zero_add]
  unfold pmean psum
  congr 1
  rw [← sum_flat192 (fun c h w => patch x1 x4 x5 b n c h w)]
  refine Finset.sum_congr rfl (fun k _ => ?_)
  rw [show idx_main_v44 (ix2 b n) k = ix3 b n k from red_idx b n k, flat_patch_t x1 x4 x5 h4 h5]

/-- … and the variance array. -/
theorem ref_var_t (x1 : FVec Ideal S32x3x512x512 .f32) (x4 x5 : IVec S32x64 32)
    (h4 : ∀ j, (x4 j).toNat ≤ 504) (h5 : ∀ j, (x5 j).toNat ≤ 504) :
    Cert.ReferenceIdeal.Read.val_main_v53 (F := Ideal) x1 x4 x5 = var2Arr x1 x4 x5 := by
  funext j
  obtain ⟨b, n, rfl⟩ : ∃ b n, j = ix2 b n := ⟨j 0, j 1, eq_ix2 j⟩
  rw [val_main_v53_apply, val_main_v51_apply, val_main_v52_apply, val_main_cst_15_apply, val_main_cst_14_apply]
  show Ideal.div (Ideal.ofBits .f32 0x00000000#32
      + ∑ k : Fin 192, val_main_v50 (F := Ideal) x1 x4 x5 (idx_main_v51 (ix2 b n) k)) c191 = pvar2 x1 x4 x5 b n
  rw [Ideal.ofBits_zero_f32, zero_add]
  unfold pvar2
  congr 1
  rw [← sum_flat192 (fun c h w =>
    (patch x1 x4 x5 b n c h w - pmean x1 x4 x5 b n) * (patch x1 x4 x5 b n c h w - pmean x1 x4 x5 b n))]
  refine Finset.sum_congr rfl (fun k _ => ?_)
  rw [show idx_main_v51 (ix2 b n) k = ix3 b n k from red_idx b n k, val_main_v50_apply, val_main_v49_apply,
    val_main_v48_apply, val_main_v47_apply,
    show idx_main_v47 (idx_main_v48 (ix3 b n k)) = ix2 b n from bc_idx b n k,
    flat_patch_t x1 x4 x5 h4 h5, ref_mean_t x1 x4 x5 h4 h5]
  rfl

/-- The reference's result is the common last stretch on its four statistics arrays: the same operations in the same
    order. -/
theorem ref_result (x0 x1 : FVec Ideal S32x3x512x512 .f32) (x2 x3 x4 x5 : IVec S32x64 32) :
    Cert.ReferenceIdeal.Read.val_main_v62 (F := Ideal) x0 x1 x2 x3 x4 x5
      = loss Cert.ReferenceIdeal.Facts₀.reducesTo_S32x64_S_d0_1 Cert.ReferenceIdeal.Facts₀.h_S_
          (val_main_v35 (F := Ideal) x0 x2 x3) (val_main_v42 (F := Ideal) x0 x2 x3)
          (val_main_v46 (F := Ideal) x1 x4 x5) (val_main_v53 (F := Ideal) x1 x4 x5) := rfl

end Cert.Proof.Tex.Ref

end
-- ==== Proof.lean ====
/-
  What is proved, and by which law.

  The programs take two image arrays of shape [32, 3, 512, 512] and, for each, a table of row origins and a table of
  column origins of shape [32, 64]. An origin pair names the 3 × 8 × 8 block of its image whose top-left corner it is.
  Of every block both programs form the mean of its 192 entries and the unbiased variance (divisor 191), and the result
  is one scalar: the mean over the 32 × 64 blocks of the squared difference of the two images' block means, plus the
  mean of the squared difference of their block variances.

  The two programs differ in two places. The kernel copies each block out of the image at its origin and forms the
  variance in one pass, (Σ x² − 192 · mean²) / 191; the reference wraps a negative origin by 512, clamps the block's
  start so that the block fits, gathers it, and forms the variance in two passes, Σ (x − mean)² / 191. The precondition
  bounds every origin word by 504 (and by 0 below, as a signed word) and says every image entry is a real number. Under
  the bound the reference's wrap and clamp are the identity and origin + offset never reaches 512, so both programs
  read the same 192 entries, and every copy the kernel issues stays inside its array, which is what its run needs.
  On real entries the one-pass and the two-pass variance are equal: with m = (Σ x) / 192,
  Σ (x − m)² = Σ x² − 2 m Σ x + 192 m² = Σ x² − 192 m². The last stretch — differences, squares, the two sums over
  all blocks, the divisions by 2048 and the final sum — is the same sequence of operations in both programs.

  So over the extended reals both results are one function of the argument arrays: the common last stretch applied to
  the block means and the one-pass block variances of the two images.
-/
import proofs.«403745_j3521873182816_1_alg».proof.Defs
import proofs.«403745_j3521873182816_1_alg».proof.Proof.Gen.Kernel
import proofs.«403745_j3521873182816_1_alg».proof.Proof.Gen.KernelIdeal
import proofs.«403745_j3521873182816_1_alg».proof.Proof.Gen.ReferenceIdeal
import proofs.«403745_j3521873182816_1_alg».proof.Proof.Gen.Pre_finite_inputs
import proofs.«403745_j3521873182816_1_alg».proof.Proof.Gen.ReferenceIdeal.Run
import proofs.«403745_j3521873182816_1_alg».proof.Proof.Gen.ReferenceIdeal.Read
import proofs.«403745_j3521873182816_1_alg».proof.Proof.K.Launch
import proofs.«403745_j3521873182816_1_alg».proof.Proof.K.PreOK
import proofs.«403745_j3521873182816_1_alg».proof.Proof.KI.Launch
import proofs.«403745_j3521873182816_1_alg».proof.Proof.KI.PreOK
import proofs.«403745_j3521873182816_1_alg».proof.Proof.KI.ValueArr
import proofs.«403745_j3521873182816_1_alg».proof.Proof.Tex.Spec
import proofs.«403745_j3521873182816_1_alg».proof.Proof.Tex.Algebra
import proofs.«403745_j3521873182816_1_alg».proof.Proof.Tex.PreDecode
import proofs.«403745_j3521873182816_1_alg».proof.Proof.Tex.RefValue

noncomputable section

open Idealize.ShloMosaic Idealize.ShloMosaic.TcCoe Idealize.SL.Sem

namespace Cert.Proof

open Cert.Proof.Tex

/-! ## The three runs

Each program, from any memory of which the precondition holds, terminates with its six argument arrays as launched. For
the kernel, at either reading of the floats, the precondition's bound on the origin words is what the run takes: every
block copy stays inside its image. The reference is host operations only and runs from any memory. -/

theorem frame_k : Cert.frame_Kernel := fun m ρ hpre =>
  (θ_run _ _ _).mono (fun _ h c => (h c).2) (Cert.Proof.K.run_main (F := Bits) m ρ (Cert.Proof.K.tabsOK_of_pre m hpre))

theorem frame_ki : Cert.frame_KernelIdeal := fun m ρ hpre =>
  (θ_run _ _ _).mono (fun _ h c => (h c).2) (Cert.Proof.KI.run_main (F := Ideal) m ρ (Cert.Proof.KI.tabsOK_of_pre m hpre))

theorem frame_ri : Cert.frame_ReferenceIdeal := fun m ρ _ =>
  (θ_run Cert.ReferenceIdeal.defs _ _).mono (fun _ h c => (h c).2) (Cert.ReferenceIdeal.Value.run (F := Ideal) m ρ)

/-! ## Equal results over the extended reals -/

/-- The common value on a device: the last stretch applied to the block means and the one-pass block variances of the
    two images, as functions of the arrays the device holds at launch. -/
def common (A B : SImg.Idx → EReal) (Y X Y' X' : STab.Idx → BitVec 32) : FVec Ideal SSc .f32 :=
  loss Cert.ReferenceIdeal.Facts₀.reducesTo_S32x64_S_d0_1 Cert.ReferenceIdeal.Facts₀.h_S_
    (meanArr A Y X) (var1Arr A Y X) (meanArr B Y' X') (var1Arr B Y' X')

/-- The reference's result is the common value: its four statistics arrays are the specification's (the origins are in
    range, so the gathered blocks are the patches), and its two-pass variances are the one-pass ones on real entries. -/
theorem ref_common (A B : FVec Ideal Cert.ReferenceIdeal.S32x3x512x512 .f32) (Y X Y' X' : IVec Cert.ReferenceIdeal.S32x64 32)
    (h : Cert.Pre_finite_inputs.fn (F := Ideal) A B Y X Y' X' = fun _ => 1#1) :
    Cert.ReferenceIdeal.Read.val_main_v62 (F := Ideal) A B Y X Y' X' = common A B Y X Y' X' := by
  obtain ⟨h2, h3, h4, h5⟩ := origins_le_504 A B Y X Y' X' h
  obtain ⟨rA, rB⟩ := inputs_real A B Y X Y' X' h
  rw [Ref.ref_result, Ref.ref_mean_g A Y X h2 h3, Ref.ref_var_g A Y X h2 h3, Ref.ref_mean_t B Y' X' h4 h5,
    Ref.ref_var_t B Y' X' h4 h5, ← var1Arr_eq_var2Arr A Y X rA, ← var1Arr_eq_var2Arr B Y' X' rB]
  rfl

/-- From memories that agree on the arguments both programs end with the common value in their result and the
    arguments unchanged. -/
theorem algebraic : Cert.algebraic_KernelIdeal_ReferenceIdeal := by
  intro m ρ m' ρ' hpre hagree
  have hT := Cert.Proof.KI.tabsOK_of_pre (F := Ideal) m hpre
  refine ⟨fun c => common
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · -- the kernel: the host's last stretch on the four result arrays, which end at the specification's statistics
    refine (θ_run _ _ _).mono (fun _ h c => ⟨(h c).1.trans ?_, (h c).2⟩) (Cert.Proof.KI.run_main (F := Ideal) m ρ hT)
    have e0 : Cert.Proof.KI.finalA m ρ hT c 0 = _ := Cert.Proof.KI.Val.final0 m ρ hT c
    have e1 : Cert.Proof.KI.finalA m ρ hT c 1 = _ := Cert.Proof.KI.Val.final1 m ρ hT c
    have e2 : Cert.Proof.KI.finalA m ρ hT c 2 = _ := Cert.Proof.KI.Val.final2 m ρ hT c
    have e3 : Cert.Proof.KI.finalA m ρ hT c 3 = _ := Cert.Proof.KI.Val.final3 m ρ hT c
    rw [e0, e1, e2, e3]
    rfl
  · -- the reference: its composed term, read at the kernel's arrays by the agreement
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v62_eq, (hagree c).1, (hagree c).2.1, (hagree c).2.2.1, (hagree c).2.2.2.1,
      (hagree c).2.2.2.2.1, (hagree c).2.2.2.2.2]
    exact ref_common _ _ _ _ _ _ (hpre c)

/-- Every claim of the certificate, at the side conditions the generated modules prove. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
